-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S50000 : Shape := ⟨1, ![50000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S10x64 .f32) (main_v50 : FVec F S10x64 .f32) : IVec S_ 1 :=
  let main_v51 : IVec S10x64 1 := cmpf .olt main_v49 main_v50
  let main_c_19 : IVec S_ 1 := constantI S_ 1 1#1
  let main_v52 : IVec S_ 1 := (fun x v => Host.reduce IntOp.andi x v reducesTo_S10x64_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S64x64 .f32) (main_arg10 : FVec F S64 .f32) (main_arg11 : FVec F S64x64 .f32) (main_arg12 : FVec F S10x64 .f32) (main_arg13 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S10x64 .f32 := Host.absf main_arg12
  let main_cst_18 : FVec F S_ .f32 := constant S_ .f32 0x7F800000#32
  let main_v50 : FVec F S10x64 .f32 := broadcastInDim S10x64 ![] bcast_S_S10x64 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S10x64 .f32) (main_arg13 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : IVec S2x1250000 32) (main_arg2 : IVec S50000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S10x64 .f32) (main_arg13 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S2x1250000 : Shape := ⟨2, ![2, 1250000]⟩
abbrev S50000 : Shape := ⟨1, ![50000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S10000x64 : Shape := ⟨2, ![10000, 64]⟩
abbrev S1x64 : Shape := ⟨2, ![1, 64]⟩
abbrev S50000x1 : Shape := ⟨2, ![50000, 1]⟩
abbrev S128 : Shape := ⟨1, ![128]⟩
abbrev S128x1 : Shape := ⟨2, ![128, 1]⟩
abbrev S128x64 : Shape := ⟨2, ![128, 64]⟩
abbrev S128x10 : Shape := ⟨2, ![128, 10]⟩
abbrev S5000x64 : Shape := ⟨2, ![5000, 64]⟩
abbrev S5000x1 : Shape := ⟨2, ![5000, 1]⟩
abbrev S5000x128 : Shape := ⟨2, ![5000, 128]⟩
abbrev S64x10 : Shape := ⟨2, ![64, 10]⟩
abbrev S1x10 : Shape := ⟨2, ![1, 10]⟩

abbrev nBuf : Space → Nat
  | .hbm => 69
  | .vmem => 33
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S10x64, .f32⟩
  | .hbm, ⟨13, _⟩ => ⟨S10, .f32⟩
  | .hbm, ⟨14, _⟩ => ⟨S1x1250000, .i32⟩
  | .hbm, ⟨15, _⟩ => ⟨S1250000, .i32⟩
  | .hbm, ⟨16, _⟩ => ⟨S1x1250000, .i32⟩
  | .hbm, ⟨17, _⟩ => ⟨S1250000, .i32⟩
  | .hbm, ⟨18, _⟩ => ⟨S_, .i32⟩
  | .hbm, ⟨19, _⟩ => ⟨S1250000, .i32⟩
  | .hbm, ⟨20, _⟩ => ⟨S1250000, .i1⟩
  | .hbm, ⟨21, _⟩ => ⟨S_, .i32⟩
  | .hbm, ⟨22, _⟩ => ⟨S1250000, .i32⟩
  | .hbm, ⟨23, _⟩ => ⟨S1250000, .i32⟩
  | .hbm, ⟨24, _⟩ => ⟨S1250000, .i32⟩
  | .hbm, ⟨25, _⟩ => ⟨S1250000x1, .i32⟩
  | .hbm, ⟨26, _⟩ => ⟨S1250000x64, .f32⟩
  | .hbm, ⟨27, _⟩ => ⟨S_, .f32⟩
  | .hbm, ⟨28, _⟩ => ⟨S50000x64, .f32⟩
  | .hbm, ⟨29, _⟩ => ⟨S1250000x1, .i32⟩
  | .hbm, ⟨30, _⟩ => ⟨S50000x64, .f32⟩
  | .hbm, ⟨31, _⟩ => ⟨S50000x64, .f32⟩
  | .hbm, ⟨32, _⟩ => ⟨S_, .i32⟩
  | .hbm, ⟨33, _⟩ => ⟨S1250000, .i32⟩
  | .hbm, ⟨34, _⟩ => ⟨S1250000, .i1⟩
  | .hbm, ⟨35, _⟩ => ⟨S_, .i32⟩
  | .hbm, ⟨36, _⟩ => ⟨S1250000, .i32⟩
  | .hbm, ⟨37, _⟩ => ⟨S1250000, .i32⟩
  | .hbm, ⟨38, _⟩ => ⟨S1250000, .i32⟩
  | .hbm, ⟨39, _⟩ => ⟨S1250000x1, .i32⟩
  | .hbm, ⟨40, _⟩ => ⟨S1250000x64, .f32⟩
  | .hbm, ⟨41, _⟩ => ⟨S_, .f32⟩
  | .hbm, ⟨42, _⟩ => ⟨S50000x64, .f32⟩
  | .hbm, ⟨43, _⟩ => ⟨S1250000x1, .i32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000x64, .f32⟩
  | .hbm, ⟨55, _⟩ => ⟨S_, .f32⟩
  | .hbm, ⟨56, _⟩ => ⟨S50000x64, .f32⟩
  | .hbm, ⟨57, _⟩ => ⟨S1250000x1, .i32⟩
  | .hbm, ⟨58, _⟩ => ⟨S50000x64, .f32⟩
  | .hbm, ⟨59, _⟩ => ⟨S50000x1, .i32⟩
  | .hbm, ⟨60, _⟩ => ⟨S_, .f32⟩
  | .hbm, ⟨61, _⟩ => ⟨S50000, .f32⟩
  | .hbm, ⟨62, _⟩ => ⟨S_, .f32⟩
  | .hbm, ⟨63, _⟩ => ⟨S128, .f32⟩
  | .hbm, ⟨64, _⟩ => ⟨S50000x1, .i32⟩
  | .hbm, ⟨65, _⟩ => ⟨S128, .f32⟩
  | .hbm, ⟨66, _⟩ => ⟨S128x1, .f32⟩
  | .hbm, ⟨67, _⟩ => ⟨S128x64, .f32⟩
  | .hbm, ⟨68, _⟩ => ⟨S128x10, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S64, .f32⟩
  | .local _ .vmem, ⟨25, _⟩ => ⟨S5000x1, .i32⟩
  | .local _ .vmem, ⟨26, _⟩ => ⟨S5000x1, .i32⟩
  | .local _ .vmem, ⟨27, _⟩ => ⟨S128x1, .f32⟩
  | .local _ .vmem, ⟨28, _⟩ => ⟨S10x64, .f32⟩
  | .local _ .vmem, ⟨29, _⟩ => ⟨S10, .f32⟩
  | .local _ .vmem, ⟨30, _⟩ => ⟨S128x64, .f32⟩
  | .local _ .vmem, ⟨31, _⟩ => ⟨S128x10, .f32⟩
  | .local _ .vmem, ⟨32, _⟩ => ⟨S128x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42_0 : Ref sig .tc := ⟨.hbm, 67, rfl⟩
abbrev main_v42_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_17 : BitVec 32 := 0#32
  let v37 : BitVec 1 := Scalar.cmpi .ne v36 c0_i32_17
  v37

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S10 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x10 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S50000_S50000x1 : S50000.ShapeCasts S50000x1
  bcast_S_S50000 : S_.BroadcastsInDim S50000 (![] : Fin 0 → Fin S50000.rank)
  bcast_S_S128 : S_.BroadcastsInDim S128 (![] : Fin 0 → Fin S128.rank)
  bcast_S50000_S50000x1_0 : S50000.BroadcastsInDim S50000x1 (![0] : Fin 1 → Fin S50000x1.rank)
  shapeCasts_S128_S128x1 : S128.ShapeCasts S128x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  inb_S10x64_S10x64_0_0 : ∀ a, (![0, 0] : Fin 2 → Nat) a + S10x64.size a ≤ S10x64.size a
  h_S10x64 : 0 < S10x64.numel
  transposes_S10x64_p1_0_S64x10 : S10x64.Transposes [1, 0] S64x10
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S10000x64_S64x64_S10000x64_1_0_0_1_n_n_wf : DotDims.WF S10000x64 S64x64 S10000x64 [1] [0] [0] [1] [] []
  scatter_S128_S50000x1_S50000_n_0_0_1_wf : ScatterDims.WF S128 S50000x1 S50000 [] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .i32 = 32 ∨ (Rect.block (s := S50000x1) S5000x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S10x64.size a ≤ S10x64.size a
  hwx2_7 : ∀ i : grid2.Coords, EltTy.bits .f32 = 32 ∨ (Rect.block (s := S10x64) S10x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S10.size a ≤ S10.size a
  hwx2_8 : ∀ i : grid2.Coords, EltTy.bits .f32 = 32 ∨ (Rect.block (s := S10) S10.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x64.size a ≤ S128x64.size a
  hwx2_9 : ∀ i : grid2.Coords, EltTy.bits .f32 = 32 ∨ (Rect.block (s := S128x64) S128x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x10.size a ≤ S128x10.size a
  hwx2_10 : ∀ i : grid2.Coords, EltTy.bits .f32 = 32 ∨ (Rect.block (s := S128x10) S128x10.size (cc2_transform_10 i) (hinb2_10 i)).WholeWords (EltTy.packing .f32)

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S10x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg13) S10.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v42_0) S128x64.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_v42_1) S128x10.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | 10 => fun i => !(k2_cond2 i == 1#1) | ⟨_ + 11, h⟩ => absurd h (Nat.not_lt.2 (Nat.le_add_left _ _))

class Facts : Prop extends Facts₀ where

variable [Facts]
-- ==== ReferenceIdeal.lean ====
abbrev S50000x64 : Shape := ⟨2, ![50000, 64]⟩
abbrev S2x1250000 : Shape := ⟨2, ![2, 1250000]⟩
abbrev S50000 : Shape := ⟨1, ![50000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩
abbrev S128x64 : Shape := ⟨2, ![128, 64]⟩
abbrev S50000x1 : Shape := ⟨2, ![50000, 1]⟩
abbrev S128 : Shape := ⟨1, ![128]⟩
abbrev S128x1 : Shape := ⟨2, ![128, 1]⟩
abbrev S64x10 : Shape := ⟨2, ![64, 10]⟩
abbrev S128x10 : Shape := ⟨2, ![128, 10]⟩
abbrev S1x10 : Shape := ⟨2, ![1, 10]⟩

abbrev nBuf : Space → Nat
  | .hbm => 108
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S10x64, .f32⟩
  | .hbm, ⟨13, _⟩ => ⟨S10, .f32⟩
  | .hbm, ⟨14, _⟩ => ⟨S1x1250000, .i32⟩
  | .hbm, ⟨15, _⟩ => ⟨S1250000, .i32⟩
  | .hbm, ⟨16, _⟩ => ⟨S1x1250000, .i32⟩
  | .hbm, ⟨17, _⟩ => ⟨S1250000, .i32⟩
  | .hbm, ⟨18, _⟩ => ⟨S_, .i32⟩
  | .hbm, ⟨19, _⟩ => ⟨S1250000, .i32⟩
  | .hbm, ⟨20, _⟩ => ⟨S1250000, .i1⟩
  | .hbm, ⟨21, _⟩ => ⟨S_, .i32⟩
  | .hbm, ⟨22, _⟩ => ⟨S1250000, .i32⟩
  | .hbm, ⟨23, _⟩ => ⟨S1250000, .i32⟩
  | .hbm, ⟨24, _⟩ => ⟨S1250000, .i32⟩
  | .hbm, ⟨25, _⟩ => ⟨S1250000x1, .i32⟩
  | .hbm, ⟨26, _⟩ => ⟨S1250000x64, .f32⟩
  | .hbm, ⟨27, _⟩ => ⟨S_, .f32⟩
  | .hbm, ⟨28, _⟩ => ⟨S50000x64, .f32⟩
  | .hbm, ⟨29, _⟩ => ⟨S1250000x1, .i32⟩
  | .hbm, ⟨30, _⟩ => ⟨S50000x64, .f32⟩
  | .hbm, ⟨31, _⟩ => ⟨S64x64, .f32⟩
  | .hbm, ⟨32, _⟩ => ⟨S50000x64, .f32⟩
  | .hbm, ⟨33, _⟩ => ⟨S1x64, .f32⟩
  | .hbm, ⟨34, _⟩ => ⟨S50000x64, .f32⟩
  | .hbm, ⟨35, _⟩ => ⟨S50000x64, .f32⟩
  | .hbm, ⟨36, _⟩ => ⟨S64x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S1250000x64, .f32⟩
  | .hbm, ⟨51, _⟩ => ⟨S_, .f32⟩
  | .hbm, ⟨52, _⟩ => ⟨S50000x64, .f32⟩
  | .hbm, ⟨53, _⟩ => ⟨S1250000x1, .i32⟩
  | .hbm, ⟨54, _⟩ => ⟨S50000x64, .f32⟩
  | .hbm, ⟨55, _⟩ => ⟨S64x64, .f32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S50000x64, .f32⟩
  | .hbm, ⟨60, _⟩ => ⟨S64x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S_, .i32⟩
  | .hbm, ⟨67, _⟩ => ⟨S1250000, .i32⟩
  | .hbm, ⟨68, _⟩ => ⟨S1250000, .i1⟩
  | .hbm, ⟨69, _⟩ => ⟨S_, .i32⟩
  | .hbm, ⟨70, _⟩ => ⟨S1250000, .i32⟩
  | .hbm, ⟨71, _⟩ => ⟨S1250000, .i32⟩
  | .hbm, ⟨72, _⟩ => ⟨S1250000, .i32⟩
  | .hbm, ⟨73, _⟩ => ⟨S1250000x1, .i32⟩
  | .hbm, ⟨74, _⟩ => ⟨S1250000x64, .f32⟩
  | .hbm, ⟨75, _⟩ => ⟨S_, .f32⟩
  | .hbm, ⟨76, _⟩ => ⟨S50000x64, .f32⟩
  | .hbm, ⟨77, _⟩ => ⟨S1250000x1, .i32⟩
  | .hbm, ⟨78, _⟩ => ⟨S50000x64, .f32⟩
  | .hbm, ⟨79, _⟩ => ⟨S64x64, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S64x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S128x64, .f32⟩
  | .hbm, ⟨89, _⟩ => ⟨S50000x1, .i32⟩
  | .hbm, ⟨90, _⟩ => ⟨S128x64, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S128, .f32⟩
  | .hbm, ⟨95, _⟩ => ⟨S50000x1, .i32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128x1, .f32⟩
  | .hbm, ⟨101, _⟩ => ⟨S128x64, .f32⟩
  | .hbm, ⟨102, _⟩ => ⟨S128x64, .f32⟩
  | .hbm, ⟨103, _⟩ => ⟨S64x10, .f32⟩
  | .hbm, ⟨104, _⟩ => ⟨S128x10, .f32⟩
  | .hbm, ⟨105, _⟩ => ⟨S1x10, .f32⟩
  | .hbm, ⟨106, _⟩ => ⟨S128x10, .f32⟩
  | .hbm, ⟨107, _⟩ => ⟨S128x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_c_4 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S128x64 : S_.BroadcastsInDim S128x64 (![] : Fin 0 → Fin S128x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  transposes_S10x64_S64x10_1_0 : S10x64.Transposes [1, 0] S64x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S50000x64_S64x64_S50000x64_1_0_0_1_n_n_wf : DotDims.WF S50000x64 S64x64 S50000x64 [1] [0] [0] [1] [] []
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1
  dot_S128x64_S64x10_S128x10_1_0_0_1_n_n_wf : DotDims.WF S128x64 S64x10 S128x10 [1] [0] [0] [1] [] []

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.ConvStep0.lean ====
/-
  The first graph-convolution call of the kernel program, read at an arbitrary valuation `V` of the core's buffers on
  entry to the call.  Grid point `t` (of five) stages rows 10000·t … 10000·t + 9999 of the aggregated neighbour
  features and of the node features, and the two 64×64 weight matrices and the bias whole.  The body loads all five,
  forms relu(agg·W_relᵀ + x·W_rootᵀ + b) as one pure term (the payload `k0_pay1`) and stores it through the whole
  rectangle of the output's staging buffer; nothing is carried from one point to the next.  So the proof data is:
  every input buffer keeps its tile, the output buffer ends at that one store's value, and the invariant is the
  class invariant of a body that touches no scratch.  Stated for any float instance.
-/
import proofs.«410375_j5841155523230_3_alg».proof.Proof.Gen.KernelIdeal.Launch
import proofs.«410375_j5841155523230_3_alg».proof.Proof.Gen.KernelIdeal.Skeleton
import proofs.«410375_j5841155523230_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the pipeline stages -/

/-- Window `w`'s tile at grid point `t`: its rows of the array the call finds in `V`. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its tile at every point, whether the point fetched it or not: a point that does
    not fetch has the same block index as the one before it, and the body leaves inputs in place. One statement per
    input window (the window is a literal so that its layout reduces). -/

theorem staged_agg {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

theorem staged_x {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

theorem staged_wrel {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

theorem staged_wroot {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

theorem staged_bias {c : Dev nD} (dat : Dat τ (Elt F) Unit ℕ (UR sig nD τ) ℕ cfg0 c) (hA : dat.A 4 = V c (Pipeline.arrRef spec0 4))
    (hafter : ∀ t, dat.after 4 t = tile V c 4 t) (t : Fin cfg0.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-! ## What the body leaves -/

/-- The whole rectangle of a 10000×64 tile, of a weight matrix, of the bias: every access of the body is through one of these. -/
abbrev rRows : Rect S10000x64 := Rect.unit (s := S10000x64) ![0, 0] S10000x64.size inb_S10000x64_S10000x64_0_0
abbrev rMat : Rect S64x64 := Rect.unit (s := S64x64) ![0, 0] S64x64.size inb_S64x64_S64x64_0_0
abbrev rVec : Rect S64 := Rect.unit (s := S64) ![0] S64.size inb_S64_S64_0

/-- The output's staging buffer after the body: its one store, of the layer's value on the tiles loaded. -/
def layerOut (agg x : Vec F S10000x64 .f32) (wrel wroot : Vec F S64x64 .f32) (b : Vec F S64 .f32) : Vec F S10000x64 .f32 :=
  View.canon [⟨rRows, k0_pay1 (View.ld agg rRows) (View.ld x rRows) (View.ld wrel rMat) (View.ld wroot rMat) (View.ld b rVec)⟩]

/-- That one store covers the buffer. -/
theorem layerOut_cover (p : Vec F S10000x64 .f32) (y : S10000x64.Idx) :
    ∃ pc ∈ ([⟨rRows, p⟩] : List (View.Piece (Elt F) S10000x64 .f32)), y ∈ pc.1.set :=
  View.cover_of_tiled [⟨rRows, p⟩] S10000x64.size (by rfl) y

set_option maxHeartbeats 1000000 in
/-- The body on whole staging buffers: the five inputs at given contents and the output at anything run to the
    continuation with the inputs unchanged and the output at `layerOut` of them. -/
theorem body_runs (c : Dev nD) (E : Set ℕ) (i : grid0.Coords)
    (a1 : Memref sig .tc .vmem S10000x64 .f32) (h1 : a1.IsWhole) (a2 : Memref sig .tc .vmem S10000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S10000x64 .f32) (h6 : a6.IsWhole)
    (agg x : Vec F S10000x64 .f32) (wrel wroot : Vec F S64x64 .f32) (b : Vec F S64 .f32) (K : PUnit → sProp 𝕄) :
    iprop(owns (c : Thread nD τ) a1 fullShare agg ∗ owns (c : Thread nD τ) a2 fullShare x ∗ owns (c : Thread nD τ) a3 fullShare wrel
        ∗ owns (c : Thread nD τ) a4 fullShare wroot ∗ owns (c : Thread nD τ) a5 fullShare b ∗ (∃ d, owns (c : Thread nD τ) a6 fullShare d)
        ∗ (iprop(owns (c : Thread nD τ) a1 fullShare agg ∗ owns (c : Thread nD τ) a2 fullShare x ∗ owns (c : Thread nD τ) a3 fullShare wrel
            ∗ owns (c : Thread nD τ) a4 fullShare wroot ∗ owns (c : Thread nD τ) a5 fullShare b
            ∗ owns (c : Thread nD τ) a6 fullShare (layerOut agg x wrel wroot b)) -∗ K ⟨⟩))
      ⊢ wp frame (wpE (defs₀ (F := F)) Variants.none c none) E (cc0__graph_conv_kernel i a1 h1 a2 h2 a3 h3 a4 h4 a5 h5 a6 h6) K := by
  simp only [cc0__graph_conv_kernel_eq_skeleton]; unfold cc0__graph_conv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (layerOut_cover _)

/-! ## The proof data of the call -/

/-- On core `c`: the arrays as the call finds them; after the body at point `t` every input buffer at its tile and the
    output buffer at the layer's value on the tiles; the invariant that of a body which touches no scratch (the
    other scoped buffers at some contents, the generator register at some state); full shares; nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => layerOut (tile V c 0 t) (tile V c 1 t) (tile V c 2 t) (tile V c 3 t) (tile V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after_agg (c : Dev nD) (t : Fin cfg0.N) : (dat V c).after 0 t = tile V c 0 t := by dsimp only [dat]
theorem after_x (c : Dev nD) (t : Fin cfg0.N) : (dat V c).after 1 t = tile V c 1 t := by dsimp only [dat]
theorem after_wrel (c : Dev nD) (t : Fin cfg0.N) : (dat V c).after 2 t = tile V c 2 t := by dsimp only [dat]
theorem after_wroot (c : Dev nD) (t : Fin cfg0.N) : (dat V c).after 3 t = tile V c 3 t := by dsimp only [dat]
theorem after_bias (c : Dev nD) (t : Fin cfg0.N) : (dat V c).after 4 t = tile V c 4 t := by dsimp only [dat]
theorem after_out (c : Dev nD) (t : Fin cfg0.N) :
    (dat V c).after 5 t = layerOut (tile V c 0 t) (tile V c 1 t) (tile V c 2 t) (tile V c 3 t) (tile V c 4 t) := by dsimp only [dat]

theorem before_agg (c : Dev nD) (t : Fin cfg0.N) (d) : (dat V c).before 0 t d = tile V c 0 t :=
  staged_agg V (dat V c) (dat_A V c 0) (after_agg V c) t d
theorem before_x (c : Dev nD) (t : Fin cfg0.N) (d) : (dat V c).before 1 t d = tile V c 1 t :=
  staged_x V (dat V c) (dat_A V c 1) (after_x V c) t d
theorem before_wrel (c : Dev nD) (t : Fin cfg0.N) (d) : (dat V c).before 2 t d = tile V c 2 t :=
  staged_wrel V (dat V c) (dat_A V c 2) (after_wrel V c) t d
theorem before_wroot (c : Dev nD) (t : Fin cfg0.N) (d) : (dat V c).before 3 t d = tile V c 3 t :=
  staged_wroot V (dat V c) (dat_A V c 3) (after_wroot V c) t d
theorem before_bias (c : Dev nD) (t : Fin cfg0.N) (d) : (dat V c).before 4 t d = tile V c 4 t :=
  staged_bias V (dat V c) (dat_A V c 4) (after_bias V c) t d

/-! ## The body obligation -/

/-- What the body is handed at point `t`, window by window, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it gives back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their tiles, so `body_runs` applies; the invariant and what the
    core owes pass through unread. -/
theorem point_runs (c : Dev nD) (t : Fin cfg0.N) :
    handed V c t ⊢ wp frame (wpE (defs₀ (F := F)) Variants.none c none) Set.univ (bodyAt0 t) (fun _ => returned V c t) := by
  unfold handed returned bodyAt0
  simp only [before_agg, before_x, before_wrel, before_wroot, before_bias]
  rw [show (dat V c).Φ t.succ = (dat V c).Φ t.castSucc from rfl,
    show (dat V c).owesAt () t.succ = (dat V c).owesAt () t.castSucc from rfl,
    after_agg, after_x, after_wrel, after_wroot, after_bias, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem obligation (c : Dev nD) : BodyObligation (dat (F := F) V c) (defs₀ (F := F)) Variants.none () Set.univ := fun t => by
  rw [bigSep_W0, bigSep_W0]
  exact point_runs V c t

/-- Before the first point and after the last the invariant is the class's: the body carries nothing. -/
theorem inv_first (c : Dev nD) : (dat V c).Φ 0 = Pipeline.ΦA spec0 c := rfl
theorem inv_last (c : Dev nD) : (dat V c).Φ (Fin.last cfg0.N) ⊢ Pipeline.ΦA spec0 c := BI.Entails.refl _
theorem owes_nothing (c : Dev nD) (t : Fin (cfg0.N + 1)) : (dat V c).owed t = 0 := rfl

end Cert.KernelIdeal.Conv0

end
-- ==== Proof.ConvStep1.lean ====
/-
  The second graph-convolution call of the kernel program, read at an arbitrary valuation `V` of the core's buffers on
  entry to the call.  Grid point `t` (of five) stages rows 10000·t … 10000·t + 9999 of the aggregated neighbour
  features and of the node features, and the two 64×64 weight matrices and the bias whole.  The body loads all five,
  forms relu(agg·W_relᵀ + x·W_rootᵀ + b) as one pure term (the payload `k1_pay1`) and stores it through the whole
  rectangle of the output's staging buffer; nothing is carried from one point to the next.  So the proof data is:
  every input buffer keeps its tile, the output buffer ends at that one store's value, and the invariant is the
  class invariant of a body that touches no scratch.  Stated for any float instance.
-/
import proofs.«410375_j5841155523230_3_alg».proof.Proof.Gen.KernelIdeal.Launch
import proofs.«410375_j5841155523230_3_alg».proof.Proof.Gen.KernelIdeal.Skeleton
import proofs.«410375_j5841155523230_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the pipeline stages -/

/-- Window `w`'s tile at grid point `t`: its rows of the array the call finds in `V`. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its tile at every point, whether the point fetched it or not: a point that does
    not fetch has the same block index as the one before it, and the body leaves inputs in place. One statement per
    input window (the window is a literal so that its layout reduces). -/

theorem staged_agg {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

theorem staged_x {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

theorem staged_wrel {c : Dev nD} (dat : Dat τ (Elt F) Unit ℕ (UR sig nD τ) ℕ cfg1 c) (hA : dat.A 2 = V c (Pipeline.arrRef spec1 2))
    (hafter : ∀ t, dat.after 2 t = tile V c 2 t) (t : Fin cfg1.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

theorem staged_wroot {c : Dev nD} (dat : Dat τ (Elt F) Unit ℕ (UR sig nD τ) ℕ cfg1 c) (hA : dat.A 3 = V c (Pipeline.arrRef spec1 3))
    (hafter : ∀ t, dat.after 3 t = tile V c 3 t) (t : Fin cfg1.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

theorem staged_bias {c : Dev nD} (dat : Dat τ (Elt F) Unit ℕ (UR sig nD τ) ℕ cfg1 c) (hA : dat.A 4 = V c (Pipeline.arrRef spec1 4))
    (hafter : ∀ t, dat.after 4 t = tile V c 4 t) (t : Fin cfg1.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-! ## What the body leaves -/

/-- The whole rectangle of a 10000×64 tile, of a weight matrix, of the bias: every access of the body is through one of these. -/
abbrev rRows : Rect S10000x64 := Rect.unit (s := S10000x64) ![0, 0] S10000x64.size inb_S10000x64_S10000x64_0_0
abbrev rMat : Rect S64x64 := Rect.unit (s := S64x64) ![0, 0] S64x64.size inb_S64x64_S64x64_0_0
abbrev rVec : Rect S64 := Rect.unit (s := S64) ![0] S64.size inb_S64_S64_0

/-- The output's staging buffer after the body: its one store, of the layer's value on the tiles loaded. -/
def layerOut (agg x : Vec F S10000x64 .f32) (wrel wroot : Vec F S64x64 .f32) (b : Vec F S64 .f32) : Vec F S10000x64 .f32 :=
  View.canon [⟨rRows, k1_pay1 (View.ld agg rRows) (View.ld x rRows) (View.ld wrel rMat) (View.ld wroot rMat) (View.ld b rVec)⟩]

/-- That one store covers the buffer. -/
theorem layerOut_cover (p : Vec F S10000x64 .f32) (y : S10000x64.Idx) :
    ∃ pc ∈ ([⟨rRows, p⟩] : List (View.Piece (Elt F) S10000x64 .f32)), y ∈ pc.1.set :=
  View.cover_of_tiled [⟨rRows, p⟩] S10000x64.size (by rfl) y

set_option maxHeartbeats 1000000 in
/-- The body on whole staging buffers: the five inputs at given contents and the output at anything run to the
    continuation with the inputs unchanged and the output at `layerOut` of them. -/
theorem body_runs (c : Dev nD) (E : Set ℕ) (i : grid1.Coords)
    (a1 : Memref sig .tc .vmem S10000x64 .f32) (h1 : a1.IsWhole) (a2 : Memref sig .tc .vmem S10000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S10000x64 .f32) (h6 : a6.IsWhole)
    (agg x : Vec F S10000x64 .f32) (wrel wroot : Vec F S64x64 .f32) (b : Vec F S64 .f32) (K : PUnit → sProp 𝕄) :
    iprop(owns (c : Thread nD τ) a1 fullShare agg ∗ owns (c : Thread nD τ) a2 fullShare x ∗ owns (c : Thread nD τ) a3 fullShare wrel
        ∗ owns (c : Thread nD τ) a4 fullShare wroot ∗ owns (c : Thread nD τ) a5 fullShare b ∗ (∃ d, owns (c : Thread nD τ) a6 fullShare d)
        ∗ (iprop(owns (c : Thread nD τ) a1 fullShare agg ∗ owns (c : Thread nD τ) a2 fullShare x ∗ owns (c : Thread nD τ) a3 fullShare wrel
            ∗ owns (c : Thread nD τ) a4 fullShare wroot ∗ owns (c : Thread nD τ) a5 fullShare b
            ∗ owns (c : Thread nD τ) a6 fullShare (layerOut agg x wrel wroot b)) -∗ K ⟨⟩))
      ⊢ wp frame (wpE (defs₀ (F := F)) Variants.none c none) E (cc1__graph_conv_kernel i a1 h1 a2 h2 a3 h3 a4 h4 a5 h5 a6 h6) K := by
  simp only [cc1__graph_conv_kernel_eq_skeleton]; unfold cc1__graph_conv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (layerOut_cover _)

/-! ## The proof data of the call -/

/-- On core `c`: the arrays as the call finds them; after the body at point `t` every input buffer at its tile and the
    output buffer at the layer's value on the tiles; the invariant that of a body which touches no scratch (the
    other scoped buffers at some contents, the generator register at some state); full shares; nothing owed. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => layerOut (tile V c 0 t) (tile V c 1 t) (tile V c 2 t) (tile V c 3 t) (tile V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after_agg (c : Dev nD) (t : Fin cfg1.N) : (dat V c).after 0 t = tile V c 0 t := by dsimp only [dat]
theorem after_x (c : Dev nD) (t : Fin cfg1.N) : (dat V c).after 1 t = tile V c 1 t := by dsimp only [dat]
theorem after_wrel (c : Dev nD) (t : Fin cfg1.N) : (dat V c).after 2 t = tile V c 2 t := by dsimp only [dat]
theorem after_wroot (c : Dev nD) (t : Fin cfg1.N) : (dat V c).after 3 t = tile V c 3 t := by dsimp only [dat]
theorem after_bias (c : Dev nD) (t : Fin cfg1.N) : (dat V c).after 4 t = tile V c 4 t := by dsimp only [dat]
theorem after_out (c : Dev nD) (t : Fin cfg1.N) :
    (dat V c).after 5 t = layerOut (tile V c 0 t) (tile V c 1 t) (tile V c 2 t) (tile V c 3 t) (tile V c 4 t) := by dsimp only [dat]

theorem before_agg (c : Dev nD) (t : Fin cfg1.N) (d) : (dat V c).before 0 t d = tile V c 0 t :=
  staged_agg V (dat V c) (dat_A V c 0) (after_agg V c) t d
theorem before_x (c : Dev nD) (t : Fin cfg1.N) (d) : (dat V c).before 1 t d = tile V c 1 t :=
  staged_x V (dat V c) (dat_A V c 1) (after_x V c) t d
theorem before_wrel (c : Dev nD) (t : Fin cfg1.N) (d) : (dat V c).before 2 t d = tile V c 2 t :=
  staged_wrel V (dat V c) (dat_A V c 2) (after_wrel V c) t d
theorem before_wroot (c : Dev nD) (t : Fin cfg1.N) (d) : (dat V c).before 3 t d = tile V c 3 t :=
  staged_wroot V (dat V c) (dat_A V c 3) (after_wroot V c) t d
theorem before_bias (c : Dev nD) (t : Fin cfg1.N) (d) : (dat V c).before 4 t d = tile V c 4 t :=
  staged_bias V (dat V c) (dat_A V c 4) (after_bias V c) t d

/-! ## The body obligation -/

/-- What the body is handed at point `t`, window by window, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it gives back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their tiles, so `body_runs` applies; the invariant and what the
    core owes pass through unread. -/
theorem point_runs (c : Dev nD) (t : Fin cfg1.N) :
    handed V c t ⊢ wp frame (wpE (defs₀ (F := F)) Variants.none c none) Set.univ (bodyAt1 t) (fun _ => returned V c t) := by
  unfold handed returned bodyAt1
  simp only [before_agg, before_x, before_wrel, before_wroot, before_bias]
  rw [show (dat V c).Φ t.succ = (dat V c).Φ t.castSucc from rfl,
    show (dat V c).owesAt () t.succ = (dat V c).owesAt () t.castSucc from rfl,
    after_agg, after_x, after_wrel, after_wroot, after_bias, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem obligation (c : Dev nD) : BodyObligation (dat (F := F) V c) (defs₀ (F := F)) Variants.none () Set.univ := fun t => by
  rw [bigSep_W1, bigSep_W1]
  exact point_runs V c t

/-- Before the first point and after the last the invariant is the class's: the body carries nothing. -/
theorem inv_first (c : Dev nD) : (dat V c).Φ 0 = Pipeline.ΦA spec1 c := rfl
theorem inv_last (c : Dev nD) : (dat V c).Φ (Fin.last cfg1.N) ⊢ Pipeline.ΦA spec1 c := BI.Entails.refl _
theorem owes_nothing (c : Dev nD) (t : Fin (cfg1.N + 1)) : (dat V c).owed t = 0 := rfl

end Cert.KernelIdeal.Conv1

end
-- ==== Proof.PoolStep.lean ====
/-
  The third call of the kernel program — the last graph convolution fused with the mean pool over graphs and the final
  linear map — read at an arbitrary valuation `V` of the core's buffers on entry.  Grid point `t` (of ten) stages rows
  5000·t … 5000·t + 4999 of the aggregated features, of the node features and of the graph ids, and the weights, the
  bias, the per-graph counts, and the final layer's matrix and bias whole.  A 128×64 scratch buffer is CARRIED from point
  to point: the first point resets it to zero; every point adds to it onehotᵀ·y, where y is the tile's convolution and
  onehot marks each row's graph id among 0 … 127; the last point divides it by max(counts, 1), stores that quotient as the
  pooled output and its image under the final linear map as the second output.  At the other points the two output
  buffers are not touched and not written back.  Stated for any float instance.
-/
import proofs.«410375_j5841155523230_3_alg».proof.Proof.Gen.KernelIdeal.Launch
import proofs.«410375_j5841155523230_3_alg».proof.Proof.Gen.KernelIdeal.Skeleton
import proofs.«410375_j5841155523230_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every one is through the whole rectangle of a buffer -/

abbrev rTile : Rect S5000x64 := Rect.unit (s := S5000x64) ![0, 0] S5000x64.size inb_S5000x64_S5000x64_0_0
abbrev rMat : Rect S64x64 := Rect.unit (s := S64x64) ![0, 0] S64x64.size inb_S64x64_S64x64_0_0
abbrev rVec : Rect S64 := Rect.unit (s := S64) ![0] S64.size inb_S64_S64_0
abbrev rIds : Rect S5000x1 := Rect.unit (s := S5000x1) ![0, 0] S5000x1.size inb_S5000x1_S5000x1_0_0
abbrev rCnt : Rect S128x1 := Rect.unit (s := S128x1) ![0, 0] S128x1.size inb_S128x1_S128x1_0_0
abbrev rLin : Rect S10x64 := Rect.unit (s := S10x64) ![0, 0] S10x64.size inb_S10x64_S10x64_0_0
abbrev rLinB : Rect S10 := Rect.unit (s := S10) ![0] S10.size inb_S10_S10_0
abbrev rAcc : Rect S128x64 := Rect.unit (s := S128x64) ![0, 0] S128x64.size inb_S128x64_S128x64_0_0
abbrev rOut : Rect S128x10 := Rect.unit (s := S128x10) ![0, 0] S128x10.size inb_S128x10_S128x10_0_0

theorem zeros2 : (![0, 0] : Fin 2 → Nat) = fun _ => 0 := by funext a; fin_cases a <;> rfl

/-! ## The two branch conditions, as the body computes them from the grid coordinate -/

/-- "this is the first grid point": the condition of the reset. -/
abbrev isFirst (i : grid2.Coords) : Prop := (Scalar.cmpi .ne (Scalar.extui (Scalar.cmpi .eq (BitVec.ofNat 32 (i 0).val) 0#32)) 0#32) = 1#1
/-- "this is the last grid point": the condition of the two output stores. -/
abbrev isLast (i : grid2.Coords) : Prop := k2_cond2 i = 1#1

theorem isFirst_iff : ∀ t : Fin cfg2.N, isFirst (grid2.coords t) ↔ t.val % 10 = 0 :=
  (by decide +kernel : ∀ t : Fin grid2.N, isFirst (grid2.coords t) ↔ t.val % 10 = 0)
theorem isLast_iff : ∀ t : Fin cfg2.N, isLast (grid2.coords t) ↔ t.val % 10 = 9 :=
  (by decide +kernel : ∀ t : Fin grid2.N, isLast (grid2.coords t) ↔ t.val % 10 = 9)

/-! ## What the body computes -/

/-- The accumulator `s` with one tile's contribution added: s + onehot(ids)ᵀ · (agg·W_relᵀ + h·W_rootᵀ + b). -/
def tileSum (x0 x1 : Vec F S5000x64 .f32) (x2 x3 : Vec F S64x64 .f32) (x4 : Vec F S64 .f32) (x5 : Vec F S5000x1 .i32)
    (s : Vec F S128x64 .f32) : Vec F S128x64 .f32 :=
  k2_pay4 (View.ld x0 rTile) (View.ld x1 rTile) (View.ld x2 rMat) (View.ld x3 rMat) (View.ld x4 rVec) (View.ld x5 rIds) s

/-- The scratch after the first point: reset to zero, then the first tile's contribution stored over it. -/
def accFirst (x0 x1 : Vec F S5000x64 .f32) (x2 x3 : Vec F S64x64 .f32) (x4 : Vec F S64 .f32) (x5 : Vec F S5000x1 .i32) :
    Vec F S128x64 .f32 :=
  View.canon [⟨rAcc, tileSum x0 x1 x2 x3 x4 x5 (k2_pay3 (F := F))⟩, ⟨rAcc, k2_pay3 (F := F)⟩]

/-- The scratch after a later point, from what the point before left in it. -/
def accNext (x0 x1 : Vec F S5000x64 .f32) (x2 x3 : Vec F S64x64 .f32) (x4 : Vec F S64 .f32) (x5 : Vec F S5000x1 .i32)
    (s : Vec F S128x64 .f32) : Vec F S128x64 .f32 :=
  View.canon [⟨rAcc, tileSum x0 x1 x2 x3 x4 x5 (View.ld s rAcc)⟩]

/-- The pooled output the last point stores: the accumulator over max(counts, 1). -/
def pooledOut (s : Vec F S128x64 .f32) (x6 : Vec F S128x1 .f32) : Vec F S128x64 .f32 :=
  View.canon [⟨rAcc, k2_pay1 s (View.ld x6 rCnt)⟩]

/-- The second output the last point stores: the pooled value through the final linear map. -/
def logitsOut (s : Vec F S128x64 .f32) (x6 : Vec F S128x1 .f32) (x7 : Vec F S10x64 .f32) (x8 : Vec F S10 .f32) : Vec F S128x10 .f32 :=
  View.canon [⟨rOut, k2_pay2 s (View.ld x6 rCnt) (View.ld x7 rLin) (View.ld x8 rLinB)⟩]

/-! ## The body's triple, case by case -/

set_option maxHeartbeats 2000000 in
/-- The first point: whatever the scratch held, it ends at `accFirst`; the two output buffers come back as handed. -/
theorem first_runs (c : Dev nD) (E : Set ℕ) (i : grid2.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S5000x1 .i32) (h6 : a6.IsWhole)
    (a7 : Memref sig .tc .vmem S128x1 .f32) (h7 : a7.IsWhole) (a8 : Memref sig .tc .vmem S10x64 .f32) (h8 : a8.IsWhole)
    (a9 : Memref sig .tc .vmem S10 .f32) (h9 : a9.IsWhole) (a10 : Memref sig .tc .vmem S128x64 .f32) (h10 : a10.IsWhole)
    (a11 : Memref sig .tc .vmem S128x10 .f32) (h11 : a11.IsWhole) (a12 : Memref sig .tc .vmem S128x64 .f32) (h12 : a12.IsWhole)
    (hc0 : isFirst i) (hc1 : ¬isLast i)
    (x0 x1 : Vec F S5000x64 .f32) (x2 x3 : Vec F S64x64 .f32) (x4 : Vec F S64 .f32) (x5 : Vec F S5000x1 .i32)
    (x6 : Vec F S128x1 .f32) (x7 : Vec F S10x64 .f32) (x8 : Vec F S10 .f32) (y9 : Vec F S128x64 .f32) (y10 : Vec F S128x10 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare y9 ∗ owns (c : Thread nD τ) a11 fullShare y10 ∗ (∃ d, owns (c : Thread nD τ) a12 fullShare d)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
            ∗ owns (c : Thread nD τ) a10 fullShare y9 ∗ owns (c : Thread nD τ) a11 fullShare y10
            ∗ owns (c : Thread nD τ) a12 fullShare (accFirst x0 x1 x2 x3 x4 x5)) -∗ K ⟨⟩))
      ⊢ wp frame (wpE (defs₀ (F := F)) Variants.none c none) E (cc2__conv3_pool_kernel i a1 h1 a2 h2 a3 h3 a4 h4 a5 h5 a6 h6 a7 h7 a8 h8 a9 h9 a10 h10 a11 h11 a12 h12) K := by
  simp only [cc2__conv3_pool_kernel_eq_skeleton]; unfold cc2__conv3_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1; subst hf2; subst hf3; subst hf4; subst hf5; subst hf6; subst hf7; subst hf8; subst hf9; subst hf10; subst hf11
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  sl_unfold_run_names
  simp only [View.readCov_unit_zero (S := S128x64) _ zeros2]
  exact View.read_writes_eq_canon _ _ _ (fun y => ⟨_, List.mem_cons_self, View.mem_set_unit_zero zeros2 inb_S128x64_S128x64_0_0 y⟩)

set_option maxHeartbeats 2000000 in
/-- A middle point: the scratch at `s` ends at `accNext … s`; the two output buffers come back as handed. -/
theorem middle_runs (c : Dev nD) (E : Set ℕ) (i : grid2.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S5000x1 .i32) (h6 : a6.IsWhole)
    (a7 : Memref sig .tc .vmem S128x1 .f32) (h7 : a7.IsWhole) (a8 : Memref sig .tc .vmem S10x64 .f32) (h8 : a8.IsWhole)
    (a9 : Memref sig .tc .vmem S10 .f32) (h9 : a9.IsWhole) (a10 : Memref sig .tc .vmem S128x64 .f32) (h10 : a10.IsWhole)
    (a11 : Memref sig .tc .vmem S128x10 .f32) (h11 : a11.IsWhole) (a12 : Memref sig .tc .vmem S128x64 .f32) (h12 : a12.IsWhole)
    (hc0 : ¬isFirst i) (hc1 : ¬isLast i)
    (x0 x1 : Vec F S5000x64 .f32) (x2 x3 : Vec F S64x64 .f32) (x4 : Vec F S64 .f32) (x5 : Vec F S5000x1 .i32)
    (x6 : Vec F S128x1 .f32) (x7 : Vec F S10x64 .f32) (x8 : Vec F S10 .f32) (y9 : Vec F S128x64 .f32) (y10 : Vec F S128x10 .f32)
    (s : Vec F S128x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare y9 ∗ owns (c : Thread nD τ) a11 fullShare y10 ∗ owns (c : Thread nD τ) a12 fullShare s
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
            ∗ owns (c : Thread nD τ) a10 fullShare y9 ∗ owns (c : Thread nD τ) a11 fullShare y10
            ∗ owns (c : Thread nD τ) a12 fullShare (accNext x0 x1 x2 x3 x4 x5 s)) -∗ K ⟨⟩))
      ⊢ wp frame (wpE (defs₀ (F := F)) Variants.none c none) E (cc2__conv3_pool_kernel i a1 h1 a2 h2 a3 h3 a4 h4 a5 h5 a6 h6 a7 h7 a8 h8 a9 h9 a10 h10 a11 h11 a12 h12) K := by
  simp only [cc2__conv3_pool_kernel_eq_skeleton]; unfold cc2__conv3_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf1; subst hf2; subst hf3; subst hf4; subst hf5; subst hf6; subst hf7; subst hf8; subst hf9; subst hf10; subst hf11; subst hf12
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (fun y => ⟨_, List.mem_cons_self, View.mem_set_unit_zero zeros2 inb_S128x64_S128x64_0_0 y⟩)

set_option maxHeartbeats 2000000 in
/-- The last point: the scratch at `s` ends at `accNext … s`, and the two outputs, whatever they held, at the pooled
    quotient and its linear image of the NEW accumulator. -/
theorem last_runs (c : Dev nD) (E : Set ℕ) (i : grid2.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S5000x1 .i32) (h6 : a6.IsWhole)
    (a7 : Memref sig .tc .vmem S128x1 .f32) (h7 : a7.IsWhole) (a8 : Memref sig .tc .vmem S10x64 .f32) (h8 : a8.IsWhole)
    (a9 : Memref sig .tc .vmem S10 .f32) (h9 : a9.IsWhole) (a10 : Memref sig .tc .vmem S128x64 .f32) (h10 : a10.IsWhole)
    (a11 : Memref sig .tc .vmem S128x10 .f32) (h11 : a11.IsWhole) (a12 : Memref sig .tc .vmem S128x64 .f32) (h12 : a12.IsWhole)
    (hc0 : ¬isFirst i) (hc1 : isLast i)
    (x0 x1 : Vec F S5000x64 .f32) (x2 x3 : Vec F S64x64 .f32) (x4 : Vec F S64 .f32) (x5 : Vec F S5000x1 .i32)
    (x6 : Vec F S128x1 .f32) (x7 : Vec F S10x64 .f32) (x8 : Vec F S10 .f32)
    (s : Vec F S128x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ (∃ d, owns (c : Thread nD τ) a10 fullShare d) ∗ (∃ d, owns (c : Thread nD τ) a11 fullShare d) ∗ owns (c : Thread nD τ) a12 fullShare s
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
            ∗ owns (c : Thread nD τ) a10 fullShare (pooledOut (tileSum x0 x1 x2 x3 x4 x5 (View.ld s rAcc)) x6)
            ∗ owns (c : Thread nD τ) a11 fullShare (logitsOut (tileSum x0 x1 x2 x3 x4 x5 (View.ld s rAcc)) x6 x7 x8)
            ∗ owns (c : Thread nD τ) a12 fullShare (accNext x0 x1 x2 x3 x4 x5 s)) -∗ K ⟨⟩))
      ⊢ wp frame (wpE (defs₀ (F := F)) Variants.none c none) E (cc2__conv3_pool_kernel i a1 h1 a2 h2 a3 h3 a4 h4 a5 h5 a6 h6 a7 h7 a8 h8 a9 h9 a10 h10 a11 h11 a12 h12) K := by
  simp only [cc2__conv3_pool_kernel_eq_skeleton]; unfold cc2__conv3_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  subst hf1; subst hf2; subst hf3; subst hf4; subst hf5; subst hf6; subst hf7; subst hf8; subst hf9; subst hf12
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    simp only [View.readCov_unit_zero (S := S128x64) _ zeros2]
    exact View.read_writes_eq_canon _ _ _ (fun y => ⟨_, List.mem_cons_self, View.mem_set_unit_zero zeros2 inb_S128x64_S128x64_0_0 y⟩)
  isplitl [H11]
  · iexists _; isplitr
    swap; · iexact H11
    ipureintro
    sl_unfold_run_names
    simp only [View.readCov_unit_zero (S := S128x64) _ zeros2]
    exact View.read_writes_eq_canon _ _ _ (fun y => ⟨_, List.mem_cons_self, View.mem_set_unit_zero zeros2 inb_S128x10_S128x10_0_0 y⟩)
  iexists _; isplitr
  swap; · iexact H12
  ipureintro
  sl_unfold_run_names
  exact View.read_writes_eq_canon _ _ _ (fun y => ⟨_, List.mem_cons_self, View.mem_set_unit_zero zeros2 inb_S128x64_S128x64_0_0 y⟩)

/-! ## The tiles the pipeline stages -/

/-- Window `w`'s tile at grid point `t`: its rows of the array the call finds in `V`. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's staging buffer holds its tile at every point, fetched there or not (a point that does not fetch has
    the block index of the point before, and the body leaves inputs in place). One statement per input window. -/

theorem staged_agg {c : Dev nD} (dat : Dat τ (Elt F) Unit ℕ (UR sig nD τ) ℕ cfg2 c) (hA : dat.A 0 = V c (Pipeline.arrRef spec2 0))
    (hafter : ∀ t, dat.after 0 t = tile V c 0 t) (t : Fin cfg2.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

theorem staged_h {c : Dev nD} (dat : Dat τ (Elt F) Unit ℕ (UR sig nD τ) ℕ cfg2 c) (hA : dat.A 1 = V c (Pipeline.arrRef spec2 1))
    (hafter : ∀ t, dat.after 1 t = tile V c 1 t) (t : Fin cfg2.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

theorem staged_wrel {c : Dev nD} (dat : Dat τ (Elt F) Unit ℕ (UR sig nD τ) ℕ cfg2 c) (hA : dat.A 2 = V c (Pipeline.arrRef spec2 2))
    (hafter : ∀ t, dat.after 2 t = tile V c 2 t) (t : Fin cfg2.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

theorem staged_wroot {c : Dev nD} (dat : Dat τ (Elt F) Unit ℕ (UR sig nD τ) ℕ cfg2 c) (hA : dat.A 3 = V c (Pipeline.arrRef spec2 3))
    (hafter : ∀ t, dat.after 3 t = tile V c 3 t) (t : Fin cfg2.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

theorem staged_bias {c : Dev nD} (dat : Dat τ (Elt F) Unit ℕ (UR sig nD τ) ℕ cfg2 c) (hA : dat.A 4 = V c (Pipeline.arrRef spec2 4))
    (hafter : ∀ t, dat.after 4 t = tile V c 4 t) (t : Fin cfg2.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

theorem staged_ids {c : Dev nD} (dat : Dat τ (Elt F) Unit ℕ (UR sig nD τ) ℕ cfg2 c) (hA : dat.A 5 = V c (Pipeline.arrRef spec2 5))
    (hafter : ∀ t, dat.after 5 t = tile V c 5 t) (t : Fin cfg2.N) (d) : dat.before 5 t d = tile V c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

theorem staged_counts {c : Dev nD} (dat : Dat τ (Elt F) Unit ℕ (UR sig nD τ) ℕ cfg2 c) (hA : dat.A 6 = V c (Pipeline.arrRef spec2 6))
    (hafter : ∀ t, dat.after 6 t = tile V c 6 t) (t : Fin cfg2.N) (d) : dat.before 6 t d = tile V c 6 t :=
  (dat.before_in_eq_fetched 6 rfl (fun _ => rfl) (fun _ _ _ => rfl) (fun t => by rw [hafter]; unfold Dat.blockOf tile; rw [hA]; try rfl) t d).trans
    (by unfold Dat.fetched Dat.blockOf tile; rw [hA]; try rfl)

theorem staged_wlin {c : Dev nD} (dat : Dat τ (Elt F) Unit ℕ (UR sig nD τ) ℕ cfg2 c) (hA : dat.A 7 = V c (Pipeline.arrRef spec2 7))
    (hafter : ∀ t, dat.after 7 t = tile V c 7 t) (t : Fin cfg2.N) (d) : dat.before 7 t d = tile V c 7 t :=
  (dat.before_in_eq_fetched 7 rfl (fun _ => rfl) (fun _ _ _ => rfl) (fun t => by rw [hafter]; unfold Dat.blockOf tile; rw [hA]; try rfl) t d).trans
    (by unfold Dat.fetched Dat.blockOf tile; rw [hA]; try rfl)

theorem staged_blin {c : Dev nD} (dat : Dat τ (Elt F) Unit ℕ (UR sig nD τ) ℕ cfg2 c) (hA : dat.A 8 = V c (Pipeline.arrRef spec2 8))
    (hafter : ∀ t, dat.after 8 t = tile V c 8 t) (t : Fin cfg2.N) (d) : dat.before 8 t d = tile V c 8 t :=
  (dat.before_in_eq_fetched 8 rfl (fun _ => rfl) (fun _ _ _ => rfl) (fun t => by rw [hafter]; unfold Dat.blockOf tile; rw [hA]; try rfl) t d).trans
    (by unfold Dat.fetched Dat.blockOf tile; rw [hA]; try rfl)

/-! ## The accumulator, point by point -/

/-- The scratch after the body at point `n`. -/
def accAt (c : Dev nD) : (n : ℕ) → n < cfg2.N → Vec F S128x64 .f32
  | 0, h => accFirst (tile V c 0 ⟨0, h⟩) (tile V c 1 ⟨0, h⟩) (tile V c 2 ⟨0, h⟩) (tile V c 3 ⟨0, h⟩) (tile V c 4 ⟨0, h⟩) (tile V c 5 ⟨0, h⟩)
  | n + 1, h => accNext (tile V c 0 ⟨n + 1, h⟩) (tile V c 1 ⟨n + 1, h⟩) (tile V c 2 ⟨n + 1, h⟩) (tile V c 3 ⟨n + 1, h⟩) (tile V c 4 ⟨n + 1, h⟩) (tile V c 5 ⟨n + 1, h⟩) (accAt c n (Nat.lt_of_succ_lt h))

/-- The scratch as the body at point `n` finds it once any reset is done: zero at the first point, else what the
    point before left. (Read only at the last point, by the two output stores.) -/
def prevAt (c : Dev nD) : (n : ℕ) → n < cfg2.N → Vec F S128x64 .f32
  | 0, _ => k2_pay3 (F := F)
  | n + 1, h => accAt V c n (Nat.lt_of_succ_lt h)

theorem accAt_first (c : Dev nD) (t : Fin cfg2.N) (h : t.val = 0) :
    accAt V c t.val t.isLt = accFirst (tile V c 0 t) (tile V c 1 t) (tile V c 2 t) (tile V c 3 t) (tile V c 4 t) (tile V c 5 t) := by
  obtain ⟨n, hn⟩ := t
  cases n with
  | zero => rfl
  | succ n => exact absurd h (Nat.succ_ne_zero _)

theorem accAt_later (c : Dev nD) (t : Fin cfg2.N) (h : t.val ≠ 0) :
    accAt V c t.val t.isLt = accNext (tile V c 0 t) (tile V c 1 t) (tile V c 2 t) (tile V c 3 t) (tile V c 4 t) (tile V c 5 t) (accAt V c (t.val - 1) (Nat.lt_of_le_of_lt (Nat.sub_le _ _) t.isLt)) := by
  obtain ⟨n, hn⟩ := t
  cases n with
  | zero => exact absurd rfl h
  | succ n => rfl

theorem prevAt_later (c : Dev nD) (t : Fin cfg2.N) (h : t.val ≠ 0) :
    prevAt V c t.val t.isLt = accAt V c (t.val - 1) (Nat.lt_of_le_of_lt (Nat.sub_le _ _) t.isLt) := by
  obtain ⟨n, hn⟩ := t
  cases n with
  | zero => exact absurd rfl h
  | succ n => rfl

/-! ## The invariant: the scratch at the accumulator, beside the buffers the call does not use -/

/-- The scratch buffer as the body is handed it. -/
abbrev scratch : Memref sig .tc .vmem S128x64 .f32 := Memref.whole cc2_scratch0

/-- The eighteen staging buffers of the two earlier calls, each whole at some contents, beside `P`. -/
def besideOthers (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ P)

/-- The invariant of a body that names no scratch, with the scratch split out. -/
theorem classInv_eq (c : Dev nD) :
    (Pipeline.ΦA spec2 c : sProp 𝕄)
      = iprop(besideOthers c iprop(∃ d, owns (c : Thread nD τ) scratch fullShare d) ∗ (∃ r, prngReg c r)) := by
  unfold Pipeline.ΦA besideOthers; rw [scopedRest2_eq]; simp only [scratch, owns_whole]; try rfl

/-- Before point `n`: at the first point nothing is known of the scratch; afterwards it holds the accumulator the
    point before left. The generator register rides along at some state. -/
def inv (c : Dev nD) : (n : ℕ) → n ≤ cfg2.N → sProp 𝕄
  | 0, _ => Pipeline.ΦA spec2 c
  | n + 1, h => iprop(besideOthers c (owns (c : Thread nD τ) scratch fullShare (accAt V c n h)) ∗ (∃ r, prngReg c r))

theorem inv_zero (c : Dev nD) (n : ℕ) (h : n ≤ cfg2.N) (hz : n = 0) : inv V c n h = Pipeline.ΦA spec2 c := by
  subst hz; rfl

theorem inv_succ (c : Dev nD) (n : ℕ) (hn : n < cfg2.N) :
    inv V c (n + 1) hn = iprop(besideOthers c (owns (c : Thread nD τ) scratch fullShare (accAt V c n hn)) ∗ (∃ r, prngReg c r)) := rfl

theorem inv_pos (c : Dev nD) (n : ℕ) (h : n ≤ cfg2.N) (hz : n ≠ 0) :
    inv V c n h = iprop(besideOthers c (owns (c : Thread nD τ) scratch fullShare (accAt V c (n - 1) (by omega))) ∗ (∃ r, prngReg c r)) := by
  cases n with
  | zero => exact absurd rfl hz
  | succ n => rfl

/-! ## The proof data of the call -/

/-- On core `c`: the arrays as the call finds them; after the body at point `t` every input buffer at its tile; the two
    output buffers at what the last point's stores write (consulted at the last point only: elsewhere the buffers are
    handed back as found); the invariant `inv`; full shares; nothing owed. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => tile V c 6 t
    | ⟨7, _⟩ => tile V c 7 t
    | ⟨8, _⟩ => tile V c 8 t
    | ⟨9, _⟩ => pooledOut (tileSum (tile V c 0 t) (tile V c 1 t) (tile V c 2 t) (tile V c 3 t) (tile V c 4 t) (tile V c 5 t) (View.ld (prevAt V c t.val t.isLt) rAcc)) (tile V c 6 t)
    | ⟨10, _⟩ => logitsOut (tileSum (tile V c 0 t) (tile V c 1 t) (tile V c 2 t) (tile V c 3 t) (tile V c 4 t) (tile V c 5 t) (View.ld (prevAt V c t.val t.isLt) rAcc)) (tile V c 6 t) (tile V c 7 t) (tile V c 8 t)
  Φ t := inv V c t.val (Nat.le_of_lt_succ t.isLt)
  q _ := fullShare
  owed _ := 0

theorem dat_A (c : Dev nD) (w : Fin cfg2.W) : (dat V c).A w = V c (Pipeline.arrRef spec2 w) := by
  dsimp only [dat]

theorem after_agg (c : Dev nD) (t : Fin cfg2.N) : (dat V c).after 0 t = tile V c 0 t := by dsimp only [dat]
theorem after_h (c : Dev nD) (t : Fin cfg2.N) : (dat V c).after 1 t = tile V c 1 t := by dsimp only [dat]
theorem after_wrel (c : Dev nD) (t : Fin cfg2.N) : (dat V c).after 2 t = tile V c 2 t := by dsimp only [dat]
theorem after_wroot (c : Dev nD) (t : Fin cfg2.N) : (dat V c).after 3 t = tile V c 3 t := by dsimp only [dat]
theorem after_bias (c : Dev nD) (t : Fin cfg2.N) : (dat V c).after 4 t = tile V c 4 t := by dsimp only [dat]
theorem after_ids (c : Dev nD) (t : Fin cfg2.N) : (dat V c).after 5 t = tile V c 5 t := by dsimp only [dat]
theorem after_counts (c : Dev nD) (t : Fin cfg2.N) : (dat V c).after 6 t = tile V c 6 t := by dsimp only [dat]
theorem after_wlin (c : Dev nD) (t : Fin cfg2.N) : (dat V c).after 7 t = tile V c 7 t := by dsimp only [dat]
theorem after_blin (c : Dev nD) (t : Fin cfg2.N) : (dat V c).after 8 t = tile V c 8 t := by dsimp only [dat]
theorem after_pooled (c : Dev nD) (t : Fin cfg2.N) :
    (dat V c).after 9 t = pooledOut (tileSum (tile V c 0 t) (tile V c 1 t) (tile V c 2 t) (tile V c 3 t) (tile V c 4 t) (tile V c 5 t) (View.ld (prevAt V c t.val t.isLt) rAcc)) (tile V c 6 t) := by dsimp only [dat]
theorem after_logits (c : Dev nD) (t : Fin cfg2.N) :
    (dat V c).after 10 t = logitsOut (tileSum (tile V c 0 t) (tile V c 1 t) (tile V c 2 t) (tile V c 3 t) (tile V c 4 t) (tile V c 5 t) (View.ld (prevAt V c t.val t.isLt) rAcc)) (tile V c 6 t) (tile V c 7 t) (tile V c 8 t) := by dsimp only [dat]

theorem before_agg (c : Dev nD) (t : Fin cfg2.N) (d) : (dat V c).before 0 t d = tile V c 0 t :=
  staged_agg V (dat V c) (dat_A V c 0) (after_agg V c) t d
theorem before_h (c : Dev nD) (t : Fin cfg2.N) (d) : (dat V c).before 1 t d = tile V c 1 t :=
  staged_h V (dat V c) (dat_A V c 1) (after_h V c) t d
theorem before_wrel (c : Dev nD) (t : Fin cfg2.N) (d) : (dat V c).before 2 t d = tile V c 2 t :=
  staged_wrel V (dat V c) (dat_A V c 2) (after_wrel V c) t d
theorem before_wroot (c : Dev nD) (t : Fin cfg2.N) (d) : (dat V c).before 3 t d = tile V c 3 t :=
  staged_wroot V (dat V c) (dat_A V c 3) (after_wroot V c) t d
theorem before_bias (c : Dev nD) (t : Fin cfg2.N) (d) : (dat V c).before 4 t d = tile V c 4 t :=
  staged_bias V (dat V c) (dat_A V c 4) (after_bias V c) t d
theorem before_ids (c : Dev nD) (t : Fin cfg2.N) (d) : (dat V c).before 5 t d = tile V c 5 t :=
  staged_ids V (dat V c) (dat_A V c 5) (after_ids V c) t d
theorem before_counts (c : Dev nD) (t : Fin cfg2.N) (d) : (dat V c).before 6 t d = tile V c 6 t :=
  staged_counts V (dat V c) (dat_A V c 6) (after_counts V c) t d
theorem before_wlin (c : Dev nD) (t : Fin cfg2.N) (d) : (dat V c).before 7 t d = tile V c 7 t :=
  staged_wlin V (dat V c) (dat_A V c 7) (after_wlin V c) t d
theorem before_blin (c : Dev nD) (t : Fin cfg2.N) (d) : (dat V c).before 8 t d = tile V c 8 t :=
  staged_blin V (dat V c) (dat_A V c 8) (after_blin V c) t d

theorem inv_castSucc (c : Dev nD) (t : Fin cfg2.N) :
    (dat V c).Φ t.castSucc = inv V c t.val (Nat.le_of_lt t.isLt) := by
  dsimp only [dat]; simp only [Fin.coe_castSucc]

/-- Before the first point the invariant is the class's. -/
theorem inv_first (c : Dev nD) : (dat V c).Φ 0 = Pipeline.ΦA spec2 c := rfl

/-- After the last point the invariant gives the class's back: the accumulator's value is forgotten. -/
theorem inv_last (c : Dev nD) : (dat V c).Φ (Fin.last cfg2.N) ⊢ Pipeline.ΦA spec2 c := by
  rw [show (dat V c).Φ (Fin.last cfg2.N) = inv V c (Fin.last cfg2.N).val (Nat.le_of_lt_succ (Fin.last cfg2.N).isLt) from rfl,
    inv_pos V c _ _ (by rw [Fin.val_last]; have : cfg2.N = 10 := N_2; omega), classInv_eq]
  unfold besideOthers
  iintro ⟨⟨R1, R2, R3, R4, R5, R6, R7, R8, R9, R10, R11, R12, R13, R14, R15, R16, R17, R18, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    iexists _; iexact HS
  iexact Hg

/-! ## Where the windows are idle -/

theorem live_agg : ∀ t : Fin cfg2.N, cfg2.idle 0 (grid2.coords t) = false := by decide +kernel
theorem live_h : ∀ t : Fin cfg2.N, cfg2.idle 1 (grid2.coords t) = false := by decide +kernel
theorem live_wrel : ∀ t : Fin cfg2.N, cfg2.idle 2 (grid2.coords t) = false := by decide +kernel
theorem live_wroot : ∀ t : Fin cfg2.N, cfg2.idle 3 (grid2.coords t) = false := by decide +kernel
theorem live_bias : ∀ t : Fin cfg2.N, cfg2.idle 4 (grid2.coords t) = false := by decide +kernel
theorem live_ids : ∀ t : Fin cfg2.N, cfg2.idle 5 (grid2.coords t) = false := by decide +kernel
theorem live_counts : ∀ t : Fin cfg2.N, cfg2.idle 6 (grid2.coords t) = false := by decide +kernel
theorem live_wlin : ∀ t : Fin cfg2.N, cfg2.idle 7 (grid2.coords t) = false := by decide +kernel
theorem live_blin : ∀ t : Fin cfg2.N, cfg2.idle 8 (grid2.coords t) = false := by decide +kernel
theorem idle_pooled : ∀ t : Fin cfg2.N, ¬isLast (grid2.coords t) → cfg2.idle 9 (grid2.coords t) = true := by decide +kernel
theorem keep_pooled : ∀ t : Fin cfg2.N, ¬isLast (grid2.coords t) → (cfg2.win 9).flush t = false := by decide +kernel
theorem live_pooled : ∀ t : Fin cfg2.N, isLast (grid2.coords t) → cfg2.idle 9 (grid2.coords t) = false := by decide +kernel
theorem idle_logits : ∀ t : Fin cfg2.N, ¬isLast (grid2.coords t) → cfg2.idle 10 (grid2.coords t) = true := by decide +kernel
theorem keep_logits : ∀ t : Fin cfg2.N, ¬isLast (grid2.coords t) → (cfg2.win 10).flush t = false := by decide +kernel
theorem live_logits : ∀ t : Fin cfg2.N, isLast (grid2.coords t) → cfg2.idle 10 (grid2.coords t) = false := by decide +kernel

/-! ## The body obligation -/

/-- What the body is handed at point `t`, window by window, -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d)))

/-- and what it gives back. -/
def returned (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 4000000 in
/-- The body at any point. The inputs' buffers hold their tiles; the grid position says which of the three cases the
    point is in; the invariant hands the body the scratch (at anything at the first point, else at what the point
    before left) and takes it back at this point's accumulator; the core owes nothing throughout. -/
theorem point_runs (c : Dev nD) (t : Fin cfg2.N) :
    handed V c t ⊢ wp frame (wpE (defs₀ (F := F)) Variants.none c none) Set.univ (bodyAt2 t) (fun _ => returned V c t) := by
  unfold handed returned bodyAt2
  simp only [before_agg, before_h, before_wrel, before_wroot, before_bias, before_ids, before_counts, before_wlin, before_blin]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st2_0 t) fullShare ((dat V c).after 0 t) from by
    unfold Dat.leavesExact; rw [live_agg t], after_agg]
  rw [show (dat V c).leavesExact 1 t = owns (c : Thread nD τ) (st2_1 t) fullShare ((dat V c).after 1 t) from by
    unfold Dat.leavesExact; rw [live_h t], after_h]
  rw [show (dat V c).leavesExact 2 t = owns (c : Thread nD τ) (st2_2 t) fullShare ((dat V c).after 2 t) from by
    unfold Dat.leavesExact; rw [live_wrel t], after_wrel]
  rw [show (dat V c).leavesExact 3 t = owns (c : Thread nD τ) (st2_3 t) fullShare ((dat V c).after 3 t) from by
    unfold Dat.leavesExact; rw [live_wroot t], after_wroot]
  rw [show (dat V c).leavesExact 4 t = owns (c : Thread nD τ) (st2_4 t) fullShare ((dat V c).after 4 t) from by
    unfold Dat.leavesExact; rw [live_bias t], after_bias]
  rw [show (dat V c).leavesExact 5 t = owns (c : Thread nD τ) (st2_5 t) fullShare ((dat V c).after 5 t) from by
    unfold Dat.leavesExact; rw [live_ids t], after_ids]
  rw [show (dat V c).leavesExact 6 t = owns (c : Thread nD τ) (st2_6 t) fullShare ((dat V c).after 6 t) from by
    unfold Dat.leavesExact; rw [live_counts t], after_counts]
  rw [show (dat V c).leavesExact 7 t = owns (c : Thread nD τ) (st2_7 t) fullShare ((dat V c).after 7 t) from by
    unfold Dat.leavesExact; rw [live_wlin t], after_wlin]
  rw [show (dat V c).leavesExact 8 t = owns (c : Thread nD τ) (st2_8 t) fullShare ((dat V c).after 8 t) from by
    unfold Dat.leavesExact; rw [live_blin t], after_blin]
  have hN : t.val < 10 := lt_of_lt_of_eq t.isLt (show cfg2.N = 10 from N_2)
  by_cases h0 : t.val % 10 = 0
  · have hF : isFirst (grid2.coords t) := (isFirst_iff t).mpr h0
    have hL : ¬isLast (grid2.coords t) := fun h => by have := (isLast_iff t).mp h; omega
    have hz : t.val = 0 := by omega
    rw [Dat.leavesExact_idle (dat V c) 9 t (idle_pooled t hL) (keep_pooled t hL),
      Dat.leavesExact_idle (dat V c) 10 t (idle_logits t hL) (keep_logits t hL)]
    rw [accAt_first V c t hz, inv_castSucc V c t, inv_zero V c _ _ hz, classInv_eq]
    unfold besideOthers
    iintro ⟨⟨⟨R1, R2, R3, R4, R5, R6, R7, R8, R9, R10, R11, R12, R13, R14, R15, R16, R17, R18, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (first_runs c Set.univ (grid2.coords t) _ _ _ _ _ _ _ _ _ _ _ _ _ _ _ _ _ _ _ _ _ _ _ _ hF hL
      (tile V c 0 t) (tile V c 1 t) (tile V c 2 t) (tile V c 3 t) (tile V c 4 t) (tile V c 5 t) (tile V c 6 t) (tile V c 7 t) (tile V c 8 t) ((dat V c).before 9 t d9) ((dat V c).before 10 t d10) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexists _; iexact HS
    iintro ⟨H0, H1, H2, H3, H4, H5, H6, H7, H8, H9, H10, HS⟩
    isplitl [R1 R2 R3 R4 R5 R6 R7 R8 R9 R10 R11 R12 R13 R14 R15 R16 R17 R18 HS Hg]
    · isplitr [Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [R18]; · iexact R18
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hF : ¬isFirst (grid2.coords t) := fun h => h0 ((isFirst_iff t).mp h)
    have hz : t.val ≠ 0 := fun h => h0 (by rw [h])
    by_cases h9 : t.val % 10 = 9
    · have hL : isLast (grid2.coords t) := (isLast_iff t).mpr h9
      rw [show (dat V c).leavesExact 9 t = owns (c : Thread nD τ) (st2_9 t) fullShare ((dat V c).after 9 t) from by
        unfold Dat.leavesExact; rw [live_pooled t hL], after_pooled]
      rw [show (dat V c).leavesExact 10 t = owns (c : Thread nD τ) (st2_10 t) fullShare ((dat V c).after 10 t) from by
        unfold Dat.leavesExact; rw [live_logits t hL], after_logits]
      rw [prevAt_later V c t hz, accAt_later V c t hz, inv_castSucc V c t, inv_pos V c _ _ hz]
      unfold besideOthers
      iintro ⟨⟨⟨R1, R2, R3, R4, R5, R6, R7, R8, R9, R10, R11, R12, R13, R14, R15, R16, R17, R18, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (last_runs c Set.univ (grid2.coords t) _ _ _ _ _ _ _ _ _ _ _ _ _ _ _ _ _ _ _ _ _ _ _ _ hF hL
        (tile V c 0 t) (tile V c 1 t) (tile V c 2 t) (tile V c 3 t) (tile V c 4 t) (tile V c 5 t) (tile V c 6 t) (tile V c 7 t) (tile V c 8 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS]; · iexact HS
      iintro ⟨H0, H1, H2, H3, H4, H5, H6, H7, H8, H9, H10, HS⟩
      isplitl [R1 R2 R3 R4 R5 R6 R7 R8 R9 R10 R11 R12 R13 R14 R15 R16 R17 R18 HS Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hL : ¬isLast (grid2.coords t) := fun h => h9 ((isLast_iff t).mp h)
      rw [Dat.leavesExact_idle (dat V c) 9 t (idle_pooled t hL) (keep_pooled t hL),
        Dat.leavesExact_idle (dat V c) 10 t (idle_logits t hL) (keep_logits t hL)]
      rw [accAt_later V c t hz, inv_castSucc V c t, inv_pos V c _ _ hz]
      unfold besideOthers
      iintro ⟨⟨⟨R1, R2, R3, R4, R5, R6, R7, R8, R9, R10, R11, R12, R13, R14, R15, R16, R17, R18, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (middle_runs c Set.univ (grid2.coords t) _ _ _ _ _ _ _ _ _ _ _ _ _ _ _ _ _ _ _ _ _ _ _ _ hF hL
        (tile V c 0 t) (tile V c 1 t) (tile V c 2 t) (tile V c 3 t) (tile V c 4 t) (tile V c 5 t) (tile V c 6 t) (tile V c 7 t) (tile V c 8 t) ((dat V c).before 9 t d9) ((dat V c).before 10 t d10)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [R1 R2 R3 R4 R5 R6 R7 R8 R9 R10 R11 R12 R13 R14 R15 R16 R17 R18 HS Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem obligation (c : Dev nD) : BodyObligation (dat (F := F) V c) (defs₀ (F := F)) Variants.none () Set.univ := fun t => by
  rw [bigSep_W2, bigSep_W2]
  exact point_runs V c t

theorem owes_nothing (c : Dev nD) (t : Fin (cfg2.N + 1)) : (dat V c).owed t = 0 := rfl

end Cert.KernelIdeal.Pool

end
-- ==== Proof.Boundaries.lean ====
/-
  The contents of the core's buffers between the items of the kernel program — host stretch, first convolution call,
  host stretch, second convolution call, host stretch, pooling call — as a fold from the launch memory: a host stretch
  applies its operations' pure functions; a call leaves every array it stages at what its write-backs leave (an input
  array as it was, an output array with every written-back block in place) and touches no other buffer.  Each item leaves
  alone every buffer it does not write, so each of the program's fourteen arguments reads back, through the six items, as
  launched.  Last, the proof data of the three calls as one family, each at the contents its call is entered with.
-/
import proofs.«410375_j5841155523230_3_alg».proof.Proof.ConvStep0
import proofs.«410375_j5841155523230_3_alg».proof.Proof.ConvStep1
import proofs.«410375_j5841155523230_3_alg».proof.Proof.PoolStep
import proofs.«410375_j5841155523230_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- At launch. -/
abbrev B0 (c : Dev nD) : Valuation τ sig (Elt F) := fun b => m (c, b)
/-- After the first host stretch: what the first convolution call is entered with, -/
abbrev B1 (c : Dev nD) : Valuation τ sig (Elt F) := StableHlo.after hostOps0 (B0 m c)
/-- read at the core's own references. -/
abbrev E1 : (c : Dev nD) → (b : Ref sig .tc) → Buf (Elt F) ((c : Thread nD τ).loc b) := fun c b => B1 m c b
/-- After the first convolution call. -/
def B2 (c : Dev nD) : Valuation τ sig (Elt F) :=
  Pipeline.withArrays spec0 c (B1 m c) fun w => (Conv0.dat (E1 m) c).arrAt w cfg0.N
abbrev E2 : (c : Dev nD) → (b : Ref sig .tc) → Buf (Elt F) ((c : Thread nD τ).loc b) := fun c b => B2 m c b
/-- After the second host stretch: what the second convolution call is entered with. -/
abbrev B3 (c : Dev nD) : Valuation τ sig (Elt F) := StableHlo.after hostOps1 (B2 m c)
abbrev E3 : (c : Dev nD) → (b : Ref sig .tc) → Buf (Elt F) ((c : Thread nD τ).loc b) := fun c b => B3 m c b
/-- After the second convolution call. -/
def B4 (c : Dev nD) : Valuation τ sig (Elt F) :=
  Pipeline.withArrays spec1 c (B3 m c) fun w => (Conv1.dat (E3 m) c).arrAt w cfg1.N
abbrev E4 : (c : Dev nD) → (b : Ref sig .tc) → Buf (Elt F) ((c : Thread nD τ).loc b) := fun c b => B4 m c b
/-- After the third host stretch: what the pooling call is entered with. -/
abbrev B5 (c : Dev nD) : Valuation τ sig (Elt F) := StableHlo.after hostOps2 (B4 m c)
abbrev E5 : (c : Dev nD) → (b : Ref sig .tc) → Buf (Elt F) ((c : Thread nD τ).loc b) := fun c b => B5 m c b
/-- After the pooling call: the end. -/
def B6 (c : Dev nD) : Valuation τ sig (Elt F) :=
  Pipeline.withArrays spec2 c (B5 m c) fun w => (Pool.dat (E5 m) c).arrAt w cfg2.N
abbrev E6 : (c : Dev nD) → (b : Ref sig .tc) → Buf (Elt F) ((c : Thread nD τ).loc b) := fun c b => B6 m c b

/-! ## A call's arrays after it, and every other buffer -/

theorem B2_arr (c : Dev nD) (w : Fin cfg0.W) :
    B2 m c (Proc.devRef .tc (Pipeline.arrRef spec0 w)) = (Conv0.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (Conv1.dat (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem B6_arr (c : Dev nD) (w : Fin cfg2.W) :
    B6 m c (Proc.devRef .tc (Pipeline.arrRef spec2 w)) = (Pool.dat (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb

/-- The two facts the exit of a call needs: its arrays hold what the pipeline leaves, every other buffer what it held. -/
theorem conv0_arrays (c : Dev nD) (w : Fin cfg0.W) : (Conv0.dat (E1 m) c).arrAt w cfg0.N = E2 m c (Pipeline.arrRef spec0 w) :=
  (B2_arr m c w).symm
theorem conv0_others (c : Dev nD) : ∀ b, b ∉ Finset.univ.image (Pipeline.arrRef spec0) → E2 m c b = E1 m c b :=
  fun b hb => B2_of_ne m c b fun w e => hb (Finset.mem_image.mpr ⟨w, Finset.mem_univ _, e⟩)
theorem conv1_arrays (c : Dev nD) (w : Fin cfg1.W) : (Conv1.dat (E3 m) c).arrAt w cfg1.N = E4 m c (Pipeline.arrRef spec1 w) :=
  (B4_arr m c w).symm
theorem conv1_others (c : Dev nD) : ∀ b, b ∉ Finset.univ.image (Pipeline.arrRef spec1) → E4 m c b = E3 m c b :=
  fun b hb => B4_of_ne m c b fun w e => hb (Finset.mem_image.mpr ⟨w, Finset.mem_univ _, e⟩)
theorem pool_arrays (c : Dev nD) (w : Fin cfg2.W) : (Pool.dat (E5 m) c).arrAt w cfg2.N = E6 m c (Pipeline.arrRef spec2 w) :=
  (B6_arr m c w).symm
theorem pool_others (c : Dev nD) : ∀ b, b ∉ Finset.univ.image (Pipeline.arrRef spec2) → E6 m c b = E5 m c b :=
  fun b hb => B6_of_ne m c b fun w e => hb (Finset.mem_image.mpr ⟨w, Finset.mem_univ _, e⟩)

/-! ## What each item leaves alone -/

theorem B1_keeps (c : Dev nD) (r : Ref sig .tc) (h : r ∉ hostOps0_W) : B1 m c r = B0 m c r :=
  StableHlo.after_of_writes_sub hostOps0 _ hostOps0_writes h
theorem B3_keeps (c : Dev nD) (r : Ref sig .tc) (h : r ∉ hostOps1_W) : B3 m c r = B2 m c r :=
  StableHlo.after_of_writes_sub hostOps1 _ hostOps1_writes h
theorem B5_keeps (c : Dev nD) (r : Ref sig .tc) (h : r ∉ hostOps2_W) : B5 m c r = B4 m c r :=
  StableHlo.after_of_writes_sub hostOps2 _ hostOps2_writes h

/-- The first convolution call changes only its output array. -/
theorem B2_keeps (c : Dev nD) (r : Ref sig .tc) (hr : r ≠ main_v14) : B2 m c r = B1 m c r := by
  by_cases h : ∃ w, Pipeline.arrRef spec0 w = r
  · obtain ⟨w, rfl⟩ := h
    have hw : (cfg0.win w).isOut = false := by revert hr; revert w; decide
    exact (B2_arr m c w).trans (((Conv0.dat (E1 m) c).arrAt_in w hw _).trans (Conv0.dat_A (E1 m) c w))
  · exact B2_of_ne m c r fun w e => h ⟨w, e⟩

/-- The second convolution call changes only its output array. -/
theorem B4_keeps (c : Dev nD) (r : Ref sig .tc) (hr : r ≠ main_v25) : B4 m c r = B3 m c r := by
  by_cases h : ∃ w, Pipeline.arrRef spec1 w = r
  · obtain ⟨w, rfl⟩ := h
    have hw : (cfg1.win w).isOut = false := by revert hr; revert w; decide
    exact (B4_arr m c w).trans (((Conv1.dat (E3 m) c).arrAt_in w hw _).trans (Conv1.dat_A (E3 m) c w))
  · exact B4_of_ne m c r fun w e => h ⟨w, e⟩

/-- The pooling call changes only its two output arrays. -/
theorem B6_keeps (c : Dev nD) (r : Ref sig .tc) (hr0 : r ≠ main_v42_0) (hr1 : r ≠ main_v42_1) : B6 m c r = B5 m c r := by
  by_cases h : ∃ w, Pipeline.arrRef spec2 w = r
  · obtain ⟨w, rfl⟩ := h
    have hw : (cfg2.win w).isOut = false := by revert hr0 hr1; revert w; decide
    exact (B6_arr m c w).trans (((Pool.dat (E5 m) c).arrAt_in w hw _).trans (Pool.dat_A (E5 m) c w))
  · exact B6_of_ne m c r fun w e => h ⟨w, e⟩

/-! ## The arguments end as launched -/

theorem B6_arg0 (c : Dev nD) : B6 m c main_arg0 = m ((c : Thread nD τ).loc main_arg0) :=
  (B6_keeps m c main_arg0 (by decide) (by decide)).trans <| (B5_keeps m c main_arg0 (by decide)).trans <|
    (B4_keeps m c main_arg0 (by decide)).trans <| (B3_keeps m c main_arg0 (by decide)).trans <|
    (B2_keeps m c main_arg0 (by decide)).trans <| (B1_keeps m c main_arg0 (by decide)).trans rfl
theorem B6_arg1 (c : Dev nD) : B6 m c main_arg1 = m ((c : Thread nD τ).loc main_arg1) :=
  (B6_keeps m c main_arg1 (by decide) (by decide)).trans <| (B5_keeps m c main_arg1 (by decide)).trans <|
    (B4_keeps m c main_arg1 (by decide)).trans <| (B3_keeps m c main_arg1 (by decide)).trans <|
    (B2_keeps m c main_arg1 (by decide)).trans <| (B1_keeps m c main_arg1 (by decide)).trans rfl
theorem B6_arg2 (c : Dev nD) : B6 m c main_arg2 = m ((c : Thread nD τ).loc main_arg2) :=
  (B6_keeps m c main_arg2 (by decide) (by decide)).trans <| (B5_keeps m c main_arg2 (by decide)).trans <|
    (B4_keeps m c main_arg2 (by decide)).trans <| (B3_keeps m c main_arg2 (by decide)).trans <|
    (B2_keeps m c main_arg2 (by decide)).trans <| (B1_keeps m c main_arg2 (by decide)).trans rfl
theorem B6_arg3 (c : Dev nD) : B6 m c main_arg3 = m ((c : Thread nD τ).loc main_arg3) :=
  (B6_keeps m c main_arg3 (by decide) (by decide)).trans <| (B5_keeps m c main_arg3 (by decide)).trans <|
    (B4_keeps m c main_arg3 (by decide)).trans <| (B3_keeps m c main_arg3 (by decide)).trans <|
    (B2_keeps m c main_arg3 (by decide)).trans <| (B1_keeps m c main_arg3 (by decide)).trans rfl
theorem B6_arg4 (c : Dev nD) : B6 m c main_arg4 = m ((c : Thread nD τ).loc main_arg4) :=
  (B6_keeps m c main_arg4 (by decide) (by decide)).trans <| (B5_keeps m c main_arg4 (by decide)).trans <|
    (B4_keeps m c main_arg4 (by decide)).trans <| (B3_keeps m c main_arg4 (by decide)).trans <|
    (B2_keeps m c main_arg4 (by decide)).trans <| (B1_keeps m c main_arg4 (by decide)).trans rfl
theorem B6_arg5 (c : Dev nD) : B6 m c main_arg5 = m ((c : Thread nD τ).loc main_arg5) :=
  (B6_keeps m c main_arg5 (by decide) (by decide)).trans <| (B5_keeps m c main_arg5 (by decide)).trans <|
    (B4_keeps m c main_arg5 (by decide)).trans <| (B3_keeps m c main_arg5 (by decide)).trans <|
    (B2_keeps m c main_arg5 (by decide)).trans <| (B1_keeps m c main_arg5 (by decide)).trans rfl
theorem B6_arg6 (c : Dev nD) : B6 m c main_arg6 = m ((c : Thread nD τ).loc main_arg6) :=
  (B6_keeps m c main_arg6 (by decide) (by decide)).trans <| (B5_keeps m c main_arg6 (by decide)).trans <|
    (B4_keeps m c main_arg6 (by decide)).trans <| (B3_keeps m c main_arg6 (by decide)).trans <|
    (B2_keeps m c main_arg6 (by decide)).trans <| (B1_keeps m c main_arg6 (by decide)).trans rfl
theorem B6_arg7 (c : Dev nD) : B6 m c main_arg7 = m ((c : Thread nD τ).loc main_arg7) :=
  (B6_keeps m c main_arg7 (by decide) (by decide)).trans <| (B5_keeps m c main_arg7 (by decide)).trans <|
    (B4_keeps m c main_arg7 (by decide)).trans <| (B3_keeps m c main_arg7 (by decide)).trans <|
    (B2_keeps m c main_arg7 (by decide)).trans <| (B1_keeps m c main_arg7 (by decide)).trans rfl
theorem B6_arg8 (c : Dev nD) : B6 m c main_arg8 = m ((c : Thread nD τ).loc main_arg8) :=
  (B6_keeps m c main_arg8 (by decide) (by decide)).trans <| (B5_keeps m c main_arg8 (by decide)).trans <|
    (B4_keeps m c main_arg8 (by decide)).trans <| (B3_keeps m c main_arg8 (by decide)).trans <|
    (B2_keeps m c main_arg8 (by decide)).trans <| (B1_keeps m c main_arg8 (by decide)).trans rfl
theorem B6_arg9 (c : Dev nD) : B6 m c main_arg9 = m ((c : Thread nD τ).loc main_arg9) :=
  (B6_keeps m c main_arg9 (by decide) (by decide)).trans <| (B5_keeps m c main_arg9 (by decide)).trans <|
    (B4_keeps m c main_arg9 (by decide)).trans <| (B3_keeps m c main_arg9 (by decide)).trans <|
    (B2_keeps m c main_arg9 (by decide)).trans <| (B1_keeps m c main_arg9 (by decide)).trans rfl
theorem B6_arg10 (c : Dev nD) : B6 m c main_arg10 = m ((c : Thread nD τ).loc main_arg10) :=
  (B6_keeps m c main_arg10 (by decide) (by decide)).trans <| (B5_keeps m c main_arg10 (by decide)).trans <|
    (B4_keeps m c main_arg10 (by decide)).trans <| (B3_keeps m c main_arg10 (by decide)).trans <|
    (B2_keeps m c main_arg10 (by decide)).trans <| (B1_keeps m c main_arg10 (by decide)).trans rfl
theorem B6_arg11 (c : Dev nD) : B6 m c main_arg11 = m ((c : Thread nD τ).loc main_arg11) :=
  (B6_keeps m c main_arg11 (by decide) (by decide)).trans <| (B5_keeps m c main_arg11 (by decide)).trans <|
    (B4_keeps m c main_arg11 (by decide)).trans <| (B3_keeps m c main_arg11 (by decide)).trans <|
    (B2_keeps m c main_arg11 (by decide)).trans <| (B1_keeps m c main_arg11 (by decide)).trans rfl
theorem B6_arg12 (c : Dev nD) : B6 m c main_arg12 = m ((c : Thread nD τ).loc main_arg12) :=
  (B6_keeps m c main_arg12 (by decide) (by decide)).trans <| (B5_keeps m c main_arg12 (by decide)).trans <|
    (B4_keeps m c main_arg12 (by decide)).trans <| (B3_keeps m c main_arg12 (by decide)).trans <|
    (B2_keeps m c main_arg12 (by decide)).trans <| (B1_keeps m c main_arg12 (by decide)).trans rfl
theorem B6_arg13 (c : Dev nD) : B6 m c main_arg13 = m ((c : Thread nD τ).loc main_arg13) :=
  (B6_keeps m c main_arg13 (by decide) (by decide)).trans <| (B5_keeps m c main_arg13 (by decide)).trans <|
    (B4_keeps m c main_arg13 (by decide)).trans <| (B3_keeps m c main_arg13 (by decide)).trans <|
    (B2_keeps m c main_arg13 (by decide)).trans <| (B1_keeps m c main_arg13 (by decide)).trans rfl

/-! ## The proof data of the three calls, as one family -/

/-- Each call's proof data at the contents it is entered with — a literal match, so that the family at a numeral
    reduces to that call's data. -/
def pdats : (p : Fin 3) → (c : Dev nD) → Dat τ (Elt F) Unit ℕ (UR sig nD τ) ℕ (Pipeline.pin (pcfgs (F := F)) adm p) c
  | ⟨0, _⟩ => fun c => Conv0.dat (E1 m) c
  | ⟨1, _⟩ => fun c => Conv1.dat (E3 m) c
  | ⟨2, _⟩ => fun c => Pool.dat (E5 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state, and that it owes nothing. -/
abbrev riding (c : Dev nD) : sProp 𝕄 :=
  iprop((∃ r, prngReg c r) ∗ ∃ W, owes (c : Thread nD τ) (0 : CellTallies nD τ sig Unit) W)

/-- The core's unscoped buffers held at a valuation. -/
abbrev heldAt (B : Dev nD → Valuation τ sig (Elt F)) (c : Dev nD) : sProp 𝕄 :=
  StableHlo.held (c : Thread nD τ) (Pipeline.ucRefs τ sig) (B c)

end Cert.KernelIdeal.Run

end
-- ==== Proof.Region0.lean ====
/-
  The first convolution call as one item of the program's run.  It is entered with every unscoped buffer of the core held
  at the contents the first host stretch leaves, beside the riding state (the generator register, nothing owed), and
  left with every unscoped buffer held at those contents except the output the call writes back, which holds what the
  write-backs of the pipeline leave.  On entry the arrays the call stages are split out of the unscoped buffers and the generator
  register goes into the invariant; on exit both come back.  The call has no semaphore of its own and owes nothing.
-/
import proofs.«410375_j5841155523230_3_alg».proof.Proof.Boundaries

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the family pinned at a pipeline unifies with this call's configuration only when
-- unification may unfold plain definitions in a metavariable's type
set_option backward.isDefEq.respectTransparency.types false in
def conv0Call : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Conv0.obligation (E1 m) c).loose
  hwaits := Pipeline.hwaits_of_owed_zero _ _ _ _ L lv 0 fun _ _ => rfl
  pre c := iprop(heldAt (B1 m) c ∗ riding c)
  post c := iprop(heldAt (B2 m) c ∗ riding c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Conv0.inv_first (E1 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Conv0.inv_last (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (conv0_arrays m c) (conv0_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Region1.lean ====
/-
  The second convolution call as one item of the program's run.  It is entered with every unscoped buffer of the core held
  at the contents the second host stretch leaves, beside the riding state (the generator register, nothing owed), and
  left with every unscoped buffer held at those contents except the output the call writes back, which holds what the
  write-backs of the pipeline leave.  On entry the arrays the call stages are split out of the unscoped buffers and the generator
  register goes into the invariant; on exit both come back.  The call has no semaphore of its own and owes nothing.
-/
import proofs.«410375_j5841155523230_3_alg».proof.Proof.Boundaries

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the family pinned at a pipeline unifies with this call's configuration only when
-- unification may unfold plain definitions in a metavariable's type
set_option backward.isDefEq.respectTransparency.types false in
def conv1Call : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Conv1.obligation (E3 m) c).loose
  hwaits := Pipeline.hwaits_of_owed_zero _ _ _ _ L lv 1 fun _ _ => rfl
  pre c := iprop(heldAt (B3 m) c ∗ riding c)
  post c := iprop(heldAt (B4 m) c ∗ riding c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Conv1.inv_first (E3 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Conv1.inv_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (conv1_arrays m c) (conv1_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Region2.lean ====
/-
  The pooling call as one item of the program's run.  It is entered with every unscoped buffer of the core held
  at the contents the third host stretch leaves, beside the riding state (the generator register, nothing owed), and
  left with every unscoped buffer held at those contents except the output the call writes back, which holds what the
  write-backs of the pipeline leave.  On entry the arrays the call stages are split out of the unscoped buffers and the generator
  register goes into the invariant; on exit both come back.  The call has no semaphore of its own and owes nothing.
-/
import proofs.«410375_j5841155523230_3_alg».proof.Proof.Boundaries

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the family pinned at a pipeline unifies with this call's configuration only when
-- unification may unfold plain definitions in a metavariable's type
set_option backward.isDefEq.respectTransparency.types false in
def poolCall : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Pool.obligation (E5 m) c).loose
  hwaits := Pipeline.hwaits_of_owed_zero _ _ _ _ L lv 2 fun _ _ => rfl
  pre c := iprop(heldAt (B5 m) c ∗ riding c)
  post c := iprop(heldAt (B6 m) c ∗ riding c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Pool.inv_first (E5 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Pool.inv_last (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (pool_arrays m c) (pool_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Launch.lean ====
/-
  The run of the kernel program: its six items in order — host stretch, first convolution call, host stretch, second
  convolution call, host stretch, pooling call — each entered from the state the one before leaves (every unscoped buffer
  held at the boundary's contents, beside the generator register and the fact that the core owes nothing), composed by
  the launch theorem for a program of several calls.  Its conclusion: every weakly fair execution terminates without a
  fault and ends with every unscoped buffer at the last boundary's contents.  Read at the fourteen arguments this is the
  frame (each ends as launched); read at the two results it names what the pooling call's write-backs leave.
-/
import proofs.«410375_j5841155523230_3_alg».proof.Proof.Region0
import proofs.«410375_j5841155523230_3_alg».proof.Proof.Region1
import proofs.«410375_j5841155523230_3_alg».proof.Proof.Region2

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as an item: its operations over the unscoped buffers held at `B`, the riding state alongside;
    it leaves them held at the operations' pure functions applied to `B`. -/
abbrev hostItem (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B riding

/-- The program's six items. -/
abbrev items : List (Pipeline.Seg (pcfgs (F := F)) adm (pdats m) () defs₀ 𝒱₀ L lv) :=
  [ .host (hostItem hostOps0 hostOps0_sub hostOps0_fresh (B0 m)),
    .region (conv0Call m),
    .host (hostItem hostOps1 hostOps1_sub hostOps1_fresh (B2 m)),
    .region (conv1Call m),
    .host (hostItem hostOps2 hostOps2_sub hostOps2_fresh (B4 m)),
    .region (poolCall m) ]

/-- The program IS the run of its items. -/
theorem main_is_items (c : Dev nD) : main (F := F) c = Pipeline.Seg.run (items m) := (main_chain c).trans (by chain_rfl)

/-- An unscoped reference of the core is among those the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- Every weakly fair execution from memory `m` with zero counters terminates, nothing faulting, with every unscoped
    buffer of every core at the last boundary's contents. -/
theorem runs : θ_run defs (onTc (τ := τ) (main (F := F))) ⟨m, fun _ => 0, ρ⟩
    (fun r => ∀ c : Dev nD, ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (B0 m) c ∗ riding c))
    (Tₙ := fun c => iprop(heldAt (B6 m) c ∗ ∃ r, prngReg c r))
    (hch := ⟨fun _ => .rfl, fun _ => .rfl, fun _ => .rfl, fun _ => .rfl, fun _ => .rfl, fun _ => .rfl, fun c => by
      show iprop(heldAt (B6 m) c ∗ riding c) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold heldAt StableHlo.held
      imodintro
      iapply (pointsTo_read_all (Pipeline.ucRefs τ sig) (fun b => (((c : Thread nD τ)).1, b)) (B6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (B6_arg0 m c),
      (h c _ (mem_uc main_arg1 (by decide))).trans (B6_arg1 m c),
      (h c _ (mem_uc main_arg2 (by decide))).trans (B6_arg2 m c),
      (h c _ (mem_uc main_arg3 (by decide))).trans (B6_arg3 m c),
      (h c _ (mem_uc main_arg4 (by decide))).trans (B6_arg4 m c),
      (h c _ (mem_uc main_arg5 (by decide))).trans (B6_arg5 m c),
      (h c _ (mem_uc main_arg6 (by decide))).trans (B6_arg6 m c),
      (h c _ (mem_uc main_arg7 (by decide))).trans (B6_arg7 m c),
      (h c _ (mem_uc main_arg8 (by decide))).trans (B6_arg8 m c),
      (h c _ (mem_uc main_arg9 (by decide))).trans (B6_arg9 m c),
      (h c _ (mem_uc main_arg10 (by decide))).trans (B6_arg10 m c),
      (h c _ (mem_uc main_arg11 (by decide))).trans (B6_arg11 m c),
      (h c _ (mem_uc main_arg12 (by decide))).trans (B6_arg12 m c),
      (h c _ (mem_uc main_arg13 (by decide))).trans (B6_arg13 m c)⟩) (runs m ρ)

/-- THE RESULTS: the two result arrays end at what the pooling call's write-backs leave, and the arguments as launched. -/
theorem results : θ_run defs (onTc (τ := τ) (main (F := F))) ⟨m, fun _ => 0, ρ⟩ (fun r => ∀ c : Dev nD,
      r.2.mem ((c.tc : Thread nD τ).loc main_v42_0) = (Pool.dat (E5 m) c).arrAt 9 cfg2.N
      ∧ r.2.mem ((c.tc : Thread nD τ).loc main_v42_1) = (Pool.dat (E5 m) c).arrAt 10 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v42_0 (by decide))).trans (B6_arr m c 9),
      (h c _ (mem_uc main_v42_1 (by decide))).trans (B6_arr m c 10),
      (h c _ (mem_uc main_arg0 (by decide))).trans (B6_arg0 m c),
      (h c _ (mem_uc main_arg1 (by decide))).trans (B6_arg1 m c),
      (h c _ (mem_uc main_arg2 (by decide))).trans (B6_arg2 m c),
      (h c _ (mem_uc main_arg3 (by decide))).trans (B6_arg3 m c),
      (h c _ (mem_uc main_arg4 (by decide))).trans (B6_arg4 m c),
      (h c _ (mem_uc main_arg5 (by decide))).trans (B6_arg5 m c),
      (h c _ (mem_uc main_arg6 (by decide))).trans (B6_arg6 m c),
      (h c _ (mem_uc main_arg7 (by decide))).trans (B6_arg7 m c),
      (h c _ (mem_uc main_arg8 (by decide))).trans (B6_arg8 m c),
      (h c _ (mem_uc main_arg9 (by decide))).trans (B6_arg9 m c),
      (h c _ (mem_uc main_arg10 (by decide))).trans (B6_arg10 m c),
      (h c _ (mem_uc main_arg11 (by decide))).trans (B6_arg11 m c),
      (h c _ (mem_uc main_arg12 (by decide))).trans (B6_arg12 m c),
      (h c _ (mem_uc main_arg13 (by decide))).trans (B6_arg13 m c)⟩) (runs m ρ)

end Cert.KernelIdeal.Run

end
-- ==== Proof.BitsConvStep0.lean ====
/-
  The first graph-convolution call of the kernel program, read at an arbitrary valuation `V` of the core's buffers on
  entry to the call.  Grid point `t` (of five) stages rows 10000·t … 10000·t + 9999 of the aggregated neighbour
  features and of the node features, and the two 64×64 weight matrices and the bias whole.  The body loads all five,
  forms relu(agg·W_relᵀ + x·W_rootᵀ + b) as one pure term (the payload `k0_pay1`) and stores it through the whole
  rectangle of the output's staging buffer; nothing is carried from one point to the next.  So the proof data is:
  every input buffer keeps its tile, the output buffer ends at that one store's value, and the invariant is the
  class invariant of a body that touches no scratch.  Stated for any float instance.
-/
import proofs.«410375_j5841155523230_3_alg».proof.Proof.Gen.Kernel.Launch
import proofs.«410375_j5841155523230_3_alg».proof.Proof.Gen.Kernel.Skeleton
import proofs.«410375_j5841155523230_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the pipeline stages -/

/-- Window `w`'s tile at grid point `t`: its rows of the array the call finds in `V`. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its tile at every point, whether the point fetched it or not: a point that does
    not fetch has the same block index as the one before it, and the body leaves inputs in place. One statement per
    input window (the window is a literal so that its layout reduces). -/

theorem staged_agg {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

theorem staged_x {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

theorem staged_wrel {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

theorem staged_wroot {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

theorem staged_bias {c : Dev nD} (dat : Dat τ (Elt F) Unit ℕ (UR sig nD τ) ℕ cfg0 c) (hA : dat.A 4 = V c (Pipeline.arrRef spec0 4))
    (hafter : ∀ t, dat.after 4 t = tile V c 4 t) (t : Fin cfg0.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-! ## What the body leaves -/

/-- The whole rectangle of a 10000×64 tile, of a weight matrix, of the bias: every access of the body is through one of these. -/
abbrev rRows : Rect S10000x64 := Rect.unit (s := S10000x64) ![0, 0] S10000x64.size inb_S10000x64_S10000x64_0_0
abbrev rMat : Rect S64x64 := Rect.unit (s := S64x64) ![0, 0] S64x64.size inb_S64x64_S64x64_0_0
abbrev rVec : Rect S64 := Rect.unit (s := S64) ![0] S64.size inb_S64_S64_0

/-- The output's staging buffer after the body: its one store, of the layer's value on the tiles loaded. -/
def layerOut (agg x : Vec F S10000x64 .f32) (wrel wroot : Vec F S64x64 .f32) (b : Vec F S64 .f32) : Vec F S10000x64 .f32 :=
  View.canon [⟨rRows, k0_pay1 (View.ld agg rRows) (View.ld x rRows) (View.ld wrel rMat) (View.ld wroot rMat) (View.ld b rVec)⟩]

/-- That one store covers the buffer. -/
theorem layerOut_cover (p : Vec F S10000x64 .f32) (y : S10000x64.Idx) :
    ∃ pc ∈ ([⟨rRows, p⟩] : List (View.Piece (Elt F) S10000x64 .f32)), y ∈ pc.1.set :=
  View.cover_of_tiled [⟨rRows, p⟩] S10000x64.size (by rfl) y

set_option maxHeartbeats 1000000 in
/-- The body on whole staging buffers: the five inputs at given contents and the output at anything run to the
    continuation with the inputs unchanged and the output at `layerOut` of them. -/
theorem body_runs (c : Dev nD) (E : Set ℕ) (i : grid0.Coords)
    (a1 : Memref sig .tc .vmem S10000x64 .f32) (h1 : a1.IsWhole) (a2 : Memref sig .tc .vmem S10000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S10000x64 .f32) (h6 : a6.IsWhole)
    (agg x : Vec F S10000x64 .f32) (wrel wroot : Vec F S64x64 .f32) (b : Vec F S64 .f32) (K : PUnit → sProp 𝕄) :
    iprop(owns (c : Thread nD τ) a1 fullShare agg ∗ owns (c : Thread nD τ) a2 fullShare x ∗ owns (c : Thread nD τ) a3 fullShare wrel
        ∗ owns (c : Thread nD τ) a4 fullShare wroot ∗ owns (c : Thread nD τ) a5 fullShare b ∗ (∃ d, owns (c : Thread nD τ) a6 fullShare d)
        ∗ (iprop(owns (c : Thread nD τ) a1 fullShare agg ∗ owns (c : Thread nD τ) a2 fullShare x ∗ owns (c : Thread nD τ) a3 fullShare wrel
            ∗ owns (c : Thread nD τ) a4 fullShare wroot ∗ owns (c : Thread nD τ) a5 fullShare b
            ∗ owns (c : Thread nD τ) a6 fullShare (layerOut agg x wrel wroot b)) -∗ K ⟨⟩))
      ⊢ wp frame (wpE (defs₀ (F := F)) Variants.none c none) E (cc0__graph_conv_kernel i a1 h1 a2 h2 a3 h3 a4 h4 a5 h5 a6 h6) K := by
  simp only [cc0__graph_conv_kernel_eq_skeleton]; unfold cc0__graph_conv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (layerOut_cover _)

/-! ## The proof data of the call -/

/-- On core `c`: the arrays as the call finds them; after the body at point `t` every input buffer at its tile and the
    output buffer at the layer's value on the tiles; the invariant that of a body which touches no scratch (the
    other scoped buffers at some contents, the generator register at some state); full shares; nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => layerOut (tile V c 0 t) (tile V c 1 t) (tile V c 2 t) (tile V c 3 t) (tile V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after_agg (c : Dev nD) (t : Fin cfg0.N) : (dat V c).after 0 t = tile V c 0 t := by dsimp only [dat]
theorem after_x (c : Dev nD) (t : Fin cfg0.N) : (dat V c).after 1 t = tile V c 1 t := by dsimp only [dat]
theorem after_wrel (c : Dev nD) (t : Fin cfg0.N) : (dat V c).after 2 t = tile V c 2 t := by dsimp only [dat]
theorem after_wroot (c : Dev nD) (t : Fin cfg0.N) : (dat V c).after 3 t = tile V c 3 t := by dsimp only [dat]
theorem after_bias (c : Dev nD) (t : Fin cfg0.N) : (dat V c).after 4 t = tile V c 4 t := by dsimp only [dat]
theorem after_out (c : Dev nD) (t : Fin cfg0.N) :
    (dat V c).after 5 t = layerOut (tile V c 0 t) (tile V c 1 t) (tile V c 2 t) (tile V c 3 t) (tile V c 4 t) := by dsimp only [dat]

theorem before_agg (c : Dev nD) (t : Fin cfg0.N) (d) : (dat V c).before 0 t d = tile V c 0 t :=
  staged_agg V (dat V c) (dat_A V c 0) (after_agg V c) t d
theorem before_x (c : Dev nD) (t : Fin cfg0.N) (d) : (dat V c).before 1 t d = tile V c 1 t :=
  staged_x V (dat V c) (dat_A V c 1) (after_x V c) t d
theorem before_wrel (c : Dev nD) (t : Fin cfg0.N) (d) : (dat V c).before 2 t d = tile V c 2 t :=
  staged_wrel V (dat V c) (dat_A V c 2) (after_wrel V c) t d
theorem before_wroot (c : Dev nD) (t : Fin cfg0.N) (d) : (dat V c).before 3 t d = tile V c 3 t :=
  staged_wroot V (dat V c) (dat_A V c 3) (after_wroot V c) t d
theorem before_bias (c : Dev nD) (t : Fin cfg0.N) (d) : (dat V c).before 4 t d = tile V c 4 t :=
  staged_bias V (dat V c) (dat_A V c 4) (after_bias V c) t d

/-! ## The body obligation -/

/-- What the body is handed at point `t`, window by window, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it gives back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their tiles, so `body_runs` applies; the invariant and what the
    core owes pass through unread. -/
theorem point_runs (c : Dev nD) (t : Fin cfg0.N) :
    handed V c t ⊢ wp frame (wpE (defs₀ (F := F)) Variants.none c none) Set.univ (bodyAt0 t) (fun _ => returned V c t) := by
  unfold handed returned bodyAt0
  simp only [before_agg, before_x, before_wrel, before_wroot, before_bias]
  rw [show (dat V c).Φ t.succ = (dat V c).Φ t.castSucc from rfl,
    show (dat V c).owesAt () t.succ = (dat V c).owesAt () t.castSucc from rfl,
    after_agg, after_x, after_wrel, after_wroot, after_bias, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem obligation (c : Dev nD) : BodyObligation (dat (F := F) V c) (defs₀ (F := F)) Variants.none () Set.univ := fun t => by
  rw [bigSep_W0, bigSep_W0]
  exact point_runs V c t

/-- Before the first point and after the last the invariant is the class's: the body carries nothing. -/
theorem inv_first (c : Dev nD) : (dat V c).Φ 0 = Pipeline.ΦA spec0 c := rfl
theorem inv_last (c : Dev nD) : (dat V c).Φ (Fin.last cfg0.N) ⊢ Pipeline.ΦA spec0 c := BI.Entails.refl _
theorem owes_nothing (c : Dev nD) (t : Fin (cfg0.N + 1)) : (dat V c).owed t = 0 := rfl

end Cert.Kernel.Conv0

end
-- ==== Proof.BitsConvStep1.lean ====
/-
  The second graph-convolution call of the kernel program, read at an arbitrary valuation `V` of the core's buffers on
  entry to the call.  Grid point `t` (of five) stages rows 10000·t … 10000·t + 9999 of the aggregated neighbour
  features and of the node features, and the two 64×64 weight matrices and the bias whole.  The body loads all five,
  forms relu(agg·W_relᵀ + x·W_rootᵀ + b) as one pure term (the payload `k1_pay1`) and stores it through the whole
  rectangle of the output's staging buffer; nothing is carried from one point to the next.  So the proof data is:
  every input buffer keeps its tile, the output buffer ends at that one store's value, and the invariant is the
  class invariant of a body that touches no scratch.  Stated for any float instance.
-/
import proofs.«410375_j5841155523230_3_alg».proof.Proof.Gen.Kernel.Launch
import proofs.«410375_j5841155523230_3_alg».proof.Proof.Gen.Kernel.Skeleton
import proofs.«410375_j5841155523230_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the pipeline stages -/

/-- Window `w`'s tile at grid point `t`: its rows of the array the call finds in `V`. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its tile at every point, whether the point fetched it or not: a point that does
    not fetch has the same block index as the one before it, and the body leaves inputs in place. One statement per
    input window (the window is a literal so that its layout reduces). -/

theorem staged_agg {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

theorem staged_x {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

theorem staged_wrel {c : Dev nD} (dat : Dat τ (Elt F) Unit ℕ (UR sig nD τ) ℕ cfg1 c) (hA : dat.A 2 = V c (Pipeline.arrRef spec1 2))
    (hafter : ∀ t, dat.after 2 t = tile V c 2 t) (t : Fin cfg1.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

theorem staged_wroot {c : Dev nD} (dat : Dat τ (Elt F) Unit ℕ (UR sig nD τ) ℕ cfg1 c) (hA : dat.A 3 = V c (Pipeline.arrRef spec1 3))
    (hafter : ∀ t, dat.after 3 t = tile V c 3 t) (t : Fin cfg1.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

theorem staged_bias {c : Dev nD} (dat : Dat τ (Elt F) Unit ℕ (UR sig nD τ) ℕ cfg1 c) (hA : dat.A 4 = V c (Pipeline.arrRef spec1 4))
    (hafter : ∀ t, dat.after 4 t = tile V c 4 t) (t : Fin cfg1.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-! ## What the body leaves -/

/-- The whole rectangle of a 10000×64 tile, of a weight matrix, of the bias: every access of the body is through one of these. -/
abbrev rRows : Rect S10000x64 := Rect.unit (s := S10000x64) ![0, 0] S10000x64.size inb_S10000x64_S10000x64_0_0
abbrev rMat : Rect S64x64 := Rect.unit (s := S64x64) ![0, 0] S64x64.size inb_S64x64_S64x64_0_0
abbrev rVec : Rect S64 := Rect.unit (s := S64) ![0] S64.size inb_S64_S64_0

/-- The output's staging buffer after the body: its one store, of the layer's value on the tiles loaded. -/
def layerOut (agg x : Vec F S10000x64 .f32) (wrel wroot : Vec F S64x64 .f32) (b : Vec F S64 .f32) : Vec F S10000x64 .f32 :=
  View.canon [⟨rRows, k1_pay1 (View.ld agg rRows) (View.ld x rRows) (View.ld wrel rMat) (View.ld wroot rMat) (View.ld b rVec)⟩]

/-- That one store covers the buffer. -/
theorem layerOut_cover (p : Vec F S10000x64 .f32) (y : S10000x64.Idx) :
    ∃ pc ∈ ([⟨rRows, p⟩] : List (View.Piece (Elt F) S10000x64 .f32)), y ∈ pc.1.set :=
  View.cover_of_tiled [⟨rRows, p⟩] S10000x64.size (by rfl) y

set_option maxHeartbeats 1000000 in
/-- The body on whole staging buffers: the five inputs at given contents and the output at anything run to the
    continuation with the inputs unchanged and the output at `layerOut` of them. -/
theorem body_runs (c : Dev nD) (E : Set ℕ) (i : grid1.Coords)
    (a1 : Memref sig .tc .vmem S10000x64 .f32) (h1 : a1.IsWhole) (a2 : Memref sig .tc .vmem S10000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S10000x64 .f32) (h6 : a6.IsWhole)
    (agg x : Vec F S10000x64 .f32) (wrel wroot : Vec F S64x64 .f32) (b : Vec F S64 .f32) (K : PUnit → sProp 𝕄) :
    iprop(owns (c : Thread nD τ) a1 fullShare agg ∗ owns (c : Thread nD τ) a2 fullShare x ∗ owns (c : Thread nD τ) a3 fullShare wrel
        ∗ owns (c : Thread nD τ) a4 fullShare wroot ∗ owns (c : Thread nD τ) a5 fullShare b ∗ (∃ d, owns (c : Thread nD τ) a6 fullShare d)
        ∗ (iprop(owns (c : Thread nD τ) a1 fullShare agg ∗ owns (c : Thread nD τ) a2 fullShare x ∗ owns (c : Thread nD τ) a3 fullShare wrel
            ∗ owns (c : Thread nD τ) a4 fullShare wroot ∗ owns (c : Thread nD τ) a5 fullShare b
            ∗ owns (c : Thread nD τ) a6 fullShare (layerOut agg x wrel wroot b)) -∗ K ⟨⟩))
      ⊢ wp frame (wpE (defs₀ (F := F)) Variants.none c none) E (cc1__graph_conv_kernel i a1 h1 a2 h2 a3 h3 a4 h4 a5 h5 a6 h6) K := by
  simp only [cc1__graph_conv_kernel_eq_skeleton]; unfold cc1__graph_conv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (layerOut_cover _)

/-! ## The proof data of the call -/

/-- On core `c`: the arrays as the call finds them; after the body at point `t` every input buffer at its tile and the
    output buffer at the layer's value on the tiles; the invariant that of a body which touches no scratch (the
    other scoped buffers at some contents, the generator register at some state); full shares; nothing owed. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => layerOut (tile V c 0 t) (tile V c 1 t) (tile V c 2 t) (tile V c 3 t) (tile V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after_agg (c : Dev nD) (t : Fin cfg1.N) : (dat V c).after 0 t = tile V c 0 t := by dsimp only [dat]
theorem after_x (c : Dev nD) (t : Fin cfg1.N) : (dat V c).after 1 t = tile V c 1 t := by dsimp only [dat]
theorem after_wrel (c : Dev nD) (t : Fin cfg1.N) : (dat V c).after 2 t = tile V c 2 t := by dsimp only [dat]
theorem after_wroot (c : Dev nD) (t : Fin cfg1.N) : (dat V c).after 3 t = tile V c 3 t := by dsimp only [dat]
theorem after_bias (c : Dev nD) (t : Fin cfg1.N) : (dat V c).after 4 t = tile V c 4 t := by dsimp only [dat]
theorem after_out (c : Dev nD) (t : Fin cfg1.N) :
    (dat V c).after 5 t = layerOut (tile V c 0 t) (tile V c 1 t) (tile V c 2 t) (tile V c 3 t) (tile V c 4 t) := by dsimp only [dat]

theorem before_agg (c : Dev nD) (t : Fin cfg1.N) (d) : (dat V c).before 0 t d = tile V c 0 t :=
  staged_agg V (dat V c) (dat_A V c 0) (after_agg V c) t d
theorem before_x (c : Dev nD) (t : Fin cfg1.N) (d) : (dat V c).before 1 t d = tile V c 1 t :=
  staged_x V (dat V c) (dat_A V c 1) (after_x V c) t d
theorem before_wrel (c : Dev nD) (t : Fin cfg1.N) (d) : (dat V c).before 2 t d = tile V c 2 t :=
  staged_wrel V (dat V c) (dat_A V c 2) (after_wrel V c) t d
theorem before_wroot (c : Dev nD) (t : Fin cfg1.N) (d) : (dat V c).before 3 t d = tile V c 3 t :=
  staged_wroot V (dat V c) (dat_A V c 3) (after_wroot V c) t d
theorem before_bias (c : Dev nD) (t : Fin cfg1.N) (d) : (dat V c).before 4 t d = tile V c 4 t :=
  staged_bias V (dat V c) (dat_A V c 4) (after_bias V c) t d

/-! ## The body obligation -/

/-- What the body is handed at point `t`, window by window, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it gives back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their tiles, so `body_runs` applies; the invariant and what the
    core owes pass through unread. -/
theorem point_runs (c : Dev nD) (t : Fin cfg1.N) :
    handed V c t ⊢ wp frame (wpE (defs₀ (F := F)) Variants.none c none) Set.univ (bodyAt1 t) (fun _ => returned V c t) := by
  unfold handed returned bodyAt1
  simp only [before_agg, before_x, before_wrel, before_wroot, before_bias]
  rw [show (dat V c).Φ t.succ = (dat V c).Φ t.castSucc from rfl,
    show (dat V c).owesAt () t.succ = (dat V c).owesAt () t.castSucc from rfl,
    after_agg, after_x, after_wrel, after_wroot, after_bias, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem obligation (c : Dev nD) : BodyObligation (dat (F := F) V c) (defs₀ (F := F)) Variants.none () Set.univ := fun t => by
  rw [bigSep_W1, bigSep_W1]
  exact point_runs V c t

/-- Before the first point and after the last the invariant is the class's: the body carries nothing. -/
theorem inv_first (c : Dev nD) : (dat V c).Φ 0 = Pipeline.ΦA spec1 c := rfl
theorem inv_last (c : Dev nD) : (dat V c).Φ (Fin.last cfg1.N) ⊢ Pipeline.ΦA spec1 c := BI.Entails.refl _
theorem owes_nothing (c : Dev nD) (t : Fin (cfg1.N + 1)) : (dat V c).owed t = 0 := rfl

end Cert.Kernel.Conv1

end
-- ==== Proof.BitsPoolStep.lean ====
/-
  The third call of the kernel program — the last graph convolution fused with the mean pool over graphs and the final
  linear map — read at an arbitrary valuation `V` of the core's buffers on entry.  Grid point `t` (of ten) stages rows
  5000·t … 5000·t + 4999 of the aggregated features, of the node features and of the graph ids, and the weights, the
  bias, the per-graph counts, and the final layer's matrix and bias whole.  A 128×64 scratch buffer is CARRIED from point
  to point: the first point resets it to zero; every point adds to it onehotᵀ·y, where y is the tile's convolution and
  onehot marks each row's graph id among 0 … 127; the last point divides it by max(counts, 1), stores that quotient as the
  pooled output and its image under the final linear map as the second output.  At the other points the two output
  buffers are not touched and not written back.  Stated for any float instance.
-/
import proofs.«410375_j5841155523230_3_alg».proof.Proof.Gen.Kernel.Launch
import proofs.«410375_j5841155523230_3_alg».proof.Proof.Gen.Kernel.Skeleton
import proofs.«410375_j5841155523230_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every one is through the whole rectangle of a buffer -/

abbrev rTile : Rect S5000x64 := Rect.unit (s := S5000x64) ![0, 0] S5000x64.size inb_S5000x64_S5000x64_0_0
abbrev rMat : Rect S64x64 := Rect.unit (s := S64x64) ![0, 0] S64x64.size inb_S64x64_S64x64_0_0
abbrev rVec : Rect S64 := Rect.unit (s := S64) ![0] S64.size inb_S64_S64_0
abbrev rIds : Rect S5000x1 := Rect.unit (s := S5000x1) ![0, 0] S5000x1.size inb_S5000x1_S5000x1_0_0
abbrev rCnt : Rect S128x1 := Rect.unit (s := S128x1) ![0, 0] S128x1.size inb_S128x1_S128x1_0_0
abbrev rLin : Rect S10x64 := Rect.unit (s := S10x64) ![0, 0] S10x64.size inb_S10x64_S10x64_0_0
abbrev rLinB : Rect S10 := Rect.unit (s := S10) ![0] S10.size inb_S10_S10_0
abbrev rAcc : Rect S128x64 := Rect.unit (s := S128x64) ![0, 0] S128x64.size inb_S128x64_S128x64_0_0
abbrev rOut : Rect S128x10 := Rect.unit (s := S128x10) ![0, 0] S128x10.size inb_S128x10_S128x10_0_0

theorem zeros2 : (![0, 0] : Fin 2 → Nat) = fun _ => 0 := by funext a; fin_cases a <;> rfl

/-! ## The two branch conditions, as the body computes them from the grid coordinate -/

/-- "this is the first grid point": the condition of the reset. -/
abbrev isFirst (i : grid2.Coords) : Prop := (Scalar.cmpi .ne (Scalar.extui (Scalar.cmpi .eq (BitVec.ofNat 32 (i 0).val) 0#32)) 0#32) = 1#1
/-- "this is the last grid point": the condition of the two output stores. -/
abbrev isLast (i : grid2.Coords) : Prop := k2_cond2 i = 1#1

theorem isFirst_iff : ∀ t : Fin cfg2.N, isFirst (grid2.coords t) ↔ t.val % 10 = 0 :=
  (by decide +kernel : ∀ t : Fin grid2.N, isFirst (grid2.coords t) ↔ t.val % 10 = 0)
theorem isLast_iff : ∀ t : Fin cfg2.N, isLast (grid2.coords t) ↔ t.val % 10 = 9 :=
  (by decide +kernel : ∀ t : Fin grid2.N, isLast (grid2.coords t) ↔ t.val % 10 = 9)

/-! ## What the body computes -/

/-- The accumulator `s` with one tile's contribution added: s + onehot(ids)ᵀ · (agg·W_relᵀ + h·W_rootᵀ + b). -/
def tileSum (x0 x1 : Vec F S5000x64 .f32) (x2 x3 : Vec F S64x64 .f32) (x4 : Vec F S64 .f32) (x5 : Vec F S5000x1 .i32)
    (s : Vec F S128x64 .f32) : Vec F S128x64 .f32 :=
  k2_pay4 (View.ld x0 rTile) (View.ld x1 rTile) (View.ld x2 rMat) (View.ld x3 rMat) (View.ld x4 rVec) (View.ld x5 rIds) s

/-- The scratch after the first point: reset to zero, then the first tile's contribution stored over it. -/
def accFirst (x0 x1 : Vec F S5000x64 .f32) (x2 x3 : Vec F S64x64 .f32) (x4 : Vec F S64 .f32) (x5 : Vec F S5000x1 .i32) :
    Vec F S128x64 .f32 :=
  View.canon [⟨rAcc, tileSum x0 x1 x2 x3 x4 x5 (k2_pay3 (F := F))⟩, ⟨rAcc, k2_pay3 (F := F)⟩]

/-- The scratch after a later point, from what the point before left in it. -/
def accNext (x0 x1 : Vec F S5000x64 .f32) (x2 x3 : Vec F S64x64 .f32) (x4 : Vec F S64 .f32) (x5 : Vec F S5000x1 .i32)
    (s : Vec F S128x64 .f32) : Vec F S128x64 .f32 :=
  View.canon [⟨rAcc, tileSum x0 x1 x2 x3 x4 x5 (View.ld s rAcc)⟩]

/-- The pooled output the last point stores: the accumulator over max(counts, 1). -/
def pooledOut (s : Vec F S128x64 .f32) (x6 : Vec F S128x1 .f32) : Vec F S128x64 .f32 :=
  View.canon [⟨rAcc, k2_pay1 s (View.ld x6 rCnt)⟩]

/-- The second output the last point stores: the pooled value through the final linear map. -/
def logitsOut (s : Vec F S128x64 .f32) (x6 : Vec F S128x1 .f32) (x7 : Vec F S10x64 .f32) (x8 : Vec F S10 .f32) : Vec F S128x10 .f32 :=
  View.canon [⟨rOut, k2_pay2 s (View.ld x6 rCnt) (View.ld x7 rLin) (View.ld x8 rLinB)⟩]

/-! ## The body's triple, case by case -/

set_option maxHeartbeats 2000000 in
/-- The first point: whatever the scratch held, it ends at `accFirst`; the two output buffers come back as handed. -/
theorem first_runs (c : Dev nD) (E : Set ℕ) (i : grid2.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S5000x1 .i32) (h6 : a6.IsWhole)
    (a7 : Memref sig .tc .vmem S128x1 .f32) (h7 : a7.IsWhole) (a8 : Memref sig .tc .vmem S10x64 .f32) (h8 : a8.IsWhole)
    (a9 : Memref sig .tc .vmem S10 .f32) (h9 : a9.IsWhole) (a10 : Memref sig .tc .vmem S128x64 .f32) (h10 : a10.IsWhole)
    (a11 : Memref sig .tc .vmem S128x10 .f32) (h11 : a11.IsWhole) (a12 : Memref sig .tc .vmem S128x64 .f32) (h12 : a12.IsWhole)
    (hc0 : isFirst i) (hc1 : ¬isLast i)
    (x0 x1 : Vec F S5000x64 .f32) (x2 x3 : Vec F S64x64 .f32) (x4 : Vec F S64 .f32) (x5 : Vec F S5000x1 .i32)
    (x6 : Vec F S128x1 .f32) (x7 : Vec F S10x64 .f32) (x8 : Vec F S10 .f32) (y9 : Vec F S128x64 .f32) (y10 : Vec F S128x10 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare y9 ∗ owns (c : Thread nD τ) a11 fullShare y10 ∗ (∃ d, owns (c : Thread nD τ) a12 fullShare d)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
            ∗ owns (c : Thread nD τ) a10 fullShare y9 ∗ owns (c : Thread nD τ) a11 fullShare y10
            ∗ owns (c : Thread nD τ) a12 fullShare (accFirst x0 x1 x2 x3 x4 x5)) -∗ K ⟨⟩))
      ⊢ wp frame (wpE (defs₀ (F := F)) Variants.none c none) E (cc2__conv3_pool_kernel i a1 h1 a2 h2 a3 h3 a4 h4 a5 h5 a6 h6 a7 h7 a8 h8 a9 h9 a10 h10 a11 h11 a12 h12) K := by
  simp only [cc2__conv3_pool_kernel_eq_skeleton]; unfold cc2__conv3_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1; subst hf2; subst hf3; subst hf4; subst hf5; subst hf6; subst hf7; subst hf8; subst hf9; subst hf10; subst hf11
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  sl_unfold_run_names
  simp only [View.readCov_unit_zero (S := S128x64) _ zeros2]
  exact View.read_writes_eq_canon _ _ _ (fun y => ⟨_, List.mem_cons_self, View.mem_set_unit_zero zeros2 inb_S128x64_S128x64_0_0 y⟩)

set_option maxHeartbeats 2000000 in
/-- A middle point: the scratch at `s` ends at `accNext … s`; the two output buffers come back as handed. -/
theorem middle_runs (c : Dev nD) (E : Set ℕ) (i : grid2.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S5000x1 .i32) (h6 : a6.IsWhole)
    (a7 : Memref sig .tc .vmem S128x1 .f32) (h7 : a7.IsWhole) (a8 : Memref sig .tc .vmem S10x64 .f32) (h8 : a8.IsWhole)
    (a9 : Memref sig .tc .vmem S10 .f32) (h9 : a9.IsWhole) (a10 : Memref sig .tc .vmem S128x64 .f32) (h10 : a10.IsWhole)
    (a11 : Memref sig .tc .vmem S128x10 .f32) (h11 : a11.IsWhole) (a12 : Memref sig .tc .vmem S128x64 .f32) (h12 : a12.IsWhole)
    (hc0 : ¬isFirst i) (hc1 : ¬isLast i)
    (x0 x1 : Vec F S5000x64 .f32) (x2 x3 : Vec F S64x64 .f32) (x4 : Vec F S64 .f32) (x5 : Vec F S5000x1 .i32)
    (x6 : Vec F S128x1 .f32) (x7 : Vec F S10x64 .f32) (x8 : Vec F S10 .f32) (y9 : Vec F S128x64 .f32) (y10 : Vec F S128x10 .f32)
    (s : Vec F S128x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare y9 ∗ owns (c : Thread nD τ) a11 fullShare y10 ∗ owns (c : Thread nD τ) a12 fullShare s
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
            ∗ owns (c : Thread nD τ) a10 fullShare y9 ∗ owns (c : Thread nD τ) a11 fullShare y10
            ∗ owns (c : Thread nD τ) a12 fullShare (accNext x0 x1 x2 x3 x4 x5 s)) -∗ K ⟨⟩))
      ⊢ wp frame (wpE (defs₀ (F := F)) Variants.none c none) E (cc2__conv3_pool_kernel i a1 h1 a2 h2 a3 h3 a4 h4 a5 h5 a6 h6 a7 h7 a8 h8 a9 h9 a10 h10 a11 h11 a12 h12) K := by
  simp only [cc2__conv3_pool_kernel_eq_skeleton]; unfold cc2__conv3_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf1; subst hf2; subst hf3; subst hf4; subst hf5; subst hf6; subst hf7; subst hf8; subst hf9; subst hf10; subst hf11; subst hf12
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (fun y => ⟨_, List.mem_cons_self, View.mem_set_unit_zero zeros2 inb_S128x64_S128x64_0_0 y⟩)

set_option maxHeartbeats 2000000 in
/-- The last point: the scratch at `s` ends at `accNext … s`, and the two outputs, whatever they held, at the pooled
    quotient and its linear image of the NEW accumulator. -/
theorem last_runs (c : Dev nD) (E : Set ℕ) (i : grid2.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S64x64 .f32) (h4 : a4.IsWhole)
    (a5 : Memref sig .tc .vmem S64 .f32) (h5 : a5.IsWhole) (a6 : Memref sig .tc .vmem S5000x1 .i32) (h6 : a6.IsWhole)
    (a7 : Memref sig .tc .vmem S128x1 .f32) (h7 : a7.IsWhole) (a8 : Memref sig .tc .vmem S10x64 .f32) (h8 : a8.IsWhole)
    (a9 : Memref sig .tc .vmem S10 .f32) (h9 : a9.IsWhole) (a10 : Memref sig .tc .vmem S128x64 .f32) (h10 : a10.IsWhole)
    (a11 : Memref sig .tc .vmem S128x10 .f32) (h11 : a11.IsWhole) (a12 : Memref sig .tc .vmem S128x64 .f32) (h12 : a12.IsWhole)
    (hc0 : ¬isFirst i) (hc1 : isLast i)
    (x0 x1 : Vec F S5000x64 .f32) (x2 x3 : Vec F S64x64 .f32) (x4 : Vec F S64 .f32) (x5 : Vec F S5000x1 .i32)
    (x6 : Vec F S128x1 .f32) (x7 : Vec F S10x64 .f32) (x8 : Vec F S10 .f32)
    (s : Vec F S128x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ (∃ d, owns (c : Thread nD τ) a10 fullShare d) ∗ (∃ d, owns (c : Thread nD τ) a11 fullShare d) ∗ owns (c : Thread nD τ) a12 fullShare s
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
            ∗ owns (c : Thread nD τ) a10 fullShare (pooledOut (tileSum x0 x1 x2 x3 x4 x5 (View.ld s rAcc)) x6)
            ∗ owns (c : Thread nD τ) a11 fullShare (logitsOut (tileSum x0 x1 x2 x3 x4 x5 (View.ld s rAcc)) x6 x7 x8)
            ∗ owns (c : Thread nD τ) a12 fullShare (accNext x0 x1 x2 x3 x4 x5 s)) -∗ K ⟨⟩))
      ⊢ wp frame (wpE (defs₀ (F := F)) Variants.none c none) E (cc2__conv3_pool_kernel i a1 h1 a2 h2 a3 h3 a4 h4 a5 h5 a6 h6 a7 h7 a8 h8 a9 h9 a10 h10 a11 h11 a12 h12) K := by
  simp only [cc2__conv3_pool_kernel_eq_skeleton]; unfold cc2__conv3_pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  subst hf1; subst hf2; subst hf3; subst hf4; subst hf5; subst hf6; subst hf7; subst hf8; subst hf9; subst hf12
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_run_names
    simp only [View.readCov_unit_zero (S := S128x64) _ zeros2]
    exact View.read_writes_eq_canon _ _ _ (fun y => ⟨_, List.mem_cons_self, View.mem_set_unit_zero zeros2 inb_S128x64_S128x64_0_0 y⟩)
  isplitl [H11]
  · iexists _; isplitr
    swap; · iexact H11
    ipureintro
    sl_unfold_run_names
    simp only [View.readCov_unit_zero (S := S128x64) _ zeros2]
    exact View.read_writes_eq_canon _ _ _ (fun y => ⟨_, List.mem_cons_self, View.mem_set_unit_zero zeros2 inb_S128x10_S128x10_0_0 y⟩)
  iexists _; isplitr
  swap; · iexact H12
  ipureintro
  sl_unfold_run_names
  exact View.read_writes_eq_canon _ _ _ (fun y => ⟨_, List.mem_cons_self, View.mem_set_unit_zero zeros2 inb_S128x64_S128x64_0_0 y⟩)

/-! ## The tiles the pipeline stages -/

/-- Window `w`'s tile at grid point `t`: its rows of the array the call finds in `V`. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's staging buffer holds its tile at every point, fetched there or not (a point that does not fetch has
    the block index of the point before, and the body leaves inputs in place). One statement per input window. -/

theorem staged_agg {c : Dev nD} (dat : Dat τ (Elt F) Unit ℕ (UR sig nD τ) ℕ cfg2 c) (hA : dat.A 0 = V c (Pipeline.arrRef spec2 0))
    (hafter : ∀ t, dat.after 0 t = tile V c 0 t) (t : Fin cfg2.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

theorem staged_h {c : Dev nD} (dat : Dat τ (Elt F) Unit ℕ (UR sig nD τ) ℕ cfg2 c) (hA : dat.A 1 = V c (Pipeline.arrRef spec2 1))
    (hafter : ∀ t, dat.after 1 t = tile V c 1 t) (t : Fin cfg2.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

theorem staged_wrel {c : Dev nD} (dat : Dat τ (Elt F) Unit ℕ (UR sig nD τ) ℕ cfg2 c) (hA : dat.A 2 = V c (Pipeline.arrRef spec2 2))
    (hafter : ∀ t, dat.after 2 t = tile V c 2 t) (t : Fin cfg2.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

theorem staged_wroot {c : Dev nD} (dat : Dat τ (Elt F) Unit ℕ (UR sig nD τ) ℕ cfg2 c) (hA : dat.A 3 = V c (Pipeline.arrRef spec2 3))
    (hafter : ∀ t, dat.after 3 t = tile V c 3 t) (t : Fin cfg2.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

theorem staged_bias {c : Dev nD} (dat : Dat τ (Elt F) Unit ℕ (UR sig nD τ) ℕ cfg2 c) (hA : dat.A 4 = V c (Pipeline.arrRef spec2 4))
    (hafter : ∀ t, dat.after 4 t = tile V c 4 t) (t : Fin cfg2.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

theorem staged_ids {c : Dev nD} (dat : Dat τ (Elt F) Unit ℕ (UR sig nD τ) ℕ cfg2 c) (hA : dat.A 5 = V c (Pipeline.arrRef spec2 5))
    (hafter : ∀ t, dat.after 5 t = tile V c 5 t) (t : Fin cfg2.N) (d) : dat.before 5 t d = tile V c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

theorem staged_counts {c : Dev nD} (dat : Dat τ (Elt F) Unit ℕ (UR sig nD τ) ℕ cfg2 c) (hA : dat.A 6 = V c (Pipeline.arrRef spec2 6))
    (hafter : ∀ t, dat.after 6 t = tile V c 6 t) (t : Fin cfg2.N) (d) : dat.before 6 t d = tile V c 6 t :=
  (dat.before_in_eq_fetched 6 rfl (fun _ => rfl) (fun _ _ _ => rfl) (fun t => by rw [hafter]; unfold Dat.blockOf tile; rw [hA]; try rfl) t d).trans
    (by unfold Dat.fetched Dat.blockOf tile; rw [hA]; try rfl)

theorem staged_wlin {c : Dev nD} (dat : Dat τ (Elt F) Unit ℕ (UR sig nD τ) ℕ cfg2 c) (hA : dat.A 7 = V c (Pipeline.arrRef spec2 7))
    (hafter : ∀ t, dat.after 7 t = tile V c 7 t) (t : Fin cfg2.N) (d) : dat.before 7 t d = tile V c 7 t :=
  (dat.before_in_eq_fetched 7 rfl (fun _ => rfl) (fun _ _ _ => rfl) (fun t => by rw [hafter]; unfold Dat.blockOf tile; rw [hA]; try rfl) t d).trans
    (by unfold Dat.fetched Dat.blockOf tile; rw [hA]; try rfl)

theorem staged_blin {c : Dev nD} (dat : Dat τ (Elt F) Unit ℕ (UR sig nD τ) ℕ cfg2 c) (hA : dat.A 8 = V c (Pipeline.arrRef spec2 8))
    (hafter : ∀ t, dat.after 8 t = tile V c 8 t) (t : Fin cfg2.N) (d) : dat.before 8 t d = tile V c 8 t :=
  (dat.before_in_eq_fetched 8 rfl (fun _ => rfl) (fun _ _ _ => rfl) (fun t => by rw [hafter]; unfold Dat.blockOf tile; rw [hA]; try rfl) t d).trans
    (by unfold Dat.fetched Dat.blockOf tile; rw [hA]; try rfl)

/-! ## The accumulator, point by point -/

/-- The scratch after the body at point `n`. -/
def accAt (c : Dev nD) : (n : ℕ) → n < cfg2.N → Vec F S128x64 .f32
  | 0, h => accFirst (tile V c 0 ⟨0, h⟩) (tile V c 1 ⟨0, h⟩) (tile V c 2 ⟨0, h⟩) (tile V c 3 ⟨0, h⟩) (tile V c 4 ⟨0, h⟩) (tile V c 5 ⟨0, h⟩)
  | n + 1, h => accNext (tile V c 0 ⟨n + 1, h⟩) (tile V c 1 ⟨n + 1, h⟩) (tile V c 2 ⟨n + 1, h⟩) (tile V c 3 ⟨n + 1, h⟩) (tile V c 4 ⟨n + 1, h⟩) (tile V c 5 ⟨n + 1, h⟩) (accAt c n (Nat.lt_of_succ_lt h))

/-- The scratch as the body at point `n` finds it once any reset is done: zero at the first point, else what the
    point before left. (Read only at the last point, by the two output stores.) -/
def prevAt (c : Dev nD) : (n : ℕ) → n < cfg2.N → Vec F S128x64 .f32
  | 0, _ => k2_pay3 (F := F)
  | n + 1, h => accAt V c n (Nat.lt_of_succ_lt h)

theorem accAt_first (c : Dev nD) (t : Fin cfg2.N) (h : t.val = 0) :
    accAt V c t.val t.isLt = accFirst (tile V c 0 t) (tile V c 1 t) (tile V c 2 t) (tile V c 3 t) (tile V c 4 t) (tile V c 5 t) := by
  obtain ⟨n, hn⟩ := t
  cases n with
  | zero => rfl
  | succ n => exact absurd h (Nat.succ_ne_zero _)

theorem accAt_later (c : Dev nD) (t : Fin cfg2.N) (h : t.val ≠ 0) :
    accAt V c t.val t.isLt = accNext (tile V c 0 t) (tile V c 1 t) (tile V c 2 t) (tile V c 3 t) (tile V c 4 t) (tile V c 5 t) (accAt V c (t.val - 1) (Nat.lt_of_le_of_lt (Nat.sub_le _ _) t.isLt)) := by
  obtain ⟨n, hn⟩ := t
  cases n with
  | zero => exact absurd rfl h
  | succ n => rfl

theorem prevAt_later (c : Dev nD) (t : Fin cfg2.N) (h : t.val ≠ 0) :
    prevAt V c t.val t.isLt = accAt V c (t.val - 1) (Nat.lt_of_le_of_lt (Nat.sub_le _ _) t.isLt) := by
  obtain ⟨n, hn⟩ := t
  cases n with
  | zero => exact absurd rfl h
  | succ n => rfl

/-! ## The invariant: the scratch at the accumulator, beside the buffers the call does not use -/

/-- The scratch buffer as the body is handed it. -/
abbrev scratch : Memref sig .tc .vmem S128x64 .f32 := Memref.whole cc2_scratch0

/-- The eighteen staging buffers of the two earlier calls, each whole at some contents, beside `P`. -/
def besideOthers (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ P)

/-- The invariant of a body that names no scratch, with the scratch split out. -/
theorem classInv_eq (c : Dev nD) :
    (Pipeline.ΦA spec2 c : sProp 𝕄)
      = iprop(besideOthers c iprop(∃ d, owns (c : Thread nD τ) scratch fullShare d) ∗ (∃ r, prngReg c r)) := by
  unfold Pipeline.ΦA besideOthers; rw [scopedRest2_eq]; simp only [scratch, owns_whole]; try rfl

/-- Before point `n`: at the first point nothing is known of the scratch; afterwards it holds the accumulator the
    point before left. The generator register rides along at some state. -/
def inv (c : Dev nD) : (n : ℕ) → n ≤ cfg2.N → sProp 𝕄
  | 0, _ => Pipeline.ΦA spec2 c
  | n + 1, h => iprop(besideOthers c (owns (c : Thread nD τ) scratch fullShare (accAt V c n h)) ∗ (∃ r, prngReg c r))

theorem inv_zero (c : Dev nD) (n : ℕ) (h : n ≤ cfg2.N) (hz : n = 0) : inv V c n h = Pipeline.ΦA spec2 c := by
  subst hz; rfl

theorem inv_succ (c : Dev nD) (n : ℕ) (hn : n < cfg2.N) :
    inv V c (n + 1) hn = iprop(besideOthers c (owns (c : Thread nD τ) scratch fullShare (accAt V c n hn)) ∗ (∃ r, prngReg c r)) := rfl

theorem inv_pos (c : Dev nD) (n : ℕ) (h : n ≤ cfg2.N) (hz : n ≠ 0) :
    inv V c n h = iprop(besideOthers c (owns (c : Thread nD τ) scratch fullShare (accAt V c (n - 1) (by omega))) ∗ (∃ r, prngReg c r)) := by
  cases n with
  | zero => exact absurd rfl hz
  | succ n => rfl

/-! ## The proof data of the call -/

/-- On core `c`: the arrays as the call finds them; after the body at point `t` every input buffer at its tile; the two
    output buffers at what the last point's stores write (consulted at the last point only: elsewhere the buffers are
    handed back as found); the invariant `inv`; full shares; nothing owed. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => tile V c 6 t
    | ⟨7, _⟩ => tile V c 7 t
    | ⟨8, _⟩ => tile V c 8 t
    | ⟨9, _⟩ => pooledOut (tileSum (tile V c 0 t) (tile V c 1 t) (tile V c 2 t) (tile V c 3 t) (tile V c 4 t) (tile V c 5 t) (View.ld (prevAt V c t.val t.isLt) rAcc)) (tile V c 6 t)
    | ⟨10, _⟩ => logitsOut (tileSum (tile V c 0 t) (tile V c 1 t) (tile V c 2 t) (tile V c 3 t) (tile V c 4 t) (tile V c 5 t) (View.ld (prevAt V c t.val t.isLt) rAcc)) (tile V c 6 t) (tile V c 7 t) (tile V c 8 t)
  Φ t := inv V c t.val (Nat.le_of_lt_succ t.isLt)
  q _ := fullShare
  owed _ := 0

theorem dat_A (c : Dev nD) (w : Fin cfg2.W) : (dat V c).A w = V c (Pipeline.arrRef spec2 w) := by
  dsimp only [dat]

theorem after_agg (c : Dev nD) (t : Fin cfg2.N) : (dat V c).after 0 t = tile V c 0 t := by dsimp only [dat]
theorem after_h (c : Dev nD) (t : Fin cfg2.N) : (dat V c).after 1 t = tile V c 1 t := by dsimp only [dat]
theorem after_wrel (c : Dev nD) (t : Fin cfg2.N) : (dat V c).after 2 t = tile V c 2 t := by dsimp only [dat]
theorem after_wroot (c : Dev nD) (t : Fin cfg2.N) : (dat V c).after 3 t = tile V c 3 t := by dsimp only [dat]
theorem after_bias (c : Dev nD) (t : Fin cfg2.N) : (dat V c).after 4 t = tile V c 4 t := by dsimp only [dat]
theorem after_ids (c : Dev nD) (t : Fin cfg2.N) : (dat V c).after 5 t = tile V c 5 t := by dsimp only [dat]
theorem after_counts (c : Dev nD) (t : Fin cfg2.N) : (dat V c).after 6 t = tile V c 6 t := by dsimp only [dat]
theorem after_wlin (c : Dev nD) (t : Fin cfg2.N) : (dat V c).after 7 t = tile V c 7 t := by dsimp only [dat]
theorem after_blin (c : Dev nD) (t : Fin cfg2.N) : (dat V c).after 8 t = tile V c 8 t := by dsimp only [dat]
theorem after_pooled (c : Dev nD) (t : Fin cfg2.N) :
    (dat V c).after 9 t = pooledOut (tileSum (tile V c 0 t) (tile V c 1 t) (tile V c 2 t) (tile V c 3 t) (tile V c 4 t) (tile V c 5 t) (View.ld (prevAt V c t.val t.isLt) rAcc)) (tile V c 6 t) := by dsimp only [dat]
theorem after_logits (c : Dev nD) (t : Fin cfg2.N) :
    (dat V c).after 10 t = logitsOut (tileSum (tile V c 0 t) (tile V c 1 t) (tile V c 2 t) (tile V c 3 t) (tile V c 4 t) (tile V c 5 t) (View.ld (prevAt V c t.val t.isLt) rAcc)) (tile V c 6 t) (tile V c 7 t) (tile V c 8 t) := by dsimp only [dat]

theorem before_agg (c : Dev nD) (t : Fin cfg2.N) (d) : (dat V c).before 0 t d = tile V c 0 t :=
  staged_agg V (dat V c) (dat_A V c 0) (after_agg V c) t d
theorem before_h (c : Dev nD) (t : Fin cfg2.N) (d) : (dat V c).before 1 t d = tile V c 1 t :=
  staged_h V (dat V c) (dat_A V c 1) (after_h V c) t d
theorem before_wrel (c : Dev nD) (t : Fin cfg2.N) (d) : (dat V c).before 2 t d = tile V c 2 t :=
  staged_wrel V (dat V c) (dat_A V c 2) (after_wrel V c) t d
theorem before_wroot (c : Dev nD) (t : Fin cfg2.N) (d) : (dat V c).before 3 t d = tile V c 3 t :=
  staged_wroot V (dat V c) (dat_A V c 3) (after_wroot V c) t d
theorem before_bias (c : Dev nD) (t : Fin cfg2.N) (d) : (dat V c).before 4 t d = tile V c 4 t :=
  staged_bias V (dat V c) (dat_A V c 4) (after_bias V c) t d
theorem before_ids (c : Dev nD) (t : Fin cfg2.N) (d) : (dat V c).before 5 t d = tile V c 5 t :=
  staged_ids V (dat V c) (dat_A V c 5) (after_ids V c) t d
theorem before_counts (c : Dev nD) (t : Fin cfg2.N) (d) : (dat V c).before 6 t d = tile V c 6 t :=
  staged_counts V (dat V c) (dat_A V c 6) (after_counts V c) t d
theorem before_wlin (c : Dev nD) (t : Fin cfg2.N) (d) : (dat V c).before 7 t d = tile V c 7 t :=
  staged_wlin V (dat V c) (dat_A V c 7) (after_wlin V c) t d
theorem before_blin (c : Dev nD) (t : Fin cfg2.N) (d) : (dat V c).before 8 t d = tile V c 8 t :=
  staged_blin V (dat V c) (dat_A V c 8) (after_blin V c) t d

theorem inv_castSucc (c : Dev nD) (t : Fin cfg2.N) :
    (dat V c).Φ t.castSucc = inv V c t.val (Nat.le_of_lt t.isLt) := by
  dsimp only [dat]; simp only [Fin.coe_castSucc]

/-- Before the first point the invariant is the class's. -/
theorem inv_first (c : Dev nD) : (dat V c).Φ 0 = Pipeline.ΦA spec2 c := rfl

/-- After the last point the invariant gives the class's back: the accumulator's value is forgotten. -/
theorem inv_last (c : Dev nD) : (dat V c).Φ (Fin.last cfg2.N) ⊢ Pipeline.ΦA spec2 c := by
  rw [show (dat V c).Φ (Fin.last cfg2.N) = inv V c (Fin.last cfg2.N).val (Nat.le_of_lt_succ (Fin.last cfg2.N).isLt) from rfl,
    inv_pos V c _ _ (by rw [Fin.val_last]; have : cfg2.N = 10 := N_2; omega), classInv_eq]
  unfold besideOthers
  iintro ⟨⟨R1, R2, R3, R4, R5, R6, R7, R8, R9, R10, R11, R12, R13, R14, R15, R16, R17, R18, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    iexists _; iexact HS
  iexact Hg

/-! ## Where the windows are idle -/

theorem live_agg : ∀ t : Fin cfg2.N, cfg2.idle 0 (grid2.coords t) = false := by decide +kernel
theorem live_h : ∀ t : Fin cfg2.N, cfg2.idle 1 (grid2.coords t) = false := by decide +kernel
theorem live_wrel : ∀ t : Fin cfg2.N, cfg2.idle 2 (grid2.coords t) = false := by decide +kernel
theorem live_wroot : ∀ t : Fin cfg2.N, cfg2.idle 3 (grid2.coords t) = false := by decide +kernel
theorem live_bias : ∀ t : Fin cfg2.N, cfg2.idle 4 (grid2.coords t) = false := by decide +kernel
theorem live_ids : ∀ t : Fin cfg2.N, cfg2.idle 5 (grid2.coords t) = false := by decide +kernel
theorem live_counts : ∀ t : Fin cfg2.N, cfg2.idle 6 (grid2.coords t) = false := by decide +kernel
theorem live_wlin : ∀ t : Fin cfg2.N, cfg2.idle 7 (grid2.coords t) = false := by decide +kernel
theorem live_blin : ∀ t : Fin cfg2.N, cfg2.idle 8 (grid2.coords t) = false := by decide +kernel
theorem idle_pooled : ∀ t : Fin cfg2.N, ¬isLast (grid2.coords t) → cfg2.idle 9 (grid2.coords t) = true := by decide +kernel
theorem keep_pooled : ∀ t : Fin cfg2.N, ¬isLast (grid2.coords t) → (cfg2.win 9).flush t = false := by decide +kernel
theorem live_pooled : ∀ t : Fin cfg2.N, isLast (grid2.coords t) → cfg2.idle 9 (grid2.coords t) = false := by decide +kernel
theorem idle_logits : ∀ t : Fin cfg2.N, ¬isLast (grid2.coords t) → cfg2.idle 10 (grid2.coords t) = true := by decide +kernel
theorem keep_logits : ∀ t : Fin cfg2.N, ¬isLast (grid2.coords t) → (cfg2.win 10).flush t = false := by decide +kernel
theorem live_logits : ∀ t : Fin cfg2.N, isLast (grid2.coords t) → cfg2.idle 10 (grid2.coords t) = false := by decide +kernel

/-! ## The body obligation -/

/-- What the body is handed at point `t`, window by window, -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d)))

/-- and what it gives back. -/
def returned (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 4000000 in
/-- The body at any point. The inputs' buffers hold their tiles; the grid position says which of the three cases the
    point is in; the invariant hands the body the scratch (at anything at the first point, else at what the point
    before left) and takes it back at this point's accumulator; the core owes nothing throughout. -/
theorem point_runs (c : Dev nD) (t : Fin cfg2.N) :
    handed V c t ⊢ wp frame (wpE (defs₀ (F := F)) Variants.none c none) Set.univ (bodyAt2 t) (fun _ => returned V c t) := by
  unfold handed returned bodyAt2
  simp only [before_agg, before_h, before_wrel, before_wroot, before_bias, before_ids, before_counts, before_wlin, before_blin]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st2_0 t) fullShare ((dat V c).after 0 t) from by
    unfold Dat.leavesExact; rw [live_agg t], after_agg]
  rw [show (dat V c).leavesExact 1 t = owns (c : Thread nD τ) (st2_1 t) fullShare ((dat V c).after 1 t) from by
    unfold Dat.leavesExact; rw [live_h t], after_h]
  rw [show (dat V c).leavesExact 2 t = owns (c : Thread nD τ) (st2_2 t) fullShare ((dat V c).after 2 t) from by
    unfold Dat.leavesExact; rw [live_wrel t], after_wrel]
  rw [show (dat V c).leavesExact 3 t = owns (c : Thread nD τ) (st2_3 t) fullShare ((dat V c).after 3 t) from by
    unfold Dat.leavesExact; rw [live_wroot t], after_wroot]
  rw [show (dat V c).leavesExact 4 t = owns (c : Thread nD τ) (st2_4 t) fullShare ((dat V c).after 4 t) from by
    unfold Dat.leavesExact; rw [live_bias t], after_bias]
  rw [show (dat V c).leavesExact 5 t = owns (c : Thread nD τ) (st2_5 t) fullShare ((dat V c).after 5 t) from by
    unfold Dat.leavesExact; rw [live_ids t], after_ids]
  rw [show (dat V c).leavesExact 6 t = owns (c : Thread nD τ) (st2_6 t) fullShare ((dat V c).after 6 t) from by
    unfold Dat.leavesExact; rw [live_counts t], after_counts]
  rw [show (dat V c).leavesExact 7 t = owns (c : Thread nD τ) (st2_7 t) fullShare ((dat V c).after 7 t) from by
    unfold Dat.leavesExact; rw [live_wlin t], after_wlin]
  rw [show (dat V c).leavesExact 8 t = owns (c : Thread nD τ) (st2_8 t) fullShare ((dat V c).after 8 t) from by
    unfold Dat.leavesExact; rw [live_blin t], after_blin]
  have hN : t.val < 10 := lt_of_lt_of_eq t.isLt (show cfg2.N = 10 from N_2)
  by_cases h0 : t.val % 10 = 0
  · have hF : isFirst (grid2.coords t) := (isFirst_iff t).mpr h0
    have hL : ¬isLast (grid2.coords t) := fun h => by have := (isLast_iff t).mp h; omega
    have hz : t.val = 0 := by omega
    rw [Dat.leavesExact_idle (dat V c) 9 t (idle_pooled t hL) (keep_pooled t hL),
      Dat.leavesExact_idle (dat V c) 10 t (idle_logits t hL) (keep_logits t hL)]
    rw [accAt_first V c t hz, inv_castSucc V c t, inv_zero V c _ _ hz, classInv_eq]
    unfold besideOthers
    iintro ⟨⟨⟨R1, R2, R3, R4, R5, R6, R7, R8, R9, R10, R11, R12, R13, R14, R15, R16, R17, R18, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (first_runs c Set.univ (grid2.coords t) _ _ _ _ _ _ _ _ _ _ _ _ _ _ _ _ _ _ _ _ _ _ _ _ hF hL
      (tile V c 0 t) (tile V c 1 t) (tile V c 2 t) (tile V c 3 t) (tile V c 4 t) (tile V c 5 t) (tile V c 6 t) (tile V c 7 t) (tile V c 8 t) ((dat V c).before 9 t d9) ((dat V c).before 10 t d10) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexists _; iexact HS
    iintro ⟨H0, H1, H2, H3, H4, H5, H6, H7, H8, H9, H10, HS⟩
    isplitl [R1 R2 R3 R4 R5 R6 R7 R8 R9 R10 R11 R12 R13 R14 R15 R16 R17 R18 HS Hg]
    · isplitr [Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        isplitl [R17]; · iexact R17
        isplitl [R18]; · iexact R18
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hF : ¬isFirst (grid2.coords t) := fun h => h0 ((isFirst_iff t).mp h)
    have hz : t.val ≠ 0 := fun h => h0 (by rw [h])
    by_cases h9 : t.val % 10 = 9
    · have hL : isLast (grid2.coords t) := (isLast_iff t).mpr h9
      rw [show (dat V c).leavesExact 9 t = owns (c : Thread nD τ) (st2_9 t) fullShare ((dat V c).after 9 t) from by
        unfold Dat.leavesExact; rw [live_pooled t hL], after_pooled]
      rw [show (dat V c).leavesExact 10 t = owns (c : Thread nD τ) (st2_10 t) fullShare ((dat V c).after 10 t) from by
        unfold Dat.leavesExact; rw [live_logits t hL], after_logits]
      rw [prevAt_later V c t hz, accAt_later V c t hz, inv_castSucc V c t, inv_pos V c _ _ hz]
      unfold besideOthers
      iintro ⟨⟨⟨R1, R2, R3, R4, R5, R6, R7, R8, R9, R10, R11, R12, R13, R14, R15, R16, R17, R18, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (last_runs c Set.univ (grid2.coords t) _ _ _ _ _ _ _ _ _ _ _ _ _ _ _ _ _ _ _ _ _ _ _ _ hF hL
        (tile V c 0 t) (tile V c 1 t) (tile V c 2 t) (tile V c 3 t) (tile V c 4 t) (tile V c 5 t) (tile V c 6 t) (tile V c 7 t) (tile V c 8 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS]; · iexact HS
      iintro ⟨H0, H1, H2, H3, H4, H5, H6, H7, H8, H9, H10, HS⟩
      isplitl [R1 R2 R3 R4 R5 R6 R7 R8 R9 R10 R11 R12 R13 R14 R15 R16 R17 R18 HS Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hL : ¬isLast (grid2.coords t) := fun h => h9 ((isLast_iff t).mp h)
      rw [Dat.leavesExact_idle (dat V c) 9 t (idle_pooled t hL) (keep_pooled t hL),
        Dat.leavesExact_idle (dat V c) 10 t (idle_logits t hL) (keep_logits t hL)]
      rw [accAt_later V c t hz, inv_castSucc V c t, inv_pos V c _ _ hz]
      unfold besideOthers
      iintro ⟨⟨⟨R1, R2, R3, R4, R5, R6, R7, R8, R9, R10, R11, R12, R13, R14, R15, R16, R17, R18, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (middle_runs c Set.univ (grid2.coords t) _ _ _ _ _ _ _ _ _ _ _ _ _ _ _ _ _ _ _ _ _ _ _ _ hF hL
        (tile V c 0 t) (tile V c 1 t) (tile V c 2 t) (tile V c 3 t) (tile V c 4 t) (tile V c 5 t) (tile V c 6 t) (tile V c 7 t) (tile V c 8 t) ((dat V c).before 9 t d9) ((dat V c).before 10 t d10)
        (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [R1 R2 R3 R4 R5 R6 R7 R8 R9 R10 R11 R12 R13 R14 R15 R16 R17 R18 HS Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          isplitl [R16]; · iexact R16
          isplitl [R17]; · iexact R17
          isplitl [R18]; · iexact R18
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem obligation (c : Dev nD) : BodyObligation (dat (F := F) V c) (defs₀ (F := F)) Variants.none () Set.univ := fun t => by
  rw [bigSep_W2, bigSep_W2]
  exact point_runs V c t

theorem owes_nothing (c : Dev nD) (t : Fin (cfg2.N + 1)) : (dat V c).owed t = 0 := rfl

end Cert.Kernel.Pool

end
-- ==== Proof.BitsBoundaries.lean ====
/-
  The contents of the core's buffers between the items of the kernel program — host stretch, first convolution call,
  host stretch, second convolution call, host stretch, pooling call — as a fold from the launch memory: a host stretch
  applies its operations' pure functions; a call leaves every array it stages at what its write-backs leave (an input
  array as it was, an output array with every written-back block in place) and touches no other buffer.  Each item leaves
  alone every buffer it does not write, so each of the program's fourteen arguments reads back, through the six items, as
  launched.  Last, the proof data of the three calls as one family, each at the contents its call is entered with.
-/
import proofs.«410375_j5841155523230_3_alg».proof.Proof.BitsConvStep0
import proofs.«410375_j5841155523230_3_alg».proof.Proof.BitsConvStep1
import proofs.«410375_j5841155523230_3_alg».proof.Proof.BitsPoolStep
import proofs.«410375_j5841155523230_3_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- At launch. -/
abbrev B0 (c : Dev nD) : Valuation τ sig (Elt F) := fun b => m (c, b)
/-- After the first host stretch: what the first convolution call is entered with, -/
abbrev B1 (c : Dev nD) : Valuation τ sig (Elt F) := StableHlo.after hostOps0 (B0 m c)
/-- read at the core's own references. -/
abbrev E1 : (c : Dev nD) → (b : Ref sig .tc) → Buf (Elt F) ((c : Thread nD τ).loc b) := fun c b => B1 m c b
/-- After the first convolution call. -/
def B2 (c : Dev nD) : Valuation τ sig (Elt F) :=
  Pipeline.withArrays spec0 c (B1 m c) fun w => (Conv0.dat (E1 m) c).arrAt w cfg0.N
abbrev E2 : (c : Dev nD) → (b : Ref sig .tc) → Buf (Elt F) ((c : Thread nD τ).loc b) := fun c b => B2 m c b
/-- After the second host stretch: what the second convolution call is entered with. -/
abbrev B3 (c : Dev nD) : Valuation τ sig (Elt F) := StableHlo.after hostOps1 (B2 m c)
abbrev E3 : (c : Dev nD) → (b : Ref sig .tc) → Buf (Elt F) ((c : Thread nD τ).loc b) := fun c b => B3 m c b
/-- After the second convolution call. -/
def B4 (c : Dev nD) : Valuation τ sig (Elt F) :=
  Pipeline.withArrays spec1 c (B3 m c) fun w => (Conv1.dat (E3 m) c).arrAt w cfg1.N
abbrev E4 : (c : Dev nD) → (b : Ref sig .tc) → Buf (Elt F) ((c : Thread nD τ).loc b) := fun c b => B4 m c b
/-- After the third host stretch: what the pooling call is entered with. -/
abbrev B5 (c : Dev nD) : Valuation τ sig (Elt F) := StableHlo.after hostOps2 (B4 m c)
abbrev E5 : (c : Dev nD) → (b : Ref sig .tc) → Buf (Elt F) ((c : Thread nD τ).loc b) := fun c b => B5 m c b
/-- After the pooling call: the end. -/
def B6 (c : Dev nD) : Valuation τ sig (Elt F) :=
  Pipeline.withArrays spec2 c (B5 m c) fun w => (Pool.dat (E5 m) c).arrAt w cfg2.N
abbrev E6 : (c : Dev nD) → (b : Ref sig .tc) → Buf (Elt F) ((c : Thread nD τ).loc b) := fun c b => B6 m c b

/-! ## A call's arrays after it, and every other buffer -/

theorem B2_arr (c : Dev nD) (w : Fin cfg0.W) :
    B2 m c (Proc.devRef .tc (Pipeline.arrRef spec0 w)) = (Conv0.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (Conv1.dat (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem B6_arr (c : Dev nD) (w : Fin cfg2.W) :
    B6 m c (Proc.devRef .tc (Pipeline.arrRef spec2 w)) = (Pool.dat (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb

/-- The two facts the exit of a call needs: its arrays hold what the pipeline leaves, every other buffer what it held. -/
theorem conv0_arrays (c : Dev nD) (w : Fin cfg0.W) : (Conv0.dat (E1 m) c).arrAt w cfg0.N = E2 m c (Pipeline.arrRef spec0 w) :=
  (B2_arr m c w).symm
theorem conv0_others (c : Dev nD) : ∀ b, b ∉ Finset.univ.image (Pipeline.arrRef spec0) → E2 m c b = E1 m c b :=
  fun b hb => B2_of_ne m c b fun w e => hb (Finset.mem_image.mpr ⟨w, Finset.mem_univ _, e⟩)
theorem conv1_arrays (c : Dev nD) (w : Fin cfg1.W) : (Conv1.dat (E3 m) c).arrAt w cfg1.N = E4 m c (Pipeline.arrRef spec1 w) :=
  (B4_arr m c w).symm
theorem conv1_others (c : Dev nD) : ∀ b, b ∉ Finset.univ.image (Pipeline.arrRef spec1) → E4 m c b = E3 m c b :=
  fun b hb => B4_of_ne m c b fun w e => hb (Finset.mem_image.mpr ⟨w, Finset.mem_univ _, e⟩)
theorem pool_arrays (c : Dev nD) (w : Fin cfg2.W) : (Pool.dat (E5 m) c).arrAt w cfg2.N = E6 m c (Pipeline.arrRef spec2 w) :=
  (B6_arr m c w).symm
theorem pool_others (c : Dev nD) : ∀ b, b ∉ Finset.univ.image (Pipeline.arrRef spec2) → E6 m c b = E5 m c b :=
  fun b hb => B6_of_ne m c b fun w e => hb (Finset.mem_image.mpr ⟨w, Finset.mem_univ _, e⟩)

/-! ## What each item leaves alone -/

theorem B1_keeps (c : Dev nD) (r : Ref sig .tc) (h : r ∉ hostOps0_W) : B1 m c r = B0 m c r :=
  StableHlo.after_of_writes_sub hostOps0 _ hostOps0_writes h
theorem B3_keeps (c : Dev nD) (r : Ref sig .tc) (h : r ∉ hostOps1_W) : B3 m c r = B2 m c r :=
  StableHlo.after_of_writes_sub hostOps1 _ hostOps1_writes h
theorem B5_keeps (c : Dev nD) (r : Ref sig .tc) (h : r ∉ hostOps2_W) : B5 m c r = B4 m c r :=
  StableHlo.after_of_writes_sub hostOps2 _ hostOps2_writes h

/-- The first convolution call changes only its output array. -/
theorem B2_keeps (c : Dev nD) (r : Ref sig .tc) (hr : r ≠ main_v14) : B2 m c r = B1 m c r := by
  by_cases h : ∃ w, Pipeline.arrRef spec0 w = r
  · obtain ⟨w, rfl⟩ := h
    have hw : (cfg0.win w).isOut = false := by revert hr; revert w; decide
    exact (B2_arr m c w).trans (((Conv0.dat (E1 m) c).arrAt_in w hw _).trans (Conv0.dat_A (E1 m) c w))
  · exact B2_of_ne m c r fun w e => h ⟨w, e⟩

/-- The second convolution call changes only its output array. -/
theorem B4_keeps (c : Dev nD) (r : Ref sig .tc) (hr : r ≠ main_v25) : B4 m c r = B3 m c r := by
  by_cases h : ∃ w, Pipeline.arrRef spec1 w = r
  · obtain ⟨w, rfl⟩ := h
    have hw : (cfg1.win w).isOut = false := by revert hr; revert w; decide
    exact (B4_arr m c w).trans (((Conv1.dat (E3 m) c).arrAt_in w hw _).trans (Conv1.dat_A (E3 m) c w))
  · exact B4_of_ne m c r fun w e => h ⟨w, e⟩

/-- The pooling call changes only its two output arrays. -/
theorem B6_keeps (c : Dev nD) (r : Ref sig .tc) (hr0 : r ≠ main_v42_0) (hr1 : r ≠ main_v42_1) : B6 m c r = B5 m c r := by
  by_cases h : ∃ w, Pipeline.arrRef spec2 w = r
  · obtain ⟨w, rfl⟩ := h
    have hw : (cfg2.win w).isOut = false := by revert hr0 hr1; revert w; decide
    exact (B6_arr m c w).trans (((Pool.dat (E5 m) c).arrAt_in w hw _).trans (Pool.dat_A (E5 m) c w))
  · exact B6_of_ne m c r fun w e => h ⟨w, e⟩

/-! ## The arguments end as launched -/

theorem B6_arg0 (c : Dev nD) : B6 m c main_arg0 = m ((c : Thread nD τ).loc main_arg0) :=
  (B6_keeps m c main_arg0 (by decide) (by decide)).trans <| (B5_keeps m c main_arg0 (by decide)).trans <|
    (B4_keeps m c main_arg0 (by decide)).trans <| (B3_keeps m c main_arg0 (by decide)).trans <|
    (B2_keeps m c main_arg0 (by decide)).trans <| (B1_keeps m c main_arg0 (by decide)).trans rfl
theorem B6_arg1 (c : Dev nD) : B6 m c main_arg1 = m ((c : Thread nD τ).loc main_arg1) :=
  (B6_keeps m c main_arg1 (by decide) (by decide)).trans <| (B5_keeps m c main_arg1 (by decide)).trans <|
    (B4_keeps m c main_arg1 (by decide)).trans <| (B3_keeps m c main_arg1 (by decide)).trans <|
    (B2_keeps m c main_arg1 (by decide)).trans <| (B1_keeps m c main_arg1 (by decide)).trans rfl
theorem B6_arg2 (c : Dev nD) : B6 m c main_arg2 = m ((c : Thread nD τ).loc main_arg2) :=
  (B6_keeps m c main_arg2 (by decide) (by decide)).trans <| (B5_keeps m c main_arg2 (by decide)).trans <|
    (B4_keeps m c main_arg2 (by decide)).trans <| (B3_keeps m c main_arg2 (by decide)).trans <|
    (B2_keeps m c main_arg2 (by decide)).trans <| (B1_keeps m c main_arg2 (by decide)).trans rfl
theorem B6_arg3 (c : Dev nD) : B6 m c main_arg3 = m ((c : Thread nD τ).loc main_arg3) :=
  (B6_keeps m c main_arg3 (by decide) (by decide)).trans <| (B5_keeps m c main_arg3 (by decide)).trans <|
    (B4_keeps m c main_arg3 (by decide)).trans <| (B3_keeps m c main_arg3 (by decide)).trans <|
    (B2_keeps m c main_arg3 (by decide)).trans <| (B1_keeps m c main_arg3 (by decide)).trans rfl
theorem B6_arg4 (c : Dev nD) : B6 m c main_arg4 = m ((c : Thread nD τ).loc main_arg4) :=
  (B6_keeps m c main_arg4 (by decide) (by decide)).trans <| (B5_keeps m c main_arg4 (by decide)).trans <|
    (B4_keeps m c main_arg4 (by decide)).trans <| (B3_keeps m c main_arg4 (by decide)).trans <|
    (B2_keeps m c main_arg4 (by decide)).trans <| (B1_keeps m c main_arg4 (by decide)).trans rfl
theorem B6_arg5 (c : Dev nD) : B6 m c main_arg5 = m ((c : Thread nD τ).loc main_arg5) :=
  (B6_keeps m c main_arg5 (by decide) (by decide)).trans <| (B5_keeps m c main_arg5 (by decide)).trans <|
    (B4_keeps m c main_arg5 (by decide)).trans <| (B3_keeps m c main_arg5 (by decide)).trans <|
    (B2_keeps m c main_arg5 (by decide)).trans <| (B1_keeps m c main_arg5 (by decide)).trans rfl
theorem B6_arg6 (c : Dev nD) : B6 m c main_arg6 = m ((c : Thread nD τ).loc main_arg6) :=
  (B6_keeps m c main_arg6 (by decide) (by decide)).trans <| (B5_keeps m c main_arg6 (by decide)).trans <|
    (B4_keeps m c main_arg6 (by decide)).trans <| (B3_keeps m c main_arg6 (by decide)).trans <|
    (B2_keeps m c main_arg6 (by decide)).trans <| (B1_keeps m c main_arg6 (by decide)).trans rfl
theorem B6_arg7 (c : Dev nD) : B6 m c main_arg7 = m ((c : Thread nD τ).loc main_arg7) :=
  (B6_keeps m c main_arg7 (by decide) (by decide)).trans <| (B5_keeps m c main_arg7 (by decide)).trans <|
    (B4_keeps m c main_arg7 (by decide)).trans <| (B3_keeps m c main_arg7 (by decide)).trans <|
    (B2_keeps m c main_arg7 (by decide)).trans <| (B1_keeps m c main_arg7 (by decide)).trans rfl
theorem B6_arg8 (c : Dev nD) : B6 m c main_arg8 = m ((c : Thread nD τ).loc main_arg8) :=
  (B6_keeps m c main_arg8 (by decide) (by decide)).trans <| (B5_keeps m c main_arg8 (by decide)).trans <|
    (B4_keeps m c main_arg8 (by decide)).trans <| (B3_keeps m c main_arg8 (by decide)).trans <|
    (B2_keeps m c main_arg8 (by decide)).trans <| (B1_keeps m c main_arg8 (by decide)).trans rfl
theorem B6_arg9 (c : Dev nD) : B6 m c main_arg9 = m ((c : Thread nD τ).loc main_arg9) :=
  (B6_keeps m c main_arg9 (by decide) (by decide)).trans <| (B5_keeps m c main_arg9 (by decide)).trans <|
    (B4_keeps m c main_arg9 (by decide)).trans <| (B3_keeps m c main_arg9 (by decide)).trans <|
    (B2_keeps m c main_arg9 (by decide)).trans <| (B1_keeps m c main_arg9 (by decide)).trans rfl
theorem B6_arg10 (c : Dev nD) : B6 m c main_arg10 = m ((c : Thread nD τ).loc main_arg10) :=
  (B6_keeps m c main_arg10 (by decide) (by decide)).trans <| (B5_keeps m c main_arg10 (by decide)).trans <|
    (B4_keeps m c main_arg10 (by decide)).trans <| (B3_keeps m c main_arg10 (by decide)).trans <|
    (B2_keeps m c main_arg10 (by decide)).trans <| (B1_keeps m c main_arg10 (by decide)).trans rfl
theorem B6_arg11 (c : Dev nD) : B6 m c main_arg11 = m ((c : Thread nD τ).loc main_arg11) :=
  (B6_keeps m c main_arg11 (by decide) (by decide)).trans <| (B5_keeps m c main_arg11 (by decide)).trans <|
    (B4_keeps m c main_arg11 (by decide)).trans <| (B3_keeps m c main_arg11 (by decide)).trans <|
    (B2_keeps m c main_arg11 (by decide)).trans <| (B1_keeps m c main_arg11 (by decide)).trans rfl
theorem B6_arg12 (c : Dev nD) : B6 m c main_arg12 = m ((c : Thread nD τ).loc main_arg12) :=
  (B6_keeps m c main_arg12 (by decide) (by decide)).trans <| (B5_keeps m c main_arg12 (by decide)).trans <|
    (B4_keeps m c main_arg12 (by decide)).trans <| (B3_keeps m c main_arg12 (by decide)).trans <|
    (B2_keeps m c main_arg12 (by decide)).trans <| (B1_keeps m c main_arg12 (by decide)).trans rfl
theorem B6_arg13 (c : Dev nD) : B6 m c main_arg13 = m ((c : Thread nD τ).loc main_arg13) :=
  (B6_keeps m c main_arg13 (by decide) (by decide)).trans <| (B5_keeps m c main_arg13 (by decide)).trans <|
    (B4_keeps m c main_arg13 (by decide)).trans <| (B3_keeps m c main_arg13 (by decide)).trans <|
    (B2_keeps m c main_arg13 (by decide)).trans <| (B1_keeps m c main_arg13 (by decide)).trans rfl

/-! ## The proof data of the three calls, as one family -/

/-- Each call's proof data at the contents it is entered with — a literal match, so that the family at a numeral
    reduces to that call's data. -/
def pdats : (p : Fin 3) → (c : Dev nD) → Dat τ (Elt F) Unit ℕ (UR sig nD τ) ℕ (Pipeline.pin (pcfgs (F := F)) adm p) c
  | ⟨0, _⟩ => fun c => Conv0.dat (E1 m) c
  | ⟨1, _⟩ => fun c => Conv1.dat (E3 m) c
  | ⟨2, _⟩ => fun c => Pool.dat (E5 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state, and that it owes nothing. -/
abbrev riding (c : Dev nD) : sProp 𝕄 :=
  iprop((∃ r, prngReg c r) ∗ ∃ W, owes (c : Thread nD τ) (0 : CellTallies nD τ sig Unit) W)

/-- The core's unscoped buffers held at a valuation. -/
abbrev heldAt (B : Dev nD → Valuation τ sig (Elt F)) (c : Dev nD) : sProp 𝕄 :=
  StableHlo.held (c : Thread nD τ) (Pipeline.ucRefs τ sig) (B c)

end Cert.Kernel.Run

end
-- ==== Proof.BitsRegion0.lean ====
/-
  The first convolution call as one item of the program's run.  It is entered with every unscoped buffer of the core held
  at the contents the first host stretch leaves, beside the riding state (the generator register, nothing owed), and
  left with every unscoped buffer held at those contents except the output the call writes back, which holds what the
  write-backs of the pipeline leave.  On entry the arrays the call stages are split out of the unscoped buffers and the generator
  register goes into the invariant; on exit both come back.  The call has no semaphore of its own and owes nothing.
-/
import proofs.«410375_j5841155523230_3_alg».proof.Proof.BitsBoundaries

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the family pinned at a pipeline unifies with this call's configuration only when
-- unification may unfold plain definitions in a metavariable's type
set_option backward.isDefEq.respectTransparency.types false in
def conv0Call : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Conv0.obligation (E1 m) c).loose
  hwaits := Pipeline.hwaits_of_owed_zero _ _ _ _ L lv 0 fun _ _ => rfl
  pre c := iprop(heldAt (B1 m) c ∗ riding c)
  post c := iprop(heldAt (B2 m) c ∗ riding c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Conv0.inv_first (E1 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Conv0.inv_last (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (conv0_arrays m c) (conv0_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BitsRegion1.lean ====
/-
  The second convolution call as one item of the program's run.  It is entered with every unscoped buffer of the core held
  at the contents the second host stretch leaves, beside the riding state (the generator register, nothing owed), and
  left with every unscoped buffer held at those contents except the output the call writes back, which holds what the
  write-backs of the pipeline leave.  On entry the arrays the call stages are split out of the unscoped buffers and the generator
  register goes into the invariant; on exit both come back.  The call has no semaphore of its own and owes nothing.
-/
import proofs.«410375_j5841155523230_3_alg».proof.Proof.BitsBoundaries

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the family pinned at a pipeline unifies with this call's configuration only when
-- unification may unfold plain definitions in a metavariable's type
set_option backward.isDefEq.respectTransparency.types false in
def conv1Call : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Conv1.obligation (E3 m) c).loose
  hwaits := Pipeline.hwaits_of_owed_zero _ _ _ _ L lv 1 fun _ _ => rfl
  pre c := iprop(heldAt (B3 m) c ∗ riding c)
  post c := iprop(heldAt (B4 m) c ∗ riding c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Conv1.inv_first (E3 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Conv1.inv_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (conv1_arrays m c) (conv1_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BitsRegion2.lean ====
/-
  The pooling call as one item of the program's run.  It is entered with every unscoped buffer of the core held
  at the contents the third host stretch leaves, beside the riding state (the generator register, nothing owed), and
  left with every unscoped buffer held at those contents except the output the call writes back, which holds what the
  write-backs of the pipeline leave.  On entry the arrays the call stages are split out of the unscoped buffers and the generator
  register goes into the invariant; on exit both come back.  The call has no semaphore of its own and owes nothing.
-/
import proofs.«410375_j5841155523230_3_alg».proof.Proof.BitsBoundaries

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the family pinned at a pipeline unifies with this call's configuration only when
-- unification may unfold plain definitions in a metavariable's type
set_option backward.isDefEq.respectTransparency.types false in
def poolCall : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Pool.obligation (E5 m) c).loose
  hwaits := Pipeline.hwaits_of_owed_zero _ _ _ _ L lv 2 fun _ _ => rfl
  pre c := iprop(heldAt (B5 m) c ∗ riding c)
  post c := iprop(heldAt (B6 m) c ∗ riding c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Pool.inv_first (E5 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Pool.inv_last (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (pool_arrays m c) (pool_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BitsLaunch.lean ====
/-
  The run of the kernel program: its six items in order — host stretch, first convolution call, host stretch, second
  convolution call, host stretch, pooling call — each entered from the state the one before leaves (every unscoped buffer
  held at the boundary's contents, beside the generator register and the fact that the core owes nothing), composed by
  the launch theorem for a program of several calls.  Its conclusion: every weakly fair execution terminates without a
  fault and ends with every unscoped buffer at the last boundary's contents.  Read at the fourteen arguments this is the
  frame (each ends as launched); read at the two results it names what the pooling call's write-backs leave.
-/
import proofs.«410375_j5841155523230_3_alg».proof.Proof.BitsRegion0
import proofs.«410375_j5841155523230_3_alg».proof.Proof.BitsRegion1
import proofs.«410375_j5841155523230_3_alg».proof.Proof.BitsRegion2

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as an item: its operations over the unscoped buffers held at `B`, the riding state alongside;
    it leaves them held at the operations' pure functions applied to `B`. -/
abbrev hostItem (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B riding

/-- The program's six items. -/
abbrev items : List (Pipeline.Seg (pcfgs (F := F)) adm (pdats m) () defs₀ 𝒱₀ L lv) :=
  [ .host (hostItem hostOps0 hostOps0_sub hostOps0_fresh (B0 m)),
    .region (conv0Call m),
    .host (hostItem hostOps1 hostOps1_sub hostOps1_fresh (B2 m)),
    .region (conv1Call m),
    .host (hostItem hostOps2 hostOps2_sub hostOps2_fresh (B4 m)),
    .region (poolCall m) ]

/-- The program IS the run of its items. -/
theorem main_is_items (c : Dev nD) : main (F := F) c = Pipeline.Seg.run (items m) := (main_chain c).trans (by chain_rfl)

/-- An unscoped reference of the core is among those the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- Every weakly fair execution from memory `m` with zero counters terminates, nothing faulting, with every unscoped
    buffer of every core at the last boundary's contents. -/
theorem runs : θ_run defs (onTc (τ := τ) (main (F := F))) ⟨m, fun _ => 0, ρ⟩
    (fun r => ∀ c : Dev nD, ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (B0 m) c ∗ riding c))
    (Tₙ := fun c => iprop(heldAt (B6 m) c ∗ ∃ r, prngReg c r))
    (hch := ⟨fun _ => .rfl, fun _ => .rfl, fun _ => .rfl, fun _ => .rfl, fun _ => .rfl, fun _ => .rfl, fun c => by
      show iprop(heldAt (B6 m) c ∗ riding c) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold heldAt StableHlo.held
      imodintro
      iapply (pointsTo_read_all (Pipeline.ucRefs τ sig) (fun b => (((c : Thread nD τ)).1, b)) (B6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (B6_arg0 m c),
      (h c _ (mem_uc main_arg1 (by decide))).trans (B6_arg1 m c),
      (h c _ (mem_uc main_arg2 (by decide))).trans (B6_arg2 m c),
      (h c _ (mem_uc main_arg3 (by decide))).trans (B6_arg3 m c),
      (h c _ (mem_uc main_arg4 (by decide))).trans (B6_arg4 m c),
      (h c _ (mem_uc main_arg5 (by decide))).trans (B6_arg5 m c),
      (h c _ (mem_uc main_arg6 (by decide))).trans (B6_arg6 m c),
      (h c _ (mem_uc main_arg7 (by decide))).trans (B6_arg7 m c),
      (h c _ (mem_uc main_arg8 (by decide))).trans (B6_arg8 m c),
      (h c _ (mem_uc main_arg9 (by decide))).trans (B6_arg9 m c),
      (h c _ (mem_uc main_arg10 (by decide))).trans (B6_arg10 m c),
      (h c _ (mem_uc main_arg11 (by decide))).trans (B6_arg11 m c),
      (h c _ (mem_uc main_arg12 (by decide))).trans (B6_arg12 m c),
      (h c _ (mem_uc main_arg13 (by decide))).trans (B6_arg13 m c)⟩) (runs m ρ)

/-- THE RESULTS: the two result arrays end at what the pooling call's write-backs leave, and the arguments as launched. -/
theorem results : θ_run defs (onTc (τ := τ) (main (F := F))) ⟨m, fun _ => 0, ρ⟩ (fun r => ∀ c : Dev nD,
      r.2.mem ((c.tc : Thread nD τ).loc main_v42_0) = (Pool.dat (E5 m) c).arrAt 9 cfg2.N
      ∧ r.2.mem ((c.tc : Thread nD τ).loc main_v42_1) = (Pool.dat (E5 m) c).arrAt 10 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v42_0 (by decide))).trans (B6_arr m c 9),
      (h c _ (mem_uc main_v42_1 (by decide))).trans (B6_arr m c 10),
      (h c _ (mem_uc main_arg0 (by decide))).trans (B6_arg0 m c),
      (h c _ (mem_uc main_arg1 (by decide))).trans (B6_arg1 m c),
      (h c _ (mem_uc main_arg2 (by decide))).trans (B6_arg2 m c),
      (h c _ (mem_uc main_arg3 (by decide))).trans (B6_arg3 m c),
      (h c _ (mem_uc main_arg4 (by decide))).trans (B6_arg4 m c),
      (h c _ (mem_uc main_arg5 (by decide))).trans (B6_arg5 m c),
      (h c _ (mem_uc main_arg6 (by decide))).trans (B6_arg6 m c),
      (h c _ (mem_uc main_arg7 (by decide))).trans (B6_arg7 m c),
      (h c _ (mem_uc main_arg8 (by decide))).trans (B6_arg8 m c),
      (h c _ (mem_uc main_arg9 (by decide))).trans (B6_arg9 m c),
      (h c _ (mem_uc main_arg10 (by decide))).trans (B6_arg10 m c),
      (h c _ (mem_uc main_arg11 (by decide))).trans (B6_arg11 m c),
      (h c _ (mem_uc main_arg12 (by decide))).trans (B6_arg12 m c),
      (h c _ (mem_uc main_arg13 (by decide))).trans (B6_arg13 m c)⟩) (runs m ρ)

end Cert.Kernel.Run

end
-- ==== Proof.HostGlue.lean ====
/-
  What the kernel program's three host stretches leave in the buffers its calls read, as functions of the buffers the
  stretches read.  Each stretch gathers the current node features at the edges' sources and adds them up at the edges'
  destinations: ONE function `aggFrom` of the features and of the source and destination lists, which the first stretch
  splits off the edge list once.  The last stretch also reshapes the graph ids to a column and counts the nodes of each
  graph (`countsFrom`), reshaped to a column.  These are the same host operations the reference program applies: by
  unfolding alone, `aggFrom` on the split edge list is the reference's aggregate stage and `countsFrom` its count stage;
  neither the gather nor the accumulating scatter is ever opened.
-/
import proofs.«410375_j5841155523230_3_alg».proof.Proof.Boundaries
import proofs.«410375_j5841155523230_3_alg».proof.Proof.Gen.ReferenceIdeal.Read
import Idealize.ShloMosaic.Lib.StableHlo.Run

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-- The sources, and the destinations, of the edges: rows 0 and 1 of the edge list. -/
def srcOf (ei : (⟨S2x1250000, .i32⟩ : BufTy).Contents (Elt F)) : (⟨S1250000, .i32⟩ : BufTy).Contents (Elt F) :=
  shapeCast _ (extractStridedSlice S1x1250000 ![0, 0] ei slices_S2x1250000_S1x1250000_0_0) shapeCasts_S1x1250000_S1250000
def dstOf (ei : (⟨S2x1250000, .i32⟩ : BufTy).Contents (Elt F)) : (⟨S1250000, .i32⟩ : BufTy).Contents (Elt F) :=
  shapeCast _ (extractStridedSlice S1x1250000 ![1, 0] ei slices_S2x1250000_S1x1250000_1_0) shapeCasts_S1x1250000_S1250000

/-- The neighbour aggregate: the features gathered at the sources (a negative source index counted from the end),
    added up at the destinations into zeros. -/
def aggFrom (h : (⟨S50000x64, .f32⟩ : BufTy).Contents (Elt F)) (src dst : (⟨S1250000, .i32⟩ : BufTy).Contents (Elt F)) :
    (⟨S50000x64, .f32⟩ : BufTy).Contents (Elt F) :=
  Host.scatterAdd scatter_S50000x64_S1250000x1_S1250000x64_1_0_0_1
    (broadcastInDim S50000x64 ![] bcast_S_S50000x64 (constant (F := F) S_ .f32 0x00000000#32))
    (broadcastInDim S1250000x1 ![0] bcast_S1250000_S1250000x1_0 dst)
    (Host.gather gather_S50000x64_S1250000x1_S1250000x64_1_0_n_n_0_1_164 h
      (broadcastInDim S1250000x1 ![0] bcast_S1250000_S1250000x1_0
        (select (cmpi .slt src (broadcastInDim S1250000 ![] bcast_S_S1250000 (constantI S_ 32 0#32)))
          (addi src (broadcastInDim S1250000 ![] bcast_S_S1250000 (constantI S_ 32 50000#32))) src)))

/-- The number of nodes of each graph: ones added up at the ids into zeros. -/
def countsFrom (ids : (⟨S50000, .i32⟩ : BufTy).Contents (Elt F)) : (⟨S128, .f32⟩ : BufTy).Contents (Elt F) :=
  Host.scatterAdd scatter_S128_S50000x1_S50000_n_0_0_1
    (broadcastInDim S128 ![] bcast_S_S128 (constant (F := F) S_ .f32 0x00000000#32))
    (broadcastInDim S50000x1 ![0] bcast_S50000_S50000x1_0 ids)
    (broadcastInDim S50000 ![] bcast_S_S50000 (constant (F := F) S_ .f32 0x3F800000#32))

/-! ## The stretches -/

variable (V : Valuation τ sig (Elt F))

theorem first_src : StableHlo.after hostOps0 V (Proc.devRef .tc main_v1) = srcOf (V (Proc.devRef .tc main_arg1)) := by
  after_results; rfl
theorem first_dst : StableHlo.after hostOps0 V (Proc.devRef .tc main_v3) = dstOf (V (Proc.devRef .tc main_arg1)) := by
  after_results; rfl
theorem first_agg : StableHlo.after hostOps0 V (Proc.devRef .tc main_v13)
    = aggFrom (V (Proc.devRef .tc main_arg0)) (srcOf (V (Proc.devRef .tc main_arg1))) (dstOf (V (Proc.devRef .tc main_arg1))) := by
  after_results; rfl
theorem second_agg : StableHlo.after hostOps1 V (Proc.devRef .tc main_v24)
    = aggFrom (V (Proc.devRef .tc main_v14)) (V (Proc.devRef .tc main_v1)) (V (Proc.devRef .tc main_v3)) := by
  after_results; rfl
theorem third_agg : StableHlo.after hostOps2 V (Proc.devRef .tc main_v35)
    = aggFrom (V (Proc.devRef .tc main_v25)) (V (Proc.devRef .tc main_v1)) (V (Proc.devRef .tc main_v3)) := by
  after_results; rfl
theorem third_ids : StableHlo.after hostOps2 V (Proc.devRef .tc main_v36)
    = shapeCast _ (V (Proc.devRef .tc main_arg2)) shapeCasts_S50000_S50000x1 := by
  after_results; rfl
theorem third_counts : StableHlo.after hostOps2 V (Proc.devRef .tc main_v41)
    = shapeCast _ (countsFrom (V (Proc.devRef .tc main_arg2))) shapeCasts_S128_S128x1 := by
  after_results; rfl

/-! ## They are the reference's stages -/

theorem aggFrom_eq (h : (⟨S50000x64, .f32⟩ : BufTy).Contents (Elt F)) (ei : (⟨S2x1250000, .i32⟩ : BufTy).Contents (Elt F)) :
    aggFrom h (srcOf ei) (dstOf ei) = Cert.ReferenceIdeal.Read.val_main_v13 (F := F) h ei := rfl

theorem countsFrom_eq (ids : (⟨S50000, .i32⟩ : BufTy).Contents (Elt F)) :
    countsFrom ids = Cert.ReferenceIdeal.Read.val_main_v66 (F := F) ids := rfl

end Cert.KernelIdeal.Glue

end
-- ==== Proof.GraphSpec.lean ====
/-
  The mathematics both programs compute, over the extended reals, index by index.

  A graph-convolution step maps node features x (one row per node) and neighbour aggregates agg to
  agg·W_relᵀ + x·W_rootᵀ + b; the first two steps are followed by max(·, 0).  The pool sums, for each graph g, the rows
  of the third step's result whose graph id is g — an id that is no graph's (negative, or 128 and above) belongs to no
  sum —, divides by max(count, 1), and the readout maps the pooled rows through W_linᵀ and adds b_lin.  How the aggregates
  and the counts are obtained from the edge list and the ids is the same host computation in both programs and is not
  opened here: they enter as arrays.
-/
import Idealize.ShloMosaic.PureOps.Ideal
import Idealize.ShloMosaic.Lib.ValueIdx

noncomputable section

open scoped BigOperators
open Idealize.ShloMosaic Idealize.ShloMosaic.ValueIdx

namespace Cert.GraphSpec

/-- A matrix of extended reals with `r` rows and `k` columns; a vector of length `n`. -/
abbrev Mat (r k : Nat) : Type := (⟨2, ![r, k]⟩ : Shape).Idx → EReal
abbrev Row (n : Nat) : Type := (⟨1, ![n]⟩ : Shape).Idx → EReal

/-- Entry (p, q) of a·wᵀ: the inner product of row p of `a` and row q of `w`. -/
def mulT {n k d : Nat} (a : Mat n d) (w : Mat k d) (p : Fin n) (q : Fin k) : EReal :=
  ∑ j : Fin d, a (ix2 p j) * w (ix2 q j)

/-- Entry (p, q) of one graph-convolution step before its activation: (agg·W_relᵀ + x·W_rootᵀ) + b. -/
def layerAt {n : Nat} (agg x : Mat n 64) (wrel wroot : Mat 64 64) (b : Row 64) (p : Fin n) (q : Fin 64) : EReal :=
  mulT agg wrel p q + mulT x wroot p q + b (ix1 q)

/-- The step as an array. -/
def layer {n : Nat} (agg x : Mat n 64) (wrel wroot : Mat 64 64) (b : Row 64) : Mat n 64 :=
  fun i => layerAt agg x wrel wroot b (i 0) (i 1)

/-- max(·, 0), entry by entry; the zero is the literal both programs carry. -/
def relu {n : Nat} (y : Mat n 64) : Mat n 64 := fun i => max (y i) (Ideal.ofBits .f32 0x00000000#32)

/-- Entry (g, f) of the per-graph sums: the sum over the nodes whose id, read as a signed integer, is g. -/
def segSumAt (ids : (⟨1, ![50000]⟩ : Shape).Idx → BitVec 32) (y : Mat 50000 64) (g : Fin 128) (f : Fin 64) : EReal :=
  ∑ e : Fin 50000, if (ids (ix1 e)).toInt = (g.val : Int) then y (ix2 e f) else 0

def segSum (ids : (⟨1, ![50000]⟩ : Shape).Idx → BitVec 32) (y : Mat 50000 64) : Mat 128 64 :=
  fun i => segSumAt ids y (i 0) (i 1)

/-- The mean pool: each graph's sums over max(count, 1); the one is the literal both programs carry. -/
def meanPool (sums : Mat 128 64) (cnt : Row 128) : Mat 128 64 :=
  fun i => Ideal.div (sums i) (max (cnt (ix1 (i 0))) (Ideal.ofBits .f32 0x3F800000#32))

/-- The readout: pooled·W_linᵀ + b_lin. -/
def readout (p : Mat 128 64) (wlin : Mat 10 64) (blin : Row 10) : Mat 128 10 :=
  fun i => mulT p wlin (i 0) (i 1) + blin (ix1 (i 1))

end Cert.GraphSpec

end
-- ==== Proof.ConvValue0.lean ====
/-
  One graph-convolution call of the program, read as a value. The call's proof data says what each grid point leaves
  in the output's staging buffer: one stored value, the payload of the five tiles loaded. Here that value is read
  index by index — entry (r, q) is max(·, 0) of (agg·W_relᵀ + x·W_rootᵀ + b) at (r, q) on the tiles —, the tiles are
  identified with rows of the arrays the call finds (point t holds rows 10000·t … 10000·t + 9999; the weights and the
  bias are held whole), and the five write-backs, which tile the 50000 rows, are put together: the output array ends
  as the activated step of the five arrays.
-/
import proofs.«410375_j5841155523230_3_alg».proof.Proof.ConvStep0
import proofs.«410375_j5841155523230_3_alg».proof.Proof.GraphSpec
import Idealize.ShloMosaic.Lib.Pipeline.Value
import Idealize.ShloMosaic.Lib.ValueLayout
import Idealize.ShloMosaic.PureOps.Ideal.Laws

set_option maxRecDepth 16384

noncomputable section

namespace Cert.KernelIdeal.Conv0Value

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators
open Cert.GraphSpec

/-! ## The two products at an index

Both products contract the second axis of a 10000×64 block against the first axis of a 64×64 matrix that the body has
transposed first; so entry (r, q) pairs row r of the block with row q of the matrix as it was loaded. The operand
indices of the contraction, axis by axis: -/

theorem lhs_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_contracted (i : S10000x64.Idx) (k : dot_S10000x64_S64x64_S10000x64_1_0_0_1_n_n.contr.Idx) :
    (dot_S10000x64_S64x64_S10000x64_1_0_0_1_n_n.lhsIdx i k 1).val = (k ⟨0, by decide⟩).val :=
  dot_S10000x64_S64x64_S10000x64_1_0_0_1_n_n.lhsIdx_val_of_single rfl i k
theorem rhs_contracted (i : S10000x64.Idx) (k : dot_S10000x64_S64x64_S10000x64_1_0_0_1_n_n.contr.Idx) :
    (dot_S10000x64_S64x64_S10000x64_1_0_0_1_n_n.rhsIdx i k 0).val = (k ⟨0, by decide⟩).val :=
  dot_S10000x64_S64x64_S10000x64_1_0_0_1_n_n.rhsIdx_val_of_single rfl i k
theorem rhs_column (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A 10000×64 block times a transposed 64×64 matrix, into the zero accumulator, at (r, q): the sum over j of the
    block's (r, j) times the matrix's (q, j). The sum over the contraction's index set is carried to a sum over
    Fin 64 along the bijection that reads the one contracted coordinate. -/
theorem prod_apply {φ : FTy} (a : FVec Ideal S10000x64 φ) (w : FVec Ideal S64x64 φ) (r : Fin 10000) (q : Fin 64) :
    matmul dot_S10000x64_S64x64_S10000x64_1_0_0_1_n_n none a (transpose S64x64 [1, 0] w transposes_S64x64_p1_0_S64x64)
        (constant (F := Ideal) S10000x64 .f32 0x00000000#32) (ix2 r q)
      = ∑ j : Fin 64, a (ix2 r j) * w (ix2 q j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q) ((contrEquiv1 dot_S10000x64_S64x64_S10000x64_1_0_0_1_n_n 64 rfl rfl).symm k) = ix2 r k :=
    funext fun a => Fin.ext (by
      match a with
      | ⟨0, _⟩ => exact lhs_row _ _
      | ⟨1, _⟩ => exact (lhs_contracted _ _).trans hk)
  have er : dot_S10000x64_S64x64_S10000x64_1_0_0_1_n_n.rhsIdx (ix2 r q) ((contrEquiv1 dot_S10000x64_S64x64_S10000x64_1_0_0_1_n_n 64 rfl rfl).symm k) = ix2 k q :=
    funext fun a => Fin.ext (by
      match a with
      | ⟨0, _⟩ => exact (rhs_contracted _ _).trans hk
      | ⟨1, _⟩ => exact rhs_column _ _)
  rw [el, er, transpose_ix2_apply]

/-! ## The payload at an index -/

/-- The body's one stored value at (r, q): max(·, 0) of the step's entry (r, q) on the five loaded blocks. A cast
    to the same shape and the change of format are the identity on extended reals; the bias is cast to one row and
    that row repeated, so it is read at q; the two sums are the products above. -/
theorem pay_apply (agg x : Vec Ideal S10000x64 .f32) (wrel wroot : Vec Ideal S64x64 .f32) (b : Vec Ideal S64 .f32)
    (r : Fin 10000) (q : Fin 64) :
    (k0_pay1 (F := Ideal) agg x wrel wroot b) (ix2 r q)
      = max (layerAt (n := 10000) agg x wrel wroot b r q) (Ideal.ofBits .f32 0x00000000#32) := by
  unfold k0_pay1
  simp only [shapeCast_self]
  rw [maximumf_apply, addf_apply, addf_apply, broadcast_apply, prod_apply, prod_apply, broadcastTo_1b_ab_apply, shapeCast_a_1a_apply]
  rfl

/-- The step's entry depends on the two row blocks only through the row it reads: blocks that agree with whole
    arrays on that row give the arrays' entry. -/
theorem layerAt_row (agg x : Mat 10000 64) (A X : Mat 50000 64) (wrel wroot : Mat 64 64) (b : Row 64)
    (r : Fin 10000) (R : Fin 50000) (q : Fin 64)
    (hagg : ∀ j : Fin 64, agg (ix2 r j) = A (ix2 R j)) (hx : ∀ j : Fin 64, x (ix2 r j) = X (ix2 R j)) :
    layerAt agg x wrel wroot b r q = layerAt A X wrel wroot b R q := by
  unfold layerAt mulT
  simp only [hagg, hx]

/-! ## From the blocks to the array -/

variable (V : (c : Dev nD) → (b : Ref sig .tc) → Buf (Elt Ideal) ((c : Thread nD τ).loc b))

theorem zeroPair : (![0, 0] : Fin 2 → Nat) = fun _ => 0 := funext fun a => by fin_cases a <;> rfl
theorem zeroSingle : (![0] : Fin 1 → Nat) = fun _ => 0 := funext fun a => by fin_cases a; rfl

/-- The windows' block indices over the grid: at point t the two row windows and the output sit at block (t, 0);
    the weights and the bias at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every point writes the output's block back. -/
theorem flushes : ∀ t : Fin cfg0.N, (cfg0.win 5).flush t = true :=
  (by decide +kernel : ∀ t : Fin grid0.N, win0_5.flush t = true)

/-- The aggregates' tile at point t, row r, is the array's row 10000·t + r. -/
theorem tile_agg (c : Dev nD) (t : Fin cfg0.N) (r : Fin 10000) (j : Fin 64) (R : Fin 50000) (hR : R.val = t.val * 10000 + r.val) :
    (Conv0.tile V c 0 t : Vec Ideal S10000x64 .f32) (ix2 r j) = (V c main_v13 : Mat 50000 64) (ix2 R j) := by
  obtain ⟨e, e', -⟩ := idx_facts t
  show V c main_v13 (((cfg0.win 0).blk t).view.emb (ix2 r j)) = V c main_v13 (ix2 R j)
  refine congrArg _ (funext fun a => Fin.ext ?_)
  match a with
  | ⟨0, _⟩ => show win0_0.index t (0 : Fin 2) * 10000 + 1 * r.val = R.val; omega
  | ⟨1, _⟩ => show win0_0.index t (1 : Fin 2) * 64 + 1 * j.val = j.val; omega

/-- The node features' tile likewise. -/
theorem tile_x (c : Dev nD) (t : Fin cfg0.N) (r : Fin 10000) (j : Fin 64) (R : Fin 50000) (hR : R.val = t.val * 10000 + r.val) :
    (Conv0.tile V c 1 t : Vec Ideal S10000x64 .f32) (ix2 r j) = (V c main_arg0 : Mat 50000 64) (ix2 R j) := by
  obtain ⟨-, -, e, e', -⟩ := idx_facts t
  show V c main_arg0 (((cfg0.win 1).blk t).view.emb (ix2 r j)) = V c main_arg0 (ix2 R j)
  refine congrArg _ (funext fun a => Fin.ext ?_)
  match a with
  | ⟨0, _⟩ => show win0_1.index t (0 : Fin 2) * 10000 + 1 * r.val = R.val; omega
  | ⟨1, _⟩ => show win0_1.index t (1 : Fin 2) * 64 + 1 * j.val = j.val; omega

/-- The weights and the bias are staged whole: their tiles are the arrays. -/
theorem tile_wrel (c : Dev nD) (t : Fin cfg0.N) : (Conv0.tile V c 2 t : Vec Ideal S64x64 .f32) = (V c main_arg3 : Mat 64 64) := by
  obtain ⟨-, -, -, -, e, e', -⟩ := idx_facts t
  funext y
  show V c main_arg3 (((cfg0.win 2).blk t).view.emb y) = V c main_arg3 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem tile_wroot (c : Dev nD) (t : Fin cfg0.N) : (Conv0.tile V c 3 t : Vec Ideal S64x64 .f32) = (V c main_arg5 : Mat 64 64) := by
  obtain ⟨-, -, -, -, -, -, e, e', -⟩ := idx_facts t
  funext y
  show V c main_arg5 (((cfg0.win 3).blk t).view.emb y) = V c main_arg5 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem tile_bias (c : Dev nD) (t : Fin cfg0.N) : (Conv0.tile V c 4 t : Vec Ideal S64 .f32) = (V c main_arg4 : Row 64) := by
  obtain ⟨-, -, -, -, -, -, -, -, e, -⟩ := idx_facts t
  funext y
  show V c main_arg4 (((cfg0.win 4).blk t).view.emb y) = V c main_arg4 y
  refine congrArg _ (funext fun a => Fin.ext ?_)
  match a with
  | ⟨0, _⟩ => show win0_4.index t (0 : Fin 1) * 64 + 1 * (y 0).val = (y 0).val; omega

/-- What the call leaves in the output array: the activated step of the five arrays as the call finds them. -/
abbrev out (c : Dev nD) : Mat 50000 64 :=
  relu (layer (V c main_v13) (V c main_arg0) (V c main_arg3) (V c main_arg5) (V c main_arg4))

/-- What point t writes back is block t of that array: entry (r, q) of the stored value is the payload on the
    tiles, the tiles are rows 10000·t … of the arrays, and the block's entry (r, q) is the array's (10000·t + r, q). -/
theorem flushed_eq (c : Dev nD) (t : Fin cfg0.N) :
    (Conv0.dat (F := Ideal) V c).flushed 5 t = ((cfg0.win 5).blk t).view.read (Elt Ideal) (out V c) := by
  show (cfg0.win 5).cut (grid0.coords t) ((Conv0.dat (F := Ideal) V c).after 5 t) = _
  rw [Conv0.after_out]
  unfold Conv0.layerOut
  rw [View.canon_unit_zero zeroPair]
  simp only [View.ld_unit_zero (S := S10000x64) zeroPair, View.ld_unit_zero (S := S64x64) zeroPair, View.ld_unit_zero (S := S64) zeroSingle]
  rw [tile_wrel, tile_wroot, tile_bias]
  obtain ⟨-, -, -, -, -, -, -, -, -, e, e'⟩ := idx_facts t
  have hN : grid0.N = 5 := by decide
  have ht : t.val < 5 := hN ▸ t.isLt
  funext y
  obtain ⟨r, q, rfl⟩ : ∃ (r : Fin 10000) (q : Fin 64), y = ix2 r q := ⟨y 0, y 1, eq_ix2 y⟩
  have hr : r.val < 10000 := r.isLt
  have hemb : ((cfg0.win 5).blk t).view.emb (ix2 r q) = (ix2 (⟨t.val * 10000 + r.val, by omega⟩ : Fin 50000) q : S50000x64.Idx) := by
    funext a; apply Fin.ext
    match a with
    | ⟨0, _⟩ => show win0_5.index t (0 : Fin 2) * 10000 + 1 * r.val = t.val * 10000 + r.val; omega
    | ⟨1, _⟩ => show win0_5.index t (1 : Fin 2) * 64 + 1 * q.val = q.val; omega
  show k0_pay1 (F := Ideal) (Conv0.tile V c 0 t) (Conv0.tile V c 1 t) _ _ _ (ix2 r q) = out V c (((cfg0.win 5).blk t).view.emb (ix2 r q))
  rw [hemb]
  refine (pay_apply _ _ _ _ _ r q).trans ?_
  show _ = max (layerAt _ _ _ _ _ (⟨t.val * 10000 + r.val, by omega⟩ : Fin 50000) q) _
  refine congrArg (fun z => max z _) ?_
  exact layerAt_row _ _ _ _ _ _ _ r _ q (fun j => tile_agg V c t r j _ rfl) (fun j => tile_x V c t r j _ rfl)

/-- An index of the output array is in point t's block iff each coordinate is in the block's range on its axis. -/
theorem mem_blk (t : Fin cfg0.N) (i : S50000x64.Idx) :
    i ∈ ((cfg0.win 5).blk t).view.set
      ↔ ∀ a : Fin 2, win0_5.index t a * S10000x64.size a ≤ (i a).val ∧ (i a).val < win0_5.index t a * S10000x64.size a + S10000x64.size a := by
  show i ∈ ((View.whole main_v14).slice (win0_5.rect t)).set ↔ _
  rw [View.set_slice_whole, Rect.mem_set_unit]
  exact Iff.rfl

/-- Row r of the array is in the block of point r / 10000. -/
theorem cover (i : S50000x64.Idx) : ∃ t : Fin cfg0.N, (cfg0.win 5).flush t = true ∧ i ∈ ((cfg0.win 5).blk t).view.set := by
  have hrow : (i 0).val < 50000 := (i 0).isLt
  have hcol : (i 1).val < 64 := (i 1).isLt
  have hN : grid0.N = 5 := by decide
  obtain ⟨t, ht⟩ : ∃ t : Fin cfg0.N, t.val = (i 0).val / 10000 := ⟨⟨(i 0).val / 10000, by show _ < grid0.N; omega⟩, rfl⟩
  obtain ⟨-, -, -, -, -, -, -, -, -, e, e'⟩ := idx_facts t
  refine ⟨t, flushes t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY AFTER THE CALL: the activated graph-convolution step of the arrays the call found. -/
theorem result (c : Dev nD) :
    (Conv0.dat (F := Ideal) V c).arrAt 5 cfg0.N
      = Cert.GraphSpec.relu (Cert.GraphSpec.layer (V c main_v13) (V c main_arg0) (V c main_arg3) (V c main_arg5) (V c main_arg4)) :=
  (Conv0.dat (F := Ideal) V c).arrAt_eq_of_cover 5 (out V c) (fun t _ => flushed_eq V c t) cover

end Cert.KernelIdeal.Conv0Value

end
-- ==== Proof.ConvValue1.lean ====
/-
  One graph-convolution call of the program, read as a value. The call's proof data says what each grid point leaves
  in the output's staging buffer: one stored value, the payload of the five tiles loaded. Here that value is read
  index by index — entry (r, q) is max(·, 0) of (agg·W_relᵀ + x·W_rootᵀ + b) at (r, q) on the tiles —, the tiles are
  identified with rows of the arrays the call finds (point t holds rows 10000·t … 10000·t + 9999; the weights and the
  bias are held whole), and the five write-backs, which tile the 50000 rows, are put together: the output array ends
  as the activated step of the five arrays.
-/
import proofs.«410375_j5841155523230_3_alg».proof.Proof.ConvStep1
import proofs.«410375_j5841155523230_3_alg».proof.Proof.GraphSpec
import Idealize.ShloMosaic.Lib.Pipeline.Value
import Idealize.ShloMosaic.Lib.ValueLayout
import Idealize.ShloMosaic.PureOps.Ideal.Laws

set_option maxRecDepth 16384

noncomputable section

namespace Cert.KernelIdeal.Conv1Value

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators
open Cert.GraphSpec

/-! ## The two products at an index

Both products contract the second axis of a 10000×64 block against the first axis of a 64×64 matrix that the body has
transposed first; so entry (r, q) pairs row r of the block with row q of the matrix as it was loaded. The operand
indices of the contraction, axis by axis: -/

theorem lhs_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_contracted (i : S10000x64.Idx) (k : dot_S10000x64_S64x64_S10000x64_1_0_0_1_n_n.contr.Idx) :
    (dot_S10000x64_S64x64_S10000x64_1_0_0_1_n_n.lhsIdx i k 1).val = (k ⟨0, by decide⟩).val :=
  dot_S10000x64_S64x64_S10000x64_1_0_0_1_n_n.lhsIdx_val_of_single rfl i k
theorem rhs_contracted (i : S10000x64.Idx) (k : dot_S10000x64_S64x64_S10000x64_1_0_0_1_n_n.contr.Idx) :
    (dot_S10000x64_S64x64_S10000x64_1_0_0_1_n_n.rhsIdx i k 0).val = (k ⟨0, by decide⟩).val :=
  dot_S10000x64_S64x64_S10000x64_1_0_0_1_n_n.rhsIdx_val_of_single rfl i k
theorem rhs_column (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A 10000×64 block times a transposed 64×64 matrix, into the zero accumulator, at (r, q): the sum over j of the
    block's (r, j) times the matrix's (q, j). The sum over the contraction's index set is carried to a sum over
    Fin 64 along the bijection that reads the one contracted coordinate. -/
theorem prod_apply {φ : FTy} (a : FVec Ideal S10000x64 φ) (w : FVec Ideal S64x64 φ) (r : Fin 10000) (q : Fin 64) :
    matmul dot_S10000x64_S64x64_S10000x64_1_0_0_1_n_n none a (transpose S64x64 [1, 0] w transposes_S64x64_p1_0_S64x64)
        (constant (F := Ideal) S10000x64 .f32 0x00000000#32) (ix2 r q)
      = ∑ j : Fin 64, a (ix2 r j) * w (ix2 q j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q) ((contrEquiv1 dot_S10000x64_S64x64_S10000x64_1_0_0_1_n_n 64 rfl rfl).symm k) = ix2 r k :=
    funext fun a => Fin.ext (by
      match a with
      | ⟨0, _⟩ => exact lhs_row _ _
      | ⟨1, _⟩ => exact (lhs_contracted _ _).trans hk)
  have er : dot_S10000x64_S64x64_S10000x64_1_0_0_1_n_n.rhsIdx (ix2 r q) ((contrEquiv1 dot_S10000x64_S64x64_S10000x64_1_0_0_1_n_n 64 rfl rfl).symm k) = ix2 k q :=
    funext fun a => Fin.ext (by
      match a with
      | ⟨0, _⟩ => exact (rhs_contracted _ _).trans hk
      | ⟨1, _⟩ => exact rhs_column _ _)
  rw [el, er, transpose_ix2_apply]

/-! ## The payload at an index -/

/-- The body's one stored value at (r, q): max(·, 0) of the step's entry (r, q) on the five loaded blocks. A cast
    to the same shape and the change of format are the identity on extended reals; the bias is cast to one row and
    that row repeated, so it is read at q; the two sums are the products above. -/
theorem pay_apply (agg x : Vec Ideal S10000x64 .f32) (wrel wroot : Vec Ideal S64x64 .f32) (b : Vec Ideal S64 .f32)
    (r : Fin 10000) (q : Fin 64) :
    (k1_pay1 (F := Ideal) agg x wrel wroot b) (ix2 r q)
      = max (layerAt (n := 10000) agg x wrel wroot b r q) (Ideal.ofBits .f32 0x00000000#32) := by
  unfold k1_pay1
  simp only [shapeCast_self]
  rw [maximumf_apply, addf_apply, addf_apply, broadcast_apply, prod_apply, prod_apply, broadcastTo_1b_ab_apply, shapeCast_a_1a_apply]
  rfl

/-- The step's entry depends on the two row blocks only through the row it reads: blocks that agree with whole
    arrays on that row give the arrays' entry. -/
theorem layerAt_row (agg x : Mat 10000 64) (A X : Mat 50000 64) (wrel wroot : Mat 64 64) (b : Row 64)
    (r : Fin 10000) (R : Fin 50000) (q : Fin 64)
    (hagg : ∀ j : Fin 64, agg (ix2 r j) = A (ix2 R j)) (hx : ∀ j : Fin 64, x (ix2 r j) = X (ix2 R j)) :
    layerAt agg x wrel wroot b r q = layerAt A X wrel wroot b R q := by
  unfold layerAt mulT
  simp only [hagg, hx]

/-! ## From the blocks to the array -/

variable (V : (c : Dev nD) → (b : Ref sig .tc) → Buf (Elt Ideal) ((c : Thread nD τ).loc b))

theorem zeroPair : (![0, 0] : Fin 2 → Nat) = fun _ => 0 := funext fun a => by fin_cases a <;> rfl
theorem zeroSingle : (![0] : Fin 1 → Nat) = fun _ => 0 := funext fun a => by fin_cases a; rfl

/-- The windows' block indices over the grid: at point t the two row windows and the output sit at block (t, 0);
    the weights and the bias at block 0 throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Every point writes the output's block back. -/
theorem flushes : ∀ t : Fin cfg1.N, (cfg1.win 5).flush t = true :=
  (by decide +kernel : ∀ t : Fin grid1.N, win1_5.flush t = true)

/-- The aggregates' tile at point t, row r, is the array's row 10000·t + r. -/
theorem tile_agg (c : Dev nD) (t : Fin cfg1.N) (r : Fin 10000) (j : Fin 64) (R : Fin 50000) (hR : R.val = t.val * 10000 + r.val) :
    (Conv1.tile V c 0 t : Vec Ideal S10000x64 .f32) (ix2 r j) = (V c main_v24 : Mat 50000 64) (ix2 R j) := by
  obtain ⟨e, e', -⟩ := idx_facts t
  show V c main_v24 (((cfg1.win 0).blk t).view.emb (ix2 r j)) = V c main_v24 (ix2 R j)
  refine congrArg _ (funext fun a => Fin.ext ?_)
  match a with
  | ⟨0, _⟩ => show win1_0.index t (0 : Fin 2) * 10000 + 1 * r.val = R.val; omega
  | ⟨1, _⟩ => show win1_0.index t (1 : Fin 2) * 64 + 1 * j.val = j.val; omega

/-- The node features' tile likewise. -/
theorem tile_x (c : Dev nD) (t : Fin cfg1.N) (r : Fin 10000) (j : Fin 64) (R : Fin 50000) (hR : R.val = t.val * 10000 + r.val) :
    (Conv1.tile V c 1 t : Vec Ideal S10000x64 .f32) (ix2 r j) = (V c main_v14 : Mat 50000 64) (ix2 R j) := by
  obtain ⟨-, -, e, e', -⟩ := idx_facts t
  show V c main_v14 (((cfg1.win 1).blk t).view.emb (ix2 r j)) = V c main_v14 (ix2 R j)
  refine congrArg _ (funext fun a => Fin.ext ?_)
  match a with
  | ⟨0, _⟩ => show win1_1.index t (0 : Fin 2) * 10000 + 1 * r.val = R.val; omega
  | ⟨1, _⟩ => show win1_1.index t (1 : Fin 2) * 64 + 1 * j.val = j.val; omega

/-- The weights and the bias are staged whole: their tiles are the arrays. -/
theorem tile_wrel (c : Dev nD) (t : Fin cfg1.N) : (Conv1.tile V c 2 t : Vec Ideal S64x64 .f32) = (V c main_arg6 : Mat 64 64) := by
  obtain ⟨-, -, -, -, e, e', -⟩ := idx_facts t
  funext y
  show V c main_arg6 (((cfg1.win 2).blk t).view.emb y) = V c main_arg6 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem tile_wroot (c : Dev nD) (t : Fin cfg1.N) : (Conv1.tile V c 3 t : Vec Ideal S64x64 .f32) = (V c main_arg8 : Mat 64 64) := by
  obtain ⟨-, -, -, -, -, -, e, e', -⟩ := idx_facts t
  funext y
  show V c main_arg8 (((cfg1.win 3).blk t).view.emb y) = V c main_arg8 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

theorem tile_bias (c : Dev nD) (t : Fin cfg1.N) : (Conv1.tile V c 4 t : Vec Ideal S64 .f32) = (V c main_arg7 : Row 64) := by
  obtain ⟨-, -, -, -, -, -, -, -, e, -⟩ := idx_facts t
  funext y
  show V c main_arg7 (((cfg1.win 4).blk t).view.emb y) = V c main_arg7 y
  refine congrArg _ (funext fun a => Fin.ext ?_)
  match a with
  | ⟨0, _⟩ => show win1_4.index t (0 : Fin 1) * 64 + 1 * (y 0).val = (y 0).val; omega

/-- What the call leaves in the output array: the activated step of the five arrays as the call finds them. -/
abbrev out (c : Dev nD) : Mat 50000 64 :=
  relu (layer (V c main_v24) (V c main_v14) (V c main_arg6) (V c main_arg8) (V c main_arg7))

/-- What point t writes back is block t of that array: entry (r, q) of the stored value is the payload on the
    tiles, the tiles are rows 10000·t … of the arrays, and the block's entry (r, q) is the array's (10000·t + r, q). -/
theorem flushed_eq (c : Dev nD) (t : Fin cfg1.N) :
    (Conv1.dat (F := Ideal) V c).flushed 5 t = ((cfg1.win 5).blk t).view.read (Elt Ideal) (out V c) := by
  show (cfg1.win 5).cut (grid1.coords t) ((Conv1.dat (F := Ideal) V c).after 5 t) = _
  rw [Conv1.after_out]
  unfold Conv1.layerOut
  rw [View.canon_unit_zero zeroPair]
  simp only [View.ld_unit_zero (S := S10000x64) zeroPair, View.ld_unit_zero (S := S64x64) zeroPair, View.ld_unit_zero (S := S64) zeroSingle]
  rw [tile_wrel, tile_wroot, tile_bias]
  obtain ⟨-, -, -, -, -, -, -, -, -, e, e'⟩ := idx_facts t
  have hN : grid1.N = 5 := by decide
  have ht : t.val < 5 := hN ▸ t.isLt
  funext y
  obtain ⟨r, q, rfl⟩ : ∃ (r : Fin 10000) (q : Fin 64), y = ix2 r q := ⟨y 0, y 1, eq_ix2 y⟩
  have hr : r.val < 10000 := r.isLt
  have hemb : ((cfg1.win 5).blk t).view.emb (ix2 r q) = (ix2 (⟨t.val * 10000 + r.val, by omega⟩ : Fin 50000) q : S50000x64.Idx) := by
    funext a; apply Fin.ext
    match a with
    | ⟨0, _⟩ => show win1_5.index t (0 : Fin 2) * 10000 + 1 * r.val = t.val * 10000 + r.val; omega
    | ⟨1, _⟩ => show win1_5.index t (1 : Fin 2) * 64 + 1 * q.val = q.val; omega
  show k1_pay1 (F := Ideal) (Conv1.tile V c 0 t) (Conv1.tile V c 1 t) _ _ _ (ix2 r q) = out V c (((cfg1.win 5).blk t).view.emb (ix2 r q))
  rw [hemb]
  refine (pay_apply _ _ _ _ _ r q).trans ?_
  show _ = max (layerAt _ _ _ _ _ (⟨t.val * 10000 + r.val, by omega⟩ : Fin 50000) q) _
  refine congrArg (fun z => max z _) ?_
  exact layerAt_row _ _ _ _ _ _ _ r _ q (fun j => tile_agg V c t r j _ rfl) (fun j => tile_x V c t r j _ rfl)

/-- An index of the output array is in point t's block iff each coordinate is in the block's range on its axis. -/
theorem mem_blk (t : Fin cfg1.N) (i : S50000x64.Idx) :
    i ∈ ((cfg1.win 5).blk t).view.set
      ↔ ∀ a : Fin 2, win1_5.index t a * S10000x64.size a ≤ (i a).val ∧ (i a).val < win1_5.index t a * S10000x64.size a + S10000x64.size a := by
  show i ∈ ((View.whole main_v25).slice (win1_5.rect t)).set ↔ _
  rw [View.set_slice_whole, Rect.mem_set_unit]
  exact Iff.rfl

/-- Row r of the array is in the block of point r / 10000. -/
theorem cover (i : S50000x64.Idx) : ∃ t : Fin cfg1.N, (cfg1.win 5).flush t = true ∧ i ∈ ((cfg1.win 5).blk t).view.set := by
  have hrow : (i 0).val < 50000 := (i 0).isLt
  have hcol : (i 1).val < 64 := (i 1).isLt
  have hN : grid1.N = 5 := by decide
  obtain ⟨t, ht⟩ : ∃ t : Fin cfg1.N, t.val = (i 0).val / 10000 := ⟨⟨(i 0).val / 10000, by show _ < grid1.N; omega⟩, rfl⟩
  obtain ⟨-, -, -, -, -, -, -, -, -, e, e'⟩ := idx_facts t
  refine ⟨t, flushes t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY AFTER THE CALL: the activated graph-convolution step of the arrays the call found. -/
theorem result (c : Dev nD) :
    (Conv1.dat (F := Ideal) V c).arrAt 5 cfg1.N
      = Cert.GraphSpec.relu (Cert.GraphSpec.layer (V c main_v24) (V c main_v14) (V c main_arg6) (V c main_arg8) (V c main_arg7)) :=
  (Conv1.dat (F := Ideal) V c).arrAt_eq_of_cover 5 (out V c) (fun t _ => flushed_eq V c t) cover

end Cert.KernelIdeal.Conv1Value

end
-- ==== Proof.LibBlockedSum.lean ====
/-
  Sums cut into blocks.

  A sum over `n` terms, read in `B` blocks of `T` consecutive terms with `n ≤ B * T`, where the positions at or
  past `n` (the overhang of the last block) contribute the zero of the monoid.  The bookkeeping is done once on
  functions of a natural number: `ext0 g` extends `g : Fin n → α` by zero, the sum of `B` blocks of `T` is the sum
  over `range (B * T)` (`sum_blocks_range`), and the zero tail is dropped (`sum_range_ext0`).  `sum_blocks` is the
  statement over `Fin B` and `Fin T`; `sum_blocks_partial` / `sum_blocks_succ` are the partial sums over the first
  `k` blocks, the shape an induction over the block index wants.  Last, the masked product: a term whose first factor
  is masked to zero past `n` does not depend on its second factor there (`zero_mul` in the extended reals), so a
  blocked sum of masked products is the plain sum of products (`sum_blocks_masked_mul`).
-/
import Mathlib.Algebra.BigOperators.Fin
import Mathlib.Algebra.BigOperators.Group.Finset.Basic
import Mathlib.Data.EReal.Operations

open scoped BigOperators
open Finset

namespace Cert.LibBlockedSum

variable {α : Type*} [AddCommMonoid α]

/-- `g` extended by zero: `g ⟨i, _⟩` at `i < n`, zero from `n` on. -/
def ext0 {n : ℕ} (g : Fin n → α) (i : ℕ) : α := if h : i < n then g ⟨i, h⟩ else 0

/-- Below `n` the extension is `g`. -/
theorem ext0_of_lt {n : ℕ} (g : Fin n → α) {i : ℕ} (h : i < n) : ext0 g i = g ⟨i, h⟩ := dif_pos h

/-- From `n` on the extension is zero. -/
theorem ext0_of_le {n : ℕ} (g : Fin n → α) {i : ℕ} (h : n ≤ i) : ext0 g i = 0 := dif_neg (Nat.not_lt.mpr h)

/-- The extension at an index of `Fin n`. -/
theorem ext0_val {n : ℕ} (g : Fin n → α) (p : Fin n) : ext0 g p.val = g p := by
  rw [ext0_of_lt g p.isLt]

/-- One more block: the sum over `range ((k + 1) * T)` is the sum over `range (k * T)` plus block `k`. -/
theorem sum_range_succ_block (G : ℕ → α) (T k : ℕ) :
    ∑ i ∈ range ((k + 1) * T), G i = ∑ i ∈ range (k * T), G i + ∑ q ∈ range T, G (k * T + q) := by
  rw [Nat.succ_mul, sum_range_add]

/-- The sum of the first `k` blocks of `T` terms is the sum over `range (k * T)`. -/
theorem sum_blocks_range (G : ℕ → α) (T k : ℕ) :
    ∑ kk ∈ range k, ∑ q ∈ range T, G (kk * T + q) = ∑ i ∈ range (k * T), G i := by
  induction k with
  | zero => simp
  | succ k ih => rw [sum_range_succ, ih, sum_range_succ_block]

/-- A function that vanishes from `n` on has the same sum over any longer range. -/
theorem sum_range_of_zero_tail (G : ℕ → α) {n N : ℕ} (hN : n ≤ N) (hG : ∀ i, n ≤ i → G i = 0) :
    ∑ i ∈ range N, G i = ∑ i ∈ range n, G i := by
  obtain ⟨d, rfl⟩ := Nat.exists_eq_add_of_le hN
  rw [sum_range_add, sum_eq_zero (s := range d) (fun i _ => hG (n + i) (Nat.le_add_right n i)), add_zero]

/-- The extension by zero summed over a range that reaches `n` is the sum of `g`. -/
theorem sum_range_ext0 {n N : ℕ} (g : Fin n → α) (hN : n ≤ N) :
    ∑ i ∈ range N, ext0 g i = ∑ p : Fin n, g p := by
  rw [sum_range_of_zero_tail (ext0 g) hN (fun i hi => ext0_of_le g hi), Finset.sum_range]
  exact Finset.sum_congr rfl (fun p _ => ext0_val g p)

/-- The extension by zero summed over a range SHORT of `n` is the sum of `g` over the indices below the bound. -/
theorem sum_range_ext0_lt {n N : ℕ} (g : Fin n → α) (hN : N ≤ n) :
    ∑ i ∈ range N, ext0 g i = ∑ p ∈ univ.filter (fun p : Fin n => p.val < N), g p := by
  rw [Finset.sum_range, Finset.sum_filter]
  have h : ∀ i : Fin N, ext0 g i.val = g (Fin.castLE hN i) := fun i => ext0_of_lt g (lt_of_lt_of_le i.isLt hN)
  rw [Finset.sum_congr rfl (fun i _ => h i)]
  -- both sides are the sum of `ext0 g` cut at `N`, over `range n`
  have e1 : ∑ i : Fin N, g (Fin.castLE hN i) = ∑ i ∈ range N, ext0 g i := by
    rw [Finset.sum_range]; exact Finset.sum_congr rfl (fun i _ => (h i).symm)
  have e2 : ∑ p : Fin n, (if p.val < N then g p else 0) = ∑ i ∈ range n, (if i < N then ext0 g i else 0) := by
    rw [Finset.sum_range]; exact Finset.sum_congr rfl (fun p _ => by rw [ext0_val])
  rw [e1, e2]
  obtain ⟨d, rfl⟩ := Nat.exists_eq_add_of_le hN
  rw [sum_range_add]
  have z : ∑ x ∈ range d, (if N + x < N then ext0 g (N + x) else 0) = 0 :=
    sum_eq_zero (fun x _ => if_neg (by omega))
  rw [z, add_zero]
  exact Finset.sum_congr rfl (fun i hi => (if_pos (mem_range.mp hi)).symm)

/-- **A sum in blocks.**  With `n ≤ B * T`, the sum over `B` blocks of `T` lanes of the term at position
    `kk * T + q`, zero where that position is at or past `n`, is the sum of all `n` terms. -/
theorem sum_blocks {n B T : ℕ} (hn : n ≤ B * T) (g : Fin n → α) :
    ∑ kk : Fin B, ∑ q : Fin T, (if h : kk.val * T + q.val < n then g ⟨kk.val * T + q.val, h⟩ else 0)
      = ∑ p : Fin n, g p := by
  have h1 : ∀ kk : Fin B, ∑ q : Fin T, (if h : kk.val * T + q.val < n then g ⟨kk.val * T + q.val, h⟩ else 0)
      = ∑ q ∈ range T, ext0 g (kk.val * T + q) := fun kk => by
    rw [Finset.sum_range]; rfl
  rw [Finset.sum_congr rfl (fun kk _ => h1 kk),
    ← Finset.sum_range (fun kk => ∑ q ∈ range T, ext0 g (kk * T + q)), sum_blocks_range, sum_range_ext0 g hn]

/-- **The first `k` blocks.**  The partial sum over blocks `0 … k - 1` is the sum of the terms below `k * T` (and
    below `n`): the extension by zero summed over `range (k * T)`. -/
theorem sum_blocks_partial {n T : ℕ} (g : Fin n → α) (k : ℕ) :
    ∑ kk ∈ range k, ∑ q : Fin T, (if h : kk * T + q.val < n then g ⟨kk * T + q.val, h⟩ else 0)
      = ∑ i ∈ range (k * T), ext0 g i := by
  have h1 : ∀ kk : ℕ, ∑ q : Fin T, (if h : kk * T + q.val < n then g ⟨kk * T + q.val, h⟩ else 0)
      = ∑ q ∈ range T, ext0 g (kk * T + q) := fun kk => by
    rw [Finset.sum_range]; rfl
  rw [Finset.sum_congr rfl (fun kk _ => h1 kk), sum_blocks_range]

/-- **The induction step over the block index**: an accumulator that holds the terms below `k * T` and receives
    block `k` holds the terms below `(k + 1) * T`. -/
theorem sum_blocks_succ {n T : ℕ} (g : Fin n → α) (k : ℕ) (acc : α)
    (hacc : acc = ∑ i ∈ range (k * T), ext0 g i) :
    acc + ∑ q : Fin T, (if h : k * T + q.val < n then g ⟨k * T + q.val, h⟩ else 0)
      = ∑ i ∈ range ((k + 1) * T), ext0 g i := by
  have h1 : ∑ q : Fin T, (if h : k * T + q.val < n then g ⟨k * T + q.val, h⟩ else 0)
      = ∑ q ∈ range T, ext0 g (k * T + q) := by
    rw [Finset.sum_range]; rfl
  rw [hacc, h1, sum_range_succ_block]

/-- The accumulator before any block: the empty sum. -/
theorem sum_blocks_zero {n T : ℕ} (g : Fin n → α) : (0 : α) = ∑ i ∈ range (0 * T), ext0 g i := by
  simp

/-- After the last block (`n ≤ B * T`) the accumulator is the whole sum. -/
theorem sum_blocks_last {n B T : ℕ} (hn : n ≤ B * T) (g : Fin n → α) :
    ∑ i ∈ range (B * T), ext0 g i = ∑ p : Fin n, g p := sum_range_ext0 g hn

/-! ## Masked products in the extended reals -/

/-- In the extended reals zero times anything is zero: `0 * ⊤ = 0 * ⊥ = 0` by Mathlib's convention. -/
theorem ereal_zero_mul (d : EReal) : (0 : EReal) * d = 0 := zero_mul d

/-- A factor masked to zero makes the product zero whatever the other factor is. -/
theorem ereal_ite_zero_mul (c : Prop) [Decidable c] (a d : EReal) :
    (if c then a else 0) * d = if c then a * d else 0 := by
  split_ifs
  · rfl
  · exact zero_mul d

/-- The same with the mask as a dependent `if`. -/
theorem ereal_dite_zero_mul (c : Prop) [Decidable c] (a : c → EReal) (d : EReal) :
    (if h : c then a h else 0) * d = if h : c then a h * d else 0 := by
  split_ifs
  · rfl
  · exact zero_mul d

/-- **A blocked sum of masked products.**  With `n ≤ B * T`: the first factor is `a` at position `kk * T + q`,
    masked to zero at or past `n`; the second factor `d kk q` is ANY value past `n` and `w` at the position below
    `n`.  The blocked sum is `∑ₚ a p * w p`. -/
theorem sum_blocks_masked_mul {n B T : ℕ} (hn : n ≤ B * T) (a w : Fin n → EReal) (d : Fin B → Fin T → EReal)
    (hd : ∀ (kk : Fin B) (q : Fin T) (h : kk.val * T + q.val < n), d kk q = w ⟨kk.val * T + q.val, h⟩) :
    ∑ kk : Fin B, ∑ q : Fin T, (if h : kk.val * T + q.val < n then a ⟨kk.val * T + q.val, h⟩ else 0) * d kk q
      = ∑ p : Fin n, a p * w p := by
  rw [← sum_blocks hn (fun p => a p * w p)]
  refine Finset.sum_congr rfl (fun kk _ => Finset.sum_congr rfl (fun q _ => ?_))
  rw [ereal_dite_zero_mul]
  by_cases h : kk.val * T + q.val < n
  · rw [dif_pos h, dif_pos h, hd kk q h]
  · rw [dif_neg h, dif_neg h]

end Cert.LibBlockedSum
-- ==== Proof.PoolValue.lean ====
/-
  What the third call leaves in its two output arrays, at the ideal values, index by index.

  The call walks ten tiles of 5000 nodes.  For a tile, y = agg·W_relᵀ + x·W_rootᵀ + b is the third graph-convolution
  step of the tile's rows, and onehot(r, g) is 1 when row r's graph id, read as a signed integer, is g and 0 otherwise
  (an id that is negative, or 128 and above, is no column's number, so its row is in no graph's sum).  The carried
  128×64 accumulator gains onehotᵀ·y per tile: entry (g, f) gains the sum of y(r, f) over the tile's rows r with id g.
  In the extended reals 0·y = 0 for every y, infinite ones included, so the masked product is exactly "y(r, f) if the id
  is g, else 0" and no finiteness is needed.  Tile t holds rows 5000·t … 5000·t + 4999 of the arrays, so by induction on
  the point the accumulator after point n holds, at (g, f), the terms of the nodes below 5000·(n + 1); after the tenth
  point that is the whole per-graph sum.  The last point stores the accumulator over max(count, 1) as the pooled output
  and its image under W_linᵀ plus b_lin as the second output; both outputs have one block, the whole array, written back
  at the last point only.  Hence the two arrays after the call are the specification's mean pool and its readout.
-/
import proofs.«410375_j5841155523230_3_alg».proof.Proof.PoolStep
import proofs.«410375_j5841155523230_3_alg».proof.Proof.GraphSpec
import proofs.«410375_j5841155523230_3_alg».proof.Proof.LibBlockedSum
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## Words: a graph id against a column number -/

/-- For a column number `g` below 128, the 32-bit word of `g` is the id `w` exactly when `w`, read as a signed
    integer, is `g`: a negative id, or one from 128 on, is no column's word. -/
theorem word_eq_iff (w : BitVec 32) (g : Nat) (hg : g < 128) : BitVec.ofNat 32 g = w ↔ w.toInt = (g : Int) := by
  constructor
  · rintro rfl
    rw [BitVec.toInt_eq_toNat_cond, BitVec.toNat_ofNat, Nat.mod_eq_of_lt (by omega : g < 2 ^ 32)]
    split <;> omega
  · intro h
    apply BitVec.eq_of_toNat_eq
    rw [BitVec.toNat_ofNat, Nat.mod_eq_of_lt (by omega : g < 2 ^ 32)]
    rw [BitVec.toInt_eq_toNat_cond] at h
    have := w.isLt
    split at h <;> omega

/-- The comparison bit, widened to 32 bits and read as a signed integer in the extended reals, is the indicator of
    "the id is column `g`". -/
theorem indicator_word (w : BitVec 32) (g : Nat) (hg : g < 128) :
    (FloatOps.sitofp (F := Ideal) .f32 ((IntOp.cmpi .eq (BitVec.ofNat 32 g) w).setWidth 32) : EReal)
      = if w.toInt = (g : Int) then 1 else 0 := by
  show ((((IntOp.cmpi .eq (BitVec.ofNat 32 g) w).setWidth 32).toInt : ℝ) : EReal) = _
  by_cases h : w.toInt = (g : Int)
  · rw [if_pos h, IntOp.cmpi_eq.mpr ((word_eq_iff w g hg).mpr h)]
    have : ((1#1 : BitVec 1).setWidth 32).toInt = 1 := by decide
    rw [this]; simp
  · rw [if_neg h]
    have hne : ¬IntOp.cmpi .eq (BitVec.ofNat 32 g) w = 1#1 := fun e => h ((word_eq_iff w g hg).mp (IntOp.cmpi_eq.mp e))
    rw [eq_zero_of_ne_one hne]
    have : ((0#1 : BitVec 1).setWidth 32).toInt = 0 := by decide
    rw [this]; simp

/-! ## The three products, read at an index

Each `tpu.matmul` contracts ONE axis of each operand, so its contraction index is a single coordinate; the four
lemmas per product say which coordinate of the output index or of the contraction index each operand axis reads. -/

theorem lhs_conv_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_conv_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_conv_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_conv_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A tile times a 64×64 matrix, into the zero splat: entry (p, q) is the sum over k of a(p, k)·m(k, q). -/
theorem conv_matmul_apply {φ₁ φ₂ : FTy} (a : FVec Ideal S5000x64 φ₁) (m : FVec Ideal S64x64 φ₂) (p : Fin 5000) (q : Fin 64) :
    matmul dot_S5000x64_S64x64_S5000x64_1_0_0_1_n_n none a m (constant (F := Ideal) S5000x64 .f32 0x00000000#32) (ix2 p q)
      = ∑ k : Fin 64, a (ix2 p k) * m (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_conv_0 _ _
    | ⟨1, _⟩ => exact (lhs_conv_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_conv_0 _ _).trans hk
    | ⟨1, _⟩ => exact rhs_conv_1 _ _)
  rw [el, er]

theorem lhs_pool_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
theorem lhs_pool_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
theorem rhs_pool_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
theorem rhs_pool_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- The pooling product contracts the ROW axis of both operands: entry (g, f) is the sum over the tile's rows r of
    h(r, g)·y(r, f). -/
theorem pool_matmul_apply {φ₁ φ₂ : FTy} (prec : Option ContractPrecision) (h : FVec Ideal S5000x128 φ₁) (y : FVec Ideal S5000x64 φ₂)
    (g : Fin 128) (f : Fin 64) :
    matmul dot_S5000x128_S5000x64_S128x64_0_0_1_1_n_n prec h y (constant (F := Ideal) S128x64 .f32 0x00000000#32) (ix2 g f)
      = ∑ r : Fin 5000, h (ix2 r g) * y (ix2 r f) := by
  simp only [matmul]
  rw [Ideal.matmul_constant_zero_apply, ← Equiv.sum_comp (contrEquiv1 dot_S5000x128_S5000x64_S128x64_0_0_1_1_n_n 5000 rfl rfl).symm]
  refine Finset.sum_congr rfl fun k _ => ?_
  have hk := contrEquiv1_symm_val dot_S5000x128_S5000x64_S128x64_0_0_1_1_n_n 5000 rfl rfl k
  have el : dot_S5000x128_S5000x64_S128x64_0_0_1_1_n_n.lhsIdx (ix2 g f) ((contrEquiv1 dot_S5000x128_S5000x64_S128x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x128_S5000x64_S128x64_0_0_1_1_n_n.rhsIdx (ix2 g f) ((contrEquiv1 dot_S5000x128_S5000x64_S128x64_0_0_1_1_n_n 5000 rfl rfl).symm k) = ix2 k f := funext fun a => Fin.ext (by
    match a with
    | ⟨0, _⟩ => exact (rhs_pool_0 _ _).trans hk
    | ⟨1, _⟩ => exact rhs_pool_1 _ _)
  rw [el, er]

theorem lhs_lin_0 (i : S128x10.Idx) (q : dot_S128x64_S64x10_S128x10_1_0_0_1_n_n.contr.Idx) :
    (dot_S128x64_S64x10_S128x10_1_0_0_1_n_n.lhsIdx i q 0).val = (i 0).val := by
  unfold DotDims.lhsIdx
  rw [dif_neg (show ¬(0 : Fin S128x64.rank) ∈ dot_S128x64_S64x10_S128x10_1_0_0_1_n_n.lhsBatch by decide), dif_pos (show (0 : Fin S128x64.rank) ∈ dot_S128x64_S64x10_S128x10_1_0_0_1_n_n.lhsNonContracting by decide)]
  rfl
theorem lhs_lin_1 (i : S128x10.Idx) (q : dot_S128x64_S64x10_S128x10_1_0_0_1_n_n.contr.Idx) :
    (dot_S128x64_S64x10_S128x10_1_0_0_1_n_n.lhsIdx i q 1).val = (q ⟨0, by decide⟩).val :=
  dot_S128x64_S64x10_S128x10_1_0_0_1_n_n.lhsIdx_val_of_single rfl i q
theorem rhs_lin_0 (i : S128x10.Idx) (q : dot_S128x64_S64x10_S128x10_1_0_0_1_n_n.contr.Idx) :
    (dot_S128x64_S64x10_S128x10_1_0_0_1_n_n.rhsIdx i q 0).val = (q ⟨0, by decide⟩).val :=
  dot_S128x64_S64x10_S128x10_1_0_0_1_n_n.rhsIdx_val_of_single rfl i q
theorem rhs_lin_1 (i : S128x10.Idx) (q : dot_S128x64_S64x10_S128x10_1_0_0_1_n_n.contr.Idx) :
    (dot_S128x64_S64x10_S128x10_1_0_0_1_n_n.rhsIdx i q 1).val = (i 1).val := by
  unfold DotDims.rhsIdx
  rw [dif_neg (show ¬(1 : Fin S64x10.rank) ∈ dot_S128x64_S64x10_S128x10_1_0_0_1_n_n.rhsBatch by decide), dif_pos (show (1 : Fin S64x10.rank) ∈ dot_S128x64_S64x10_S128x10_1_0_0_1_n_n.rhsNonContracting by decide)]
  rfl

/-- The pooled rows times a 64×10 matrix, into the zero splat: entry (g, o) is the sum over k of p(g, k)·m(k, o). -/
theorem lin_matmul_apply {φ₁ φ₂ : FTy} (p : FVec Ideal S128x64 φ₁) (m : FVec Ideal S64x10 φ₂) (g : Fin 128) (o : Fin 10) :
    matmul dot_S128x64_S64x10_S128x10_1_0_0_1_n_n none p m (constant (F := Ideal) S128x10 .f32 0x00000000#32) (ix2 g o)
      = ∑ k : Fin 64, p (ix2 g k) * m (ix2 k o) := by
  simp only [matmul]
  rw [Ideal.matmul_constant_zero_apply, ← Equiv.sum_comp (contrEquiv1 dot_S128x64_S64x10_S128x10_1_0_0_1_n_n 64 rfl rfl).symm]
  refine Finset.sum_congr rfl fun k _ => ?_
  have hk := contrEquiv1_symm_val dot_S128x64_S64x10_S128x10_1_0_0_1_n_n 64 rfl rfl k
  have el : dot_S128x64_S64x10_S128x10_1_0_0_1_n_n.lhsIdx (ix2 g o) ((contrEquiv1 dot_S128x64_S64x10_S128x10_1_0_0_1_n_n 64 rfl rfl).symm k) = ix2 g k := funext fun a => Fin.ext (by
    match a with
    | ⟨0, _⟩ => exact lhs_lin_0 _ _
    | ⟨1, _⟩ => exact (lhs_lin_1 _ _).trans hk)
  have er : dot_S128x64_S64x10_S128x10_1_0_0_1_n_n.rhsIdx (ix2 g o) ((contrEquiv1 dot_S128x64_S64x10_S128x10_1_0_0_1_n_n 64 rfl rfl).symm k) = ix2 k o := funext fun a => Fin.ext (by
    match a with
    | ⟨0, _⟩ => exact (rhs_lin_0 _ _).trans hk
    | ⟨1, _⟩ => exact rhs_lin_1 _ _)
  rw [el, er]

/-! ## The payloads in closed form

The generated payloads are chains of named intermediate values; unfolded they are the terms below (by `rfl`), which are
then read at an index one operation at a time. -/

/-- One tile's convolution, as the payload spells it: (agg·W_relᵀ + x·W_rootᵀ) + b, the two products into zero splats,
    the weight matrices transposed, the bias a row broadcast down the tile. -/
def convTile (x0 x1 : Vec Ideal S5000x64 .f32) (x2 x3 : Vec Ideal S64x64 .f32) (x4 : Vec Ideal S64 .f32) : FVec Ideal S5000x64 .f32 :=
  addf (addf
      (matmul dot_S5000x64_S64x64_S5000x64_1_0_0_1_n_n none (truncf .bf16 (shapeCast S5000x64 x0 shapeCasts_S5000x64_S5000x64) bitsLt_bf16_f32)
        (transpose S64x64 [1, 0] (truncf .bf16 x2 bitsLt_bf16_f32) transposes_S64x64_p1_0_S64x64) (constant S5000x64 .f32 0x00000000#32))
      (matmul dot_S5000x64_S64x64_S5000x64_1_0_0_1_n_n none (truncf .bf16 (shapeCast S5000x64 x1 shapeCasts_S5000x64_S5000x64) bitsLt_bf16_f32)
        (transpose S64x64 [1, 0] (truncf .bf16 x3 bitsLt_bf16_f32) transposes_S64x64_p1_0_S64x64) (constant S5000x64 .f32 0x00000000#32)))
    (broadcastTo S5000x64 (shapeCast S1x64 x4 shapeCasts_S64_S1x64) broadcasts_S1x64_S5000x64)

/-- The one-hot matrix of a tile's graph ids: entry (r, g) compares column number g with row r's id, widens the bit and
    converts it to a float. -/
def oneHot (x5 : Vec Ideal S5000x1 .i32) : FVec Ideal S5000x128 .f32 :=
  sitofp .f32 (extui 32 (cmpi .eq (iota .tc S5000x128 32 [1] iota_S5000x128_d1_w32)
    (broadcastTo S5000x128 (shapeCast S5000x1 x5 shapeCasts_S5000x1_S5000x1) broadcasts_S5000x1_S5000x128)) natLt_1_32)

theorem pay4_eq (x0 x1 : Vec Ideal S5000x64 .f32) (x2 x3 : Vec Ideal S64x64 .f32) (x4 : Vec Ideal S64 .f32) (x5 : Vec Ideal S5000x1 .i32)
    (s : Vec Ideal S128x64 .f32) :
    k2_pay4 (F := Ideal) x0 x1 x2 x3 x4 x5 s
      = shapeCast S128x64 (addf s (matmul dot_S5000x128_S5000x64_S128x64_0_0_1_1_n_n (some .fp32) (oneHot x5) (convTile x0 x1 x2 x3 x4)
          (constant S128x64 .f32 0x00000000#32))) shapeCasts_S128x64_S128x64 := rfl

theorem pay1_eq (s : Vec Ideal S128x64 .f32) (cnt : Vec Ideal S128x1 .f32) :
    k2_pay1 (F := Ideal) s cnt
      = divf s (broadcastTo S128x64 (maximumf (shapeCast S128x1 cnt shapeCasts_S128x1_S128x1)
          (broadcast S128x1 (Scalar.ofBits (F := Ideal) .f32 0x3F800000#32))) broadcasts_S128x1_S128x64) := rfl

theorem pay2_eq (s : Vec Ideal S128x64 .f32) (cnt : Vec Ideal S128x1 .f32) (wl : Vec Ideal S10x64 .f32) (bl : Vec Ideal S10 .f32) :
    k2_pay2 (F := Ideal) s cnt wl bl
      = addf (matmul dot_S128x64_S64x10_S128x10_1_0_0_1_n_n none (truncf .bf16 (k2_pay1 (F := Ideal) s cnt) bitsLt_bf16_f32)
          (transpose S64x10 [1, 0] (truncf .bf16 wl bitsLt_bf16_f32) transposes_S10x64_p1_0_S64x10) (constant S128x10 .f32 0x00000000#32))
        (broadcastTo S128x10 (shapeCast S1x10 bl shapeCasts_S10_S1x10) broadcasts_S1x10_S128x10) := rfl

/-- Entry (p, q) of a tile's convolution is the specification's step at (p, q) of the tile's own rows. -/
theorem convTile_apply (x0 x1 : Vec Ideal S5000x64 .f32) (x2 x3 : Vec Ideal S64x64 .f32) (x4 : Vec Ideal S64 .f32) (p : Fin 5000) (q : Fin 64) :
    convTile x0 x1 x2 x3 x4 (ix2 p q) = GraphSpec.layerAt x0 x1 x2 x3 x4 p q := by
  -- a transposed weight matrix at (k, q) is the matrix at (q, k)
  have et : ∀ (m : FVec Ideal S64x64 .f32) (k : Fin 64),
      transpose S64x64 [1, 0] (truncf (F := Ideal) .bf16 m bitsLt_bf16_f32) transposes_S64x64_p1_0_S64x64 (ix2 k q) = m (ix2 q k) := fun m k =>
    transpose_apply [1, 0] (truncf (F := Ideal) .bf16 m bitsLt_bf16_f32) transposes_S64x64_p1_0_S64x64 (ix2 k q) (ix2 q k) (fun b => match b with
      | ⟨0, _⟩ => rfl
      | ⟨1, _⟩ => rfl)
  have e0 : ∀ (a : FVec Ideal S5000x64 .f32) (m : FVec Ideal S64x64 .f32),
      (∑ k : Fin 64, (truncf (F := Ideal) .bf16 (shapeCast S5000x64 a shapeCasts_S5000x64_S5000x64) bitsLt_bf16_f32 : FVec Ideal S5000x64 .bf16) (ix2 p k)
          * (transpose S64x64 [1, 0] (truncf (F := Ideal) .bf16 m bitsLt_bf16_f32) transposes_S64x64_p1_0_S64x64 : FVec Ideal S64x64 .bf16) (ix2 k q))
        = ∑ j : Fin 64, a (ix2 p j) * m (ix2 q j) := fun a m =>
    Finset.sum_congr rfl fun k _ => by rw [et m k, shapeCast_self]; rfl
  -- the bias row, broadcast down the tile, at (p, q) is the bias at q
  have eb : broadcastTo S5000x64 (shapeCast S1x64 x4 shapeCasts_S64_S1x64) broadcasts_S1x64_S5000x64 (ix2 p q) = x4 (ix1 q) := by
    refine (broadcastTo_apply _ broadcasts_S1x64_S5000x64 (ix2 p q) (ix2 (0 : Fin 1) q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])).trans ?_
    exact (shapeCast_addUnit_apply ![64] x4 shapeCasts_S64_S1x64 (ix2 (0 : Fin 1) q)).trans
      (congrArg x4 (funext fun a => by match a with | ⟨0, _⟩ => rfl))
  unfold convTile GraphSpec.layerAt GraphSpec.mulT
  rw [addf_apply, addf_apply, conv_matmul_apply, conv_matmul_apply, e0, e0, eb]

/-- Entry (r, g) of the one-hot matrix is 1 when row r's id, read signed, is g, and 0 otherwise. -/
theorem oneHot_apply (x5 : Vec Ideal S5000x1 .i32) (r : Fin 5000) (g : Fin 128) :
    oneHot x5 (ix2 r g) = if (x5 (ix2 r (0 : Fin 1))).toInt = (g.val : Int) then 1 else 0 := by
  have e1 : iota .tc S5000x128 32 [1] iota_S5000x128_d1_w32 (ix2 r g) = BitVec.ofNat 32 g.val :=
    iota_single_apply .tc S5000x128 32 1 iota_S5000x128_d1_w32 (ix2 r g)
  have e2 : broadcastTo S5000x128 (shapeCast S5000x1 x5 shapeCasts_S5000x1_S5000x1) broadcasts_S5000x1_S5000x128 (ix2 r g)
      = x5 (ix2 r (0 : Fin 1)) := by
    rw [shapeCast_self]
    exact broadcastTo_apply x5 broadcasts_S5000x1_S5000x128 (ix2 r g) (ix2 r (0 : Fin 1)) (fun a => match a with
      | ⟨0, _⟩ => by show r.val = if (5000 : Nat) = 1 then 0 else r.val; rw [if_neg (by decide)]
      | ⟨1, _⟩ => by show (0 : Nat) = if (1 : Nat) = 1 then 0 else g.val; rw [if_pos rfl])
  show FloatOps.sitofp (F := Ideal) .f32 ((IntOp.cmpi .eq (iota .tc S5000x128 32 [1] iota_S5000x128_d1_w32 (ix2 r g))
      (broadcastTo S5000x128 (shapeCast S5000x1 x5 shapeCasts_S5000x1_S5000x1) broadcasts_S5000x1_S5000x128 (ix2 r g))).setWidth 32) = _
  rw [e1, e2]
  exact indicator_word _ g.val g.isLt

theorem zeros1 : (![0] : Fin 1 → Nat) = fun _ => 0 := by funext a; fin_cases a; rfl

/-- **One tile's contribution.**  Entry (g, f) of the accumulator after a tile is the entry before plus the sum, over the
    tile's rows whose id is g, of the convolution's entry (row, f): the one-hot factor is 1 on those rows and 0 on the
    others. -/
theorem tileSum_apply (x0 x1 : Vec Ideal S5000x64 .f32) (x2 x3 : Vec Ideal S64x64 .f32) (x4 : Vec Ideal S64 .f32) (x5 : Vec Ideal S5000x1 .i32)
    (s : Vec Ideal S128x64 .f32) (g : Fin 128) (f : Fin 64) :
    Pool.tileSum (F := Ideal) x0 x1 x2 x3 x4 x5 s (ix2 g f)
      = s (ix2 g f) + ∑ r : Fin 5000, (if (x5 (ix2 r (0 : Fin 1))).toInt = (g.val : Int) then (1 : EReal) else 0)
          * GraphSpec.layerAt x0 x1 x2 x3 x4 r f := by
  unfold Pool.tileSum
  simp only [View.ld_unit_zero (S := S5000x64) Pool.zeros2, View.ld_unit_zero (S := S64x64) Pool.zeros2,
    View.ld_unit_zero (S := S64) zeros1, View.ld_unit_zero (S := S5000x1) Pool.zeros2]
  rw [pay4_eq, shapeCast_self, addf_apply, pool_matmul_apply]
  exact congrArg (s (ix2 g f) + ·) (Finset.sum_congr rfl fun r _ => by rw [oneHot_apply, convTile_apply])

theorem pay3_eq : k2_pay3 (F := Ideal)
    = shapeCast S128x64 (broadcast S128x64 (Scalar.ofBits (F := Ideal) .f32 0x00000000#32)) shapeCasts_S128x64_S128x64 := rfl

/-- The reset value is zero everywhere. -/
theorem pay3_apply (i : S128x64.Idx) : k2_pay3 (F := Ideal) i = 0 := by
  rw [pay3_eq, shapeCast_self]
  exact Ideal.ofBits_zero_f32

/-- Entry (g, f) of the pooled output: the accumulator's entry over max(count of g, 1). -/
theorem pay1_apply (s : Vec Ideal S128x64 .f32) (cnt : Vec Ideal S128x1 .f32) (g : Fin 128) (f : Fin 64) :
    k2_pay1 (F := Ideal) s cnt (ix2 g f)
      = Ideal.div (s (ix2 g f)) (max (cnt (ix2 g (0 : Fin 1))) (Ideal.ofBits .f32 0x3F800000#32)) := by
  rw [pay1_eq, divf_apply]
  refine congrArg (Ideal.div (s (ix2 g f))) ?_
  refine (broadcastTo_apply _ broadcasts_S128x1_S128x64 (ix2 g f) (ix2 g (0 : Fin 1)) (fun a => match a with
      | ⟨0, _⟩ => by show g.val = if (128 : Nat) = 1 then 0 else g.val; rw [if_neg (by decide)]
      | ⟨1, _⟩ => by show (0 : Nat) = if (1 : Nat) = 1 then 0 else f.val; rw [if_pos rfl])).trans ?_
  rw [maximumf_apply, shapeCast_self]
  rfl

/-- Entry (g, o) of the second output: the pooled row g against row o of the final matrix, plus the final bias at o. -/
theorem pay2_apply (s : Vec Ideal S128x64 .f32) (cnt : Vec Ideal S128x1 .f32) (wl : Vec Ideal S10x64 .f32) (bl : Vec Ideal S10 .f32)
    (g : Fin 128) (o : Fin 10) :
    k2_pay2 (F := Ideal) s cnt wl bl (ix2 g o)
      = (∑ k : Fin 64, k2_pay1 (F := Ideal) s cnt (ix2 g k) * wl (ix2 o k)) + bl (ix1 o) := by
  have et : ∀ k : Fin 64,
      transpose S64x10 [1, 0] (truncf (F := Ideal) .bf16 (wl : FVec Ideal S10x64 .f32) bitsLt_bf16_f32) transposes_S10x64_p1_0_S64x10 (ix2 k o) = wl (ix2 o k) := fun k =>
    transpose_apply [1, 0] (truncf (F := Ideal) .bf16 (wl : FVec Ideal S10x64 .f32) bitsLt_bf16_f32) transposes_S10x64_p1_0_S64x10 (ix2 k o) (ix2 o k) (fun b => match b with
      | ⟨0, _⟩ => rfl
      | ⟨1, _⟩ => rfl)
  have eb : broadcastTo S128x10 (shapeCast S1x10 bl shapeCasts_S10_S1x10) broadcasts_S1x10_S128x10 (ix2 g o) = bl (ix1 o) := by
    refine (broadcastTo_apply _ broadcasts_S1x10_S128x10 (ix2 g o) (ix2 (0 : Fin 1) o) (fun a => match a with
      | ⟨0, _⟩ => by show (0 : Nat) = if (1 : Nat) = 1 then 0 else g.val; rw [if_pos rfl]
      | ⟨1, _⟩ => by show o.val = if (10 : Nat) = 1 then 0 else o.val; rw [if_neg (by decide)])).trans ?_
    exact (shapeCast_addUnit_apply ![10] bl shapeCasts_S10_S1x10 (ix2 (0 : Fin 1) o)).trans
      (congrArg bl (funext fun a => by match a with | ⟨0, _⟩ => rfl))
  rw [pay2_eq, addf_apply, lin_matmul_apply, eb]
  exact congrArg (· + bl (ix1 o)) (Finset.sum_congr rfl fun k _ => by rw [et k]; rfl)

/-! ## The tiles are rows of the arrays

Window 0, 1 and 5's block at point `t` starts at row 5000·t of its array: the block index is `t` on the row axis and 0 on
the column axis at every point (decided once over the ten points), and an element of a block sits at block index × block
size + its coordinate inside the block.  The other six input windows' one block is their whole array. -/

variable (V : (c : Dev nD) → (b : Ref sig .tc) → Buf (Elt Ideal) ((c : Thread nD τ).loc b))

theorem idx_agg : ∀ t : Fin cfg2.N, win2_0.index t 0 = t.val ∧ win2_0.index t 1 = 0 :=
  (by decide +kernel : ∀ t : Fin grid2.N, win2_0.index t 0 = t.val ∧ win2_0.index t 1 = 0)
theorem idx_feat : ∀ t : Fin cfg2.N, win2_1.index t 0 = t.val ∧ win2_1.index t 1 = 0 :=
  (by decide +kernel : ∀ t : Fin grid2.N, win2_1.index t 0 = t.val ∧ win2_1.index t 1 = 0)
theorem idx_wrel : ∀ t : Fin cfg2.N, win2_2.index t 0 = 0 ∧ win2_2.index t 1 = 0 :=
  (by decide +kernel : ∀ t : Fin grid2.N, win2_2.index t 0 = 0 ∧ win2_2.index t 1 = 0)
theorem idx_wroot : ∀ t : Fin cfg2.N, win2_3.index t 0 = 0 ∧ win2_3.index t 1 = 0 :=
  (by decide +kernel : ∀ t : Fin grid2.N, win2_3.index t 0 = 0 ∧ win2_3.index t 1 = 0)
theorem idx_bias : ∀ t : Fin cfg2.N, win2_4.index t 0 = 0 :=
  (by decide +kernel : ∀ t : Fin grid2.N, win2_4.index t 0 = 0)
theorem idx_ids : ∀ t : Fin cfg2.N, win2_5.index t 0 = t.val ∧ win2_5.index t 1 = 0 :=
  (by decide +kernel : ∀ t : Fin grid2.N, win2_5.index t 0 = t.val ∧ win2_5.index t 1 = 0)
theorem idx_counts : ∀ t : Fin cfg2.N, win2_6.index t 0 = 0 ∧ win2_6.index t 1 = 0 :=
  (by decide +kernel : ∀ t : Fin grid2.N, win2_6.index t 0 = 0 ∧ win2_6.index t 1 = 0)
theorem idx_wlin : ∀ t : Fin cfg2.N, win2_7.index t 0 = 0 ∧ win2_7.index t 1 = 0 :=
  (by decide +kernel : ∀ t : Fin grid2.N, win2_7.index t 0 = 0 ∧ win2_7.index t 1 = 0)
theorem idx_blin : ∀ t : Fin cfg2.N, win2_8.index t 0 = 0 :=
  (by decide +kernel : ∀ t : Fin grid2.N, win2_8.index t 0 = 0)
theorem idx_pooled : ∀ t : Fin cfg2.N, win2_9.index t 0 = 0 ∧ win2_9.index t 1 = 0 :=
  (by decide +kernel : ∀ t : Fin grid2.N, win2_9.index t 0 = 0 ∧ win2_9.index t 1 = 0)
theorem idx_logits : ∀ t : Fin cfg2.N, win2_10.index t 0 = 0 ∧ win2_10.index t 1 = 0 :=
  (by decide +kernel : ∀ t : Fin grid2.N, win2_10.index t 0 = 0 ∧ win2_10.index t 1 = 0)

/-- Row r of the aggregates' tile at point t is row 5000·t + r of the aggregates. -/
theorem tile_agg_apply (c : Dev nD) (t : Fin cfg2.N) (r : Fin 5000) (q : Fin 64) (h : t.val * 5000 + r.val < 50000) :
    (Pool.tile (F := Ideal) V c 0 t : Vec Ideal S5000x64 .f32) (ix2 r q)
      = (V c main_v35 : Vec Ideal S50000x64 .f32) (ix2 ⟨t.val * 5000 + r.val, h⟩ q) := by
  unfold Pool.tile
  rw [View.read_apply]
  show V c main_v35 _ = V c main_v35 _
  congr 1
  funext a
  apply Fin.ext
  match a with
  | ⟨0, _⟩ => show win2_0.index t 0 * 5000 + 1 * r.val = t.val * 5000 + r.val; rw [(idx_agg t).1]; omega
  | ⟨1, _⟩ => show win2_0.index t 1 * 64 + 1 * q.val = q.val; rw [(idx_agg t).2]; omega

/-- Row r of the node features' tile at point t is row 5000·t + r of the node features. -/
theorem tile_feat_apply (c : Dev nD) (t : Fin cfg2.N) (r : Fin 5000) (q : Fin 64) (h : t.val * 5000 + r.val < 50000) :
    (Pool.tile (F := Ideal) V c 1 t : Vec Ideal S5000x64 .f32) (ix2 r q)
      = (V c main_v25 : Vec Ideal S50000x64 .f32) (ix2 ⟨t.val * 5000 + r.val, h⟩ q) := by
  unfold Pool.tile
  rw [View.read_apply]
  show V c main_v25 _ = V c main_v25 _
  congr 1
  funext a
  apply Fin.ext
  match a with
  | ⟨0, _⟩ => show win2_1.index t 0 * 5000 + 1 * r.val = t.val * 5000 + r.val; rw [(idx_feat t).1]; omega
  | ⟨1, _⟩ => show win2_1.index t 1 * 64 + 1 * q.val = q.val; rw [(idx_feat t).2]; omega

/-- Row r of the ids' tile at point t is row 5000·t + r of the ids. -/
theorem tile_ids_apply (c : Dev nD) (t : Fin cfg2.N) (r : Fin 5000) (h : t.val * 5000 + r.val < 50000) :
    (Pool.tile (F := Ideal) V c 5 t : Vec Ideal S5000x1 .i32) (ix2 r (0 : Fin 1))
      = (V c main_v36 : Vec Ideal S50000x1 .i32) (ix2 ⟨t.val * 5000 + r.val, h⟩ (0 : Fin 1)) := by
  unfold Pool.tile
  rw [View.read_apply]
  show V c main_v36 _ = V c main_v36 _
  congr 1
  funext a
  apply Fin.ext
  match a with
  | ⟨0, _⟩ => show win2_5.index t 0 * 5000 + 1 * r.val = t.val * 5000 + r.val; rw [(idx_ids t).1]; omega
  | ⟨1, _⟩ => show win2_5.index t 1 * 1 + 1 * 0 = 0; rw [(idx_ids t).2]

/-- The weights' tile is the weights. -/
theorem tile_wrel (c : Dev nD) (t : Fin cfg2.N) :
    (Pool.tile (F := Ideal) V c 2 t : Vec Ideal S64x64 .f32) = (V c main_arg9 : Vec Ideal S64x64 .f32) := by
  funext i
  unfold Pool.tile
  rw [View.read_apply]
  show V c main_arg9 _ = V c main_arg9 i
  congr 1
  funext a
  apply Fin.ext
  match a with
  | ⟨0, _⟩ => show win2_2.index t 0 * 64 + 1 * (i 0).val = (i 0).val; rw [(idx_wrel t).1]; omega
  | ⟨1, _⟩ => show win2_2.index t 1 * 64 + 1 * (i 1).val = (i 1).val; rw [(idx_wrel t).2]; omega

theorem tile_wroot (c : Dev nD) (t : Fin cfg2.N) :
    (Pool.tile (F := Ideal) V c 3 t : Vec Ideal S64x64 .f32) = (V c main_arg11 : Vec Ideal S64x64 .f32) := by
  funext i
  unfold Pool.tile
  rw [View.read_apply]
  show V c main_arg11 _ = V c main_arg11 i
  congr 1
  funext a
  apply Fin.ext
  match a with
  | ⟨0, _⟩ => show win2_3.index t 0 * 64 + 1 * (i 0).val = (i 0).val; rw [(idx_wroot t).1]; omega
  | ⟨1, _⟩ => show win2_3.index t 1 * 64 + 1 * (i 1).val = (i 1).val; rw [(idx_wroot t).2]; omega

theorem tile_bias (c : Dev nD) (t : Fin cfg2.N) :
    (Pool.tile (F := Ideal) V c 4 t : Vec Ideal S64 .f32) = (V c main_arg10 : Vec Ideal S64 .f32) := by
  funext i
  unfold Pool.tile
  rw [View.read_apply]
  show V c main_arg10 _ = V c main_arg10 i
  congr 1
  funext a
  apply Fin.ext
  match a with
  | ⟨0, _⟩ => show win2_4.index t 0 * 64 + 1 * (i 0).val = (i 0).val; rw [idx_bias t]; omega

theorem tile_counts (c : Dev nD) (t : Fin cfg2.N) :
    (Pool.tile (F := Ideal) V c 6 t : Vec Ideal S128x1 .f32) = (V c main_v41 : Vec Ideal S128x1 .f32) := by
  funext i
  unfold Pool.tile
  rw [View.read_apply]
  show V c main_v41 _ = V c main_v41 i
  congr 1
  funext a
  apply Fin.ext
  match a with
  | ⟨0, _⟩ => show win2_6.index t 0 * 128 + 1 * (i 0).val = (i 0).val; rw [(idx_counts t).1]; omega
  | ⟨1, _⟩ => show win2_6.index t 1 * 1 + 1 * (i 1).val = (i 1).val; rw [(idx_counts t).2]; omega

theorem tile_wlin (c : Dev nD) (t : Fin cfg2.N) :
    (Pool.tile (F := Ideal) V c 7 t : Vec Ideal S10x64 .f32) = (V c main_arg12 : Vec Ideal S10x64 .f32) := by
  funext i
  unfold Pool.tile
  rw [View.read_apply]
  show V c main_arg12 _ = V c main_arg12 i
  congr 1
  funext a
  apply Fin.ext
  match a with
  | ⟨0, _⟩ => show win2_7.index t 0 * 10 + 1 * (i 0).val = (i 0).val; rw [(idx_wlin t).1]; omega
  | ⟨1, _⟩ => show win2_7.index t 1 * 64 + 1 * (i 1).val = (i 1).val; rw [(idx_wlin t).2]; omega

theorem tile_blin (c : Dev nD) (t : Fin cfg2.N) :
    (Pool.tile (F := Ideal) V c 8 t : Vec Ideal S10 .f32) = (V c main_arg13 : Vec Ideal S10 .f32) := by
  funext i
  unfold Pool.tile
  rw [View.read_apply]
  show V c main_arg13 _ = V c main_arg13 i
  congr 1
  funext a
  apply Fin.ext
  match a with
  | ⟨0, _⟩ => show win2_8.index t 0 * 10 + 1 * (i 0).val = (i 0).val; rw [idx_blin t]; omega

/-! ## The specification's arrays, and the accumulator point by point -/

/-- The graph id of every node: the ids' one column. -/
def poolIds (c : Dev nD) : (⟨1, ![50000]⟩ : Shape).Idx → BitVec 32 := fun i => V c main_v36 (ix2 (i 0) (0 : Fin 1))
/-- The node count of every graph: the counts' one column. -/
def poolCounts (c : Dev nD) : Cert.GraphSpec.Row 128 := fun i => V c main_v41 (ix2 (i 0) (0 : Fin 1))
/-- The third graph-convolution step of the whole arrays. -/
def lastLayer (c : Dev nD) : Cert.GraphSpec.Mat 50000 64 :=
  Cert.GraphSpec.layer (V c main_v35) (V c main_v25) (V c main_arg9) (V c main_arg11) (V c main_arg10)
/-- Its mean pool over the graphs. -/
def pooled (c : Dev nD) : Cert.GraphSpec.Mat 128 64 :=
  Cert.GraphSpec.meanPool (Cert.GraphSpec.segSum (poolIds V c) (lastLayer V c)) (poolCounts V c)

/-- Node e's term of the sum for graph g at feature f: the step's entry (e, f) if e's id is g, zero otherwise. -/
def nodeTerm (c : Dev nD) (g : Fin 128) (f : Fin 64) : Fin 50000 → EReal :=
  fun e => if (poolIds V c (ix1 e)).toInt = (g.val : Int) then lastLayer V c (ix2 e f) else 0

theorem segSumAt_eq (c : Dev nD) (g : Fin 128) (f : Fin 64) :
    Cert.GraphSpec.segSumAt (poolIds V c) (lastLayer V c) g f = ∑ e : Fin 50000, nodeTerm V c g f e := rfl

/-- The convolution of the tile at point t, at its row r, is the convolution of the arrays at row 5000·t + r: the
    aggregates' and the features' tiles are those rows, the weights and the bias are staged whole. -/
theorem layer_tile (c : Dev nD) (t : Fin cfg2.N) (r : Fin 5000) (f : Fin 64) (h : t.val * 5000 + r.val < 50000) :
    Cert.GraphSpec.layerAt (Pool.tile (F := Ideal) V c 0 t : Vec Ideal S5000x64 .f32) (Pool.tile (F := Ideal) V c 1 t : Vec Ideal S5000x64 .f32)
        (Pool.tile (F := Ideal) V c 2 t : Vec Ideal S64x64 .f32) (Pool.tile (F := Ideal) V c 3 t : Vec Ideal S64x64 .f32)
        (Pool.tile (F := Ideal) V c 4 t : Vec Ideal S64 .f32) r f
      = lastLayer V c (ix2 ⟨t.val * 5000 + r.val, h⟩ f) := by
  rw [tile_wrel V c t, tile_wroot V c t, tile_bias V c t]
  show _ = Cert.GraphSpec.layerAt (V c main_v35) (V c main_v25) (V c main_arg9) (V c main_arg11) (V c main_arg10) ⟨t.val * 5000 + r.val, h⟩ f
  unfold Cert.GraphSpec.layerAt Cert.GraphSpec.mulT
  refine congrArg₂ (· + ·) (congrArg₂ (· + ·) ?_ ?_) rfl
  · exact Finset.sum_congr rfl fun j _ => by rw [tile_agg_apply V c t r j h]
  · exact Finset.sum_congr rfl fun j _ => by rw [tile_feat_apply V c t r j h]

/-- **The tile at point t is block t of the sum.**  The masked products over the tile's rows are the terms of nodes
    5000·t … 5000·t + 4999 (all below 50000: there are ten points). -/
theorem tile_block (c : Dev nD) (t : Fin cfg2.N) (g : Fin 128) (f : Fin 64) :
    (∑ r : Fin 5000, (if ((Pool.tile (F := Ideal) V c 5 t : Vec Ideal S5000x1 .i32) (ix2 r (0 : Fin 1))).toInt = (g.val : Int) then (1 : EReal) else 0)
        * Cert.GraphSpec.layerAt (Pool.tile (F := Ideal) V c 0 t : Vec Ideal S5000x64 .f32) (Pool.tile (F := Ideal) V c 1 t : Vec Ideal S5000x64 .f32)
            (Pool.tile (F := Ideal) V c 2 t : Vec Ideal S64x64 .f32) (Pool.tile (F := Ideal) V c 3 t : Vec Ideal S64x64 .f32)
            (Pool.tile (F := Ideal) V c 4 t : Vec Ideal S64 .f32) r f)
      = ∑ q : Fin 5000, (if h : t.val * 5000 + q.val < 50000 then nodeTerm V c g f ⟨t.val * 5000 + q.val, h⟩ else 0) := by
  have hN : t.val < 10 := lt_of_lt_of_eq t.isLt (show cfg2.N = 10 from N_2)
  refine Finset.sum_congr rfl fun r _ => ?_
  have h : t.val * 5000 + r.val < 50000 := by have := r.isLt; omega
  rw [dif_pos h, layer_tile V c t r f h, tile_ids_apply V c t r h, Cert.LibBlockedSum.ereal_ite_zero_mul, one_mul]
  rfl

/-- **The accumulator after point n** holds, at (g, f), the terms of the nodes below 5000·(n + 1): zero plus block 0 after
    the first point, one more block after each later one. -/
theorem accAt_apply (c : Dev nD) (g : Fin 128) (f : Fin 64) : ∀ (n : ℕ) (h : n < cfg2.N),
    Pool.accAt (F := Ideal) V c n h (ix2 g f) = ∑ i ∈ Finset.range ((n + 1) * 5000), Cert.LibBlockedSum.ext0 (nodeTerm V c g f) i
  | 0, h => by
    show Pool.accFirst (F := Ideal) (Pool.tile V c 0 ⟨0, h⟩) (Pool.tile V c 1 ⟨0, h⟩) (Pool.tile V c 2 ⟨0, h⟩) (Pool.tile V c 3 ⟨0, h⟩)
      (Pool.tile V c 4 ⟨0, h⟩) (Pool.tile V c 5 ⟨0, h⟩) (ix2 g f) = _
    unfold Pool.accFirst
    rw [View.canon_cons_unit_zero (S := S128x64) Pool.zeros2, tileSum_apply, pay3_apply, tile_block V c ⟨0, h⟩ g f]
    exact Cert.LibBlockedSum.sum_blocks_succ (nodeTerm V c g f) 0 0 (Cert.LibBlockedSum.sum_blocks_zero _)
  | n + 1, h => by
    show Pool.accNext (F := Ideal) (Pool.tile V c 0 ⟨n + 1, h⟩) (Pool.tile V c 1 ⟨n + 1, h⟩) (Pool.tile V c 2 ⟨n + 1, h⟩) (Pool.tile V c 3 ⟨n + 1, h⟩)
      (Pool.tile V c 4 ⟨n + 1, h⟩) (Pool.tile V c 5 ⟨n + 1, h⟩) (Pool.accAt V c n (Nat.lt_of_succ_lt h)) (ix2 g f) = _
    unfold Pool.accNext
    rw [View.canon_unit_zero (S := S128x64) Pool.zeros2, tileSum_apply, View.ld_unit_zero (S := S128x64) Pool.zeros2,
      tile_block V c ⟨n + 1, h⟩ g f]
    exact Cert.LibBlockedSum.sum_blocks_succ (nodeTerm V c g f) (n + 1) _ (accAt_apply c g f n (Nat.lt_of_succ_lt h))

/-- What a later point's output stores read: the accumulator the point before left plus this point's tile — the terms
    of the nodes below 5000·(t + 1). -/
theorem tileSum_prev (c : Dev nD) (t : Fin cfg2.N) (hz : t.val ≠ 0) (g : Fin 128) (f : Fin 64) :
    Pool.tileSum (F := Ideal) (Pool.tile V c 0 t) (Pool.tile V c 1 t) (Pool.tile V c 2 t) (Pool.tile V c 3 t) (Pool.tile V c 4 t) (Pool.tile V c 5 t)
        (View.ld (Pool.prevAt V c t.val t.isLt) Pool.rAcc) (ix2 g f)
      = ∑ i ∈ Finset.range ((t.val + 1) * 5000), Cert.LibBlockedSum.ext0 (nodeTerm V c g f) i := by
  rw [Pool.prevAt_later V c t hz, tileSum_apply, View.ld_unit_zero (S := S128x64) Pool.zeros2, accAt_apply, tile_block V c t g f]
  refine Cert.LibBlockedSum.sum_blocks_succ (nodeTerm V c g f) t.val _ ?_
  rw [show t.val - 1 + 1 = t.val from by omega]

/-! ## The two output arrays after the call

Both output windows have one block, the whole array, and are written back at the last point only; what the last point
stores is read off the accumulator, which by then holds every node's term. -/

/-- The pooled output's staging buffer after the last point, at (g, f). -/
theorem pooledOut_apply (s : Vec Ideal S128x64 .f32) (x6 : Vec Ideal S128x1 .f32) (g : Fin 128) (f : Fin 64) :
    Pool.pooledOut (F := Ideal) s x6 (ix2 g f)
      = Ideal.div (s (ix2 g f)) (max (x6 (ix2 g (0 : Fin 1))) (Ideal.ofBits .f32 0x3F800000#32)) := by
  unfold Pool.pooledOut
  rw [View.canon_unit_zero (S := S128x64) Pool.zeros2, pay1_apply, View.ld_unit_zero (S := S128x1) Pool.zeros2]

/-- The second output's staging buffer after the last point, at (g, o). -/
theorem logitsOut_apply (s : Vec Ideal S128x64 .f32) (x6 : Vec Ideal S128x1 .f32) (x7 : Vec Ideal S10x64 .f32) (x8 : Vec Ideal S10 .f32)
    (g : Fin 128) (o : Fin 10) :
    Pool.logitsOut (F := Ideal) s x6 x7 x8 (ix2 g o)
      = (∑ k : Fin 64, Ideal.div (s (ix2 g k)) (max (x6 (ix2 g (0 : Fin 1))) (Ideal.ofBits .f32 0x3F800000#32)) * x7 (ix2 o k))
          + x8 (ix1 o) := by
  unfold Pool.logitsOut
  rw [View.canon_unit_zero (S := S128x10) Pool.zeros2, pay2_apply, View.ld_unit_zero (S := S128x1) Pool.zeros2,
    View.ld_unit_zero (S := S10x64) Pool.zeros2, View.ld_unit_zero (S := S10) zeros1]
  exact congrArg (· + x8 (ix1 o)) (Finset.sum_congr rfl fun k _ => by rw [pay1_apply])

/-- The one point that writes the outputs back is the last. -/
theorem last_of_flush_pooled (t : Fin cfg2.N) (hf : (cfg2.win 9).flush t = true) : t.val = 9 := by
  have h1 := (flush2_9 t).mp hf
  have h2 : t.val < 10 := lt_of_lt_of_eq t.isLt (show cfg2.N = 10 from N_2)
  omega
theorem last_of_flush_logits (t : Fin cfg2.N) (hf : (cfg2.win 10).flush t = true) : t.val = 9 := by
  have h1 := (flush2_10 t).mp hf
  have h2 : t.val < 10 := lt_of_lt_of_eq t.isLt (show cfg2.N = 10 from N_2)
  omega

/-- The last point. -/
abbrev tLast : Fin cfg2.N := ⟨9, by rw [show cfg2.N = 10 from N_2]; decide⟩

/-- After the last point the blocks are all in: the sum over the ten blocks is the sum over the nodes. -/
theorem all_blocks (c : Dev nD) (t : Fin cfg2.N) (h9 : t.val = 9) (g : Fin 128) (f : Fin 64) :
    (∑ i ∈ Finset.range ((t.val + 1) * 5000), Cert.LibBlockedSum.ext0 (nodeTerm V c g f) i)
      = Cert.GraphSpec.segSumAt (poolIds V c) (lastLayer V c) g f := by
  rw [h9, segSumAt_eq]
  exact Cert.LibBlockedSum.sum_blocks_last (B := 10) (T := 5000) (by decide) (nodeTerm V c g f)

/-- The pooled output's one block, read out of contents `G` of the array, is `G`. -/
theorem read_blk_pooled (c : Dev nD) (t : Fin cfg2.N) (G : Vec Ideal S128x64 .f32) (g : Fin 128) (f : Fin 64) :
    ((cfg2.win 9).blk t).view.read (Elt Ideal) (G : Buf (Elt Ideal) ((cfg2.win 9).arr.view.loc (c.tc : Thread nD τ))) (ix2 g f) = G (ix2 g f) := by
  rw [View.read_apply]
  show G _ = G _
  congr 1
  funext a
  apply Fin.ext
  match a with
  | ⟨0, _⟩ => show win2_9.index t 0 * 128 + 1 * g.val = g.val; rw [(idx_pooled t).1]; omega
  | ⟨1, _⟩ => show win2_9.index t 1 * 64 + 1 * f.val = f.val; rw [(idx_pooled t).2]; omega

theorem read_blk_logits (c : Dev nD) (t : Fin cfg2.N) (G : Vec Ideal S128x10 .f32) (g : Fin 128) (o : Fin 10) :
    ((cfg2.win 10).blk t).view.read (Elt Ideal) (G : Buf (Elt Ideal) ((cfg2.win 10).arr.view.loc (c.tc : Thread nD τ))) (ix2 g o) = G (ix2 g o) := by
  rw [View.read_apply]
  show G _ = G _
  congr 1
  funext a
  apply Fin.ext
  match a with
  | ⟨0, _⟩ => show win2_10.index t 0 * 128 + 1 * g.val = g.val; rw [(idx_logits t).1]; omega
  | ⟨1, _⟩ => show win2_10.index t 1 * 10 + 1 * o.val = o.val; rw [(idx_logits t).2]; omega

/-- What the last point writes back through window 9 is the mean pool. -/
theorem pooled_flushed (c : Dev nD) (t : Fin cfg2.N) (hf : (cfg2.win 9).flush t = true) :
    (Pool.dat (F := Ideal) V c).flushed 9 t = ((cfg2.win 9).blk t).view.read (Elt Ideal) (pooled V c) := by
  have h9 := last_of_flush_pooled t hf
  have hz : t.val ≠ 0 := by omega
  show (cfg2.win 9).cut (grid2.coords t) ((Pool.dat V c).after 9 t) = _
  rw [Pool.after_pooled]
  funext y
  obtain ⟨g, f, rfl⟩ : ∃ (g : Fin 128) (f : Fin 64), y = ix2 g f := ⟨y 0, y 1, eq_ix2 y⟩
  refine Eq.trans ?_ (read_blk_pooled c t (pooled V c) g f).symm
  refine (pooledOut_apply _ _ g f).trans ?_
  rw [tileSum_prev V c t hz g f, tile_counts V c t, all_blocks V c t h9 g f]
  rfl

/-- The last point's block covers the pooled array. -/
theorem pooled_cover (c : Dev nD) (i : ((cfg2.win 9).arr.view.loc (c.tc : Thread nD τ)).2.ty.Idx) :
    ∃ t : Fin cfg2.N, (cfg2.win 9).flush t = true ∧ i ∈ ((cfg2.win 9).blk t).view.set :=
  ⟨tLast, (flush2_9 tLast).mpr rfl, by
    show i ∈ ((View.whole main_v42_0).slice (win2_9.rect tLast)).set
    rw [View.set_slice_whole, Rect.mem_set_unit]
    intro a
    have h0 : (i 0 : Nat) < 128 := (i 0).isLt
    have h1 : (i 1 : Nat) < 64 := (i 1).isLt
    match a with
    | ⟨0, _⟩ =>
      show win2_9.index tLast 0 * win2_9.size 0 ≤ (i 0 : Nat) ∧ (i 0 : Nat) < win2_9.index tLast 0 * win2_9.size 0 + win2_9.xsize (grid2.coords tLast) 0
      rw [show win2_9.index tLast 0 * win2_9.size 0 = 0 from by decide +kernel, show win2_9.xsize (grid2.coords tLast) 0 = 128 from by decide +kernel]; omega
    | ⟨1, _⟩ =>
      show win2_9.index tLast 1 * win2_9.size 1 ≤ (i 1 : Nat) ∧ (i 1 : Nat) < win2_9.index tLast 1 * win2_9.size 1 + win2_9.xsize (grid2.coords tLast) 1
      rw [show win2_9.index tLast 1 * win2_9.size 1 = 0 from by decide +kernel, show win2_9.xsize (grid2.coords tLast) 1 = 64 from by decide +kernel]; omega⟩

/-- **The pooled output array after the call** is the mean pool, over the graphs, of the third convolution step. -/
theorem pooled_result (c : Dev nD) : (Pool.dat (F := Ideal) V c).arrAt 9 cfg2.N = pooled V c :=
  (Pool.dat (F := Ideal) V c).arrAt_eq_of_cover 9 (pooled V c) (pooled_flushed V c) (pooled_cover c)

/-- What the last point writes back through window 10 is the readout of the mean pool. -/
theorem logits_flushed (c : Dev nD) (t : Fin cfg2.N) (hf : (cfg2.win 10).flush t = true) :
    (Pool.dat (F := Ideal) V c).flushed 10 t
      = ((cfg2.win 10).blk t).view.read (Elt Ideal) (Cert.GraphSpec.readout (pooled V c) (V c main_arg12) (V c main_arg13)) := by
  have h9 := last_of_flush_logits t hf
  have hz : t.val ≠ 0 := by omega
  show (cfg2.win 10).cut (grid2.coords t) ((Pool.dat V c).after 10 t) = _
  rw [Pool.after_logits]
  funext y
  obtain ⟨g, o, rfl⟩ : ∃ (g : Fin 128) (o : Fin 10), y = ix2 g o := ⟨y 0, y 1, eq_ix2 y⟩
  refine Eq.trans ?_ (read_blk_logits c t (Cert.GraphSpec.readout (pooled V c) (V c main_arg12) (V c main_arg13)) g o).symm
  refine (logitsOut_apply _ _ _ _ g o).trans ?_
  rw [tile_counts V c t, tile_wlin V c t, tile_blin V c t]
  show _ = (∑ j : Fin 64, pooled V c (ix2 g j) * (V c main_arg12 : Vec Ideal S10x64 .f32) (ix2 o j)) + (V c main_arg13 : Vec Ideal S10 .f32) (ix1 o)
  refine congrArg₂ (· + ·) (Finset.sum_congr rfl fun k _ => ?_) rfl
  rw [tileSum_prev V c t hz g k, all_blocks V c t h9 g k]
  rfl

/-- The last point's block covers the second output array. -/
theorem logits_cover (c : Dev nD) (i : ((cfg2.win 10).arr.view.loc (c.tc : Thread nD τ)).2.ty.Idx) :
    ∃ t : Fin cfg2.N, (cfg2.win 10).flush t = true ∧ i ∈ ((cfg2.win 10).blk t).view.set :=
  ⟨tLast, (flush2_10 tLast).mpr rfl, by
    show i ∈ ((View.whole main_v42_1).slice (win2_10.rect tLast)).set
    rw [View.set_slice_whole, Rect.mem_set_unit]
    intro a
    have h0 : (i 0 : Nat) < 128 := (i 0).isLt
    have h1 : (i 1 : Nat) < 10 := (i 1).isLt
    match a with
    | ⟨0, _⟩ =>
      show win2_10.index tLast 0 * win2_10.size 0 ≤ (i 0 : Nat) ∧ (i 0 : Nat) < win2_10.index tLast 0 * win2_10.size 0 + win2_10.xsize (grid2.coords tLast) 0
      rw [show win2_10.index tLast 0 * win2_10.size 0 = 0 from by decide +kernel, show win2_10.xsize (grid2.coords tLast) 0 = 128 from by decide +kernel]; omega
    | ⟨1, _⟩ =>
      show win2_10.index tLast 1 * win2_10.size 1 ≤ (i 1 : Nat) ∧ (i 1 : Nat) < win2_10.index tLast 1 * win2_10.size 1 + win2_10.xsize (grid2.coords tLast) 1
      rw [show win2_10.index tLast 1 * win2_10.size 1 = 0 from by decide +kernel, show win2_10.xsize (grid2.coords tLast) 1 = 10 from by decide +kernel]; omega⟩

/-- **The second output array after the call** is the readout of that mean pool through the final linear map. -/
theorem logits_result (c : Dev nD) :
    (Pool.dat (F := Ideal) V c).arrAt 10 cfg2.N = Cert.GraphSpec.readout (pooled V c) (V c main_arg12) (V c main_arg13) :=
  (Pool.dat (F := Ideal) V c).arrAt_eq_of_cover 10 (Cert.GraphSpec.readout (pooled V c) (V c main_arg12) (V c main_arg13))
    (logits_flushed V c) (logits_cover c)

end Cert.KernelIdeal.PoolValue

end
-- ==== Proof.LibScatterRows2.lean ====
/-
  A scatter with an `add` body into a MATRIX, one whole row of updates per row of an [n × 1] table of start
  indices (what `jax.ops.segment_sum` of a matrix prints as), read at one element over the extended reals: the
  operand's element plus the sum, over the update rows whose start index read as a signed integer is the
  element's row, of the update in the element's column.
-/
import Idealize.ShloMosaic.PureOps.Ideal
import Idealize.ShloMosaic.Lib.ValueIdx

noncomputable section

open scoped BigOperators
open Idealize.ShloMosaic Idealize.ShloMosaic.ValueIdx

namespace Cert.LibScatterRows

/-- With the second update axis the only window axis, the only update scatter axis is the first. -/
theorem uScatter_rows2 {N C n : Nat} (d : ScatterDims ⟨2, ![N, C]⟩ ⟨2, ![n, 1]⟩ ⟨2, ![n, C]⟩)
    (huw : d.updateWindowDims = [1]) (X : Fin 2) (hX : X ∈ d.uScatter) : X = 0 := by
  unfold ScatterDims.uScatter Shape.kept at hX
  rw [huw] at hX
  have h3 : X ∉ ([1] : List (Fin 2)) := of_decide_eq_true (List.mem_filter.1 hX).2
  have h4 : X.val ≠ 1 := fun h => h3 (List.mem_singleton.2 (Fin.ext h))
  have h5 : X.val < 2 := X.isLt
  apply Fin.ext
  show X.val = 0
  omega

/-- The start-index table's row of update element (e, b) is row e. -/
theorem siIdx_rows2 {N C n : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (j : (⟨2, ![n, C]⟩ : Shape).Idx) (c : Fin d.scatterDimsToOperandDims.length) :
    d.siIdx j c = ix2 (j 0) (0 : Fin 1) := by
  funext b
  match b with
  | ⟨0, _⟩ =>
    unfold ScatterDims.siIdx
    rw [dif_neg (by rw [hivd]; simp)]
    unfold ScatterDims.siCoord
    apply Fin.ext
    simp only [Fin.val_cast]
    have e : ∀ X : Fin 2, X ∈ d.uScatter → (j X).val = (j 0).val := fun X hX => by
      have hX0 : X = 0 := uScatter_rows2 d huw X hX
      subst hX0; rfl
    exact e _ (List.getElem_mem _)
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the start index read signed. -/
theorem start_rows2_0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (j : (⟨2, ![n, C]⟩ : Shape).Idx) :
    d.start j idx (0 : Fin 2) = (idx (ix2 (j 0) (0 : Fin 1))).toInt := by
  have ha : (0 : Fin 2) ∈ d.scatterDimsToOperandDims := by
    rw [hsd]; exact List.mem_singleton.mpr rfl
  unfold ScatterDims.start
  rw [dif_pos ha, siIdx_rows2 d huw hsd hivd]; rfl

/-- On the column axis, which the map does not name, the window starts at 0. -/
theorem start_rows2_1 {N C n w : Nat} (d : ScatterDims ⟨2, ![N, C]⟩ ⟨2, ![n, 1]⟩ ⟨2, ![n, C]⟩)
    (hsd : d.scatterDimsToOperandDims = [0])
    (idx : IVec ⟨2, ![n, 1]⟩ w) (j : (⟨2, ![n, C]⟩ : Shape).Idx) :
    d.start j idx (1 : Fin 2) = 0 := by
  have ha : (1 : Fin 2) ∉ d.scatterDimsToOperandDims := by
    rw [hsd]
    exact fun h => absurd (congrArg Fin.val (List.mem_singleton.1 h)) Nat.one_ne_zero
  unfold ScatterDims.start
  rw [dif_neg ha]

/-- The row axis is inserted: its window coordinate is 0. -/
theorem window_rows2_0 {N C n : Nat} (d : ScatterDims ⟨2, ![N, C]⟩ ⟨2, ![n, 1]⟩ ⟨2, ![n, C]⟩)
    (hiw : d.insertedWindowDims = [0]) (j : (⟨2, ![n, C]⟩ : Shape).Idx) :
    d.window j (0 : Fin 2) = 0 := by
  unfold ScatterDims.window
  rw [dif_neg]
  intro h
  unfold ScatterDims.sKept Shape.kept at h
  rw [hiw] at h
  exact (of_decide_eq_true (List.mem_filter.1 h).2) (List.mem_singleton.2 rfl)

/-- The column axis is the one kept axis: its window coordinate is the update's column. -/
theorem window_rows2_1 {N C n : Nat} (d : ScatterDims ⟨2, ![N, C]⟩ ⟨2, ![n, 1]⟩ ⟨2, ![n, C]⟩)
    (huw : d.updateWindowDims = [1]) (hiw : d.insertedWindowDims = [0]) (j : (⟨2, ![n, C]⟩ : Shape).Idx) :
    d.window j (1 : Fin 2) = (j 1).val := by
  have ha : (1 : Fin 2) ∈ d.sKept := by
    unfold ScatterDims.sKept Shape.kept
    rw [hiw]
    exact List.mem_filter.2 ⟨List.mem_finRange _, decide_eq_true
      (fun h => absurd (congrArg Fin.val (List.mem_singleton.1 h)) Nat.one_ne_zero)⟩
  unfold ScatterDims.window
  rw [dif_pos ha]
  have e : ∀ X : Fin 2, X ∈ d.updateWindowDims → (j X).val = (j 1).val := fun X hX => by
    rw [huw] at hX
    have hX1 : X = 1 := List.mem_singleton.1 hX
    subst hX1; rfl
  exact e _ (List.getElem_mem _)

/-- Update element (e, b) lands on element (i, q) exactly when row e's start index, read signed, is i and b = q. -/
theorem resultIdx_rows2 {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (j : (⟨2, ![n, C]⟩ : Shape).Idx) (i : Fin N) (q : Fin C) :
    d.resultIdx? j idx = some (ix2 i q)
      ↔ (idx (ix2 (j 0) (0 : Fin 1))).toInt = (i.val : Int) ∧ (j 1).val = q.val := by
  have hi : i.val < N := i.isLt
  have hq : q.val < C := q.isLt
  have s0 := start_rows2_0 d huw hsd hivd idx j
  have s1 := start_rows2_1 d hsd idx j
  have w0 := window_rows2_0 d hiw j
  have w1 := window_rows2_1 d huw hiw j
  unfold ScatterDims.resultIdx?
  constructor
  · intro h
    split at h
    · rename_i hr
      have h2 := Option.some.inj h
      have h30 := congrArg Fin.val (congrFun h2 (0 : Fin 2))
      have h31 := congrArg Fin.val (congrFun h2 (1 : Fin 2))
      simp only [s0, s1, w0, w1] at h30 h31
      have hr0 := hr (0 : Fin 2)
      have hr1 := hr (1 : Fin 2)
      rw [s0, w0] at hr0
      rw [s1, w1] at hr1
      have h30' : ((idx (ix2 (j 0) (0 : Fin 1))).toInt + ((0 : Nat) : Int)).toNat = i.val := h30
      have h31' : ((0 : Int) + (((j 1).val : Nat) : Int)).toNat = q.val := h31
      have hr0' : (idx (ix2 (j 0) (0 : Fin 1))).toInt + ((0 : Nat) : Int) < (N : Int) := hr0.2
      have hr00 := hr0.1
      constructor <;> omega
    · exact absurd h (by simp)
  · rintro ⟨h1, h2⟩
    have hj : (j 1).val < C := (j 1).isLt
    have hr : ∀ a : Fin (⟨2, ![N, C]⟩ : Shape).rank, 0 ≤ d.start j idx a + (d.window j a : Int)
        ∧ d.start j idx a + (d.window j a : Int) < ((⟨2, ![N, C]⟩ : Shape).size a : Int) := by
      intro a
      match a with
      | ⟨0, _⟩ =>
        show 0 ≤ d.start j idx (0 : Fin 2) + (d.window j (0 : Fin 2) : Int)
          ∧ d.start j idx (0 : Fin 2) + (d.window j (0 : Fin 2) : Int) < (N : Int)
        rw [s0, w0]; omega
      | ⟨1, _⟩ =>
        show 0 ≤ d.start j idx (1 : Fin 2) + (d.window j (1 : Fin 2) : Int)
          ∧ d.start j idx (1 : Fin 2) + (d.window j (1 : Fin 2) : Int) < (C : Int)
        rw [s1, w1]; omega
    rw [dif_pos hr]
    congr 1
    funext a
    match a with
    | ⟨0, _⟩ =>
      apply Fin.ext
      show (d.start j idx (0 : Fin 2) + (d.window j (0 : Fin 2) : Int)).toNat = i.val
      rw [s0, w0]; omega
    | ⟨1, _⟩ =>
      apply Fin.ext
      show (d.start j idx (1 : Fin 2) + (d.window j (1 : Fin 2) : Int)).toNat = q.val
      rw [s1, w1]; omega

/-- The accumulating scatter of rows into a matrix, read at element (i, q). -/
theorem hostScatterAdd_rows2 {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (q : Fin C) :
    Ideal.hostScatterAdd d x idx upd (ix2 i q)
      = x (ix2 i q) + ∑ e : Fin n, if (idx (ix2 e (0 : Fin 1))).toInt = (i.val : Int) then upd (ix2 e q) else 0 := by
  unfold Ideal.hostScatterAdd
  congr 1
  rw [Finset.sum_filter, sum_idx2]
  refine Finset.sum_congr rfl fun e _ => ?_
  have h := fun b : Fin C => resultIdx_rows2 d huw hiw hsd hivd idx (ix2 e b) i q
  by_cases hc : (idx (ix2 e (0 : Fin 1))).toInt = (i.val : Int)
  · rw [if_pos hc, Finset.sum_eq_single q]
    · rw [if_pos ((h q).mpr ⟨hc, rfl⟩)]
    · intro b _ hb
      rw [if_neg]
      intro h'
      exact hb (Fin.ext ((h b).mp h').2)
    · intro hq
      exact absurd (Finset.mem_univ q) hq
  · rw [if_neg hc]
    apply Finset.sum_eq_zero
    intro b _
    rw [if_neg]
    intro h'
    exact hc ((h b).mp h').1

end Cert.LibScatterRows

end
-- ==== Proof.RefValue.lean ====
/-
  The reference program's two results as the specification's functions of its arguments.

  Each of the three graph-convolution steps of the reference is the sum (agg·W_relᵀ + b) + h·W_rootᵀ of two products
  with a transposed weight and a bias row broadcast over the nodes; the specification groups the same three terms as
  (agg·W_relᵀ + h·W_rootᵀ) + b, and addition of extended reals is commutative and associative with no exception at
  ±∞, so the two agree entry by entry.  The neighbour aggregate of a step is the same accumulation along the edge
  list whichever features it is applied to, so the second and third steps' aggregates are the first step's aggregate
  function at the hidden features.  The pool is an accumulation of whole rows into zeros at the row each node's graph id
  names: entry (g, f) is the sum of column f over the nodes whose id, read signed, is g; it is divided by the larger of
  the graph's count and one.  The readout is one more product with a transposed weight plus a bias row.
-/
import proofs.«410375_j5841155523230_3_alg».proof.Proof.Gen.ReferenceIdeal.Run
import proofs.«410375_j5841155523230_3_alg».proof.Proof.Gen.ReferenceIdeal.Read
import proofs.«410375_j5841155523230_3_alg».proof.Proof.GraphSpec
import proofs.«410375_j5841155523230_3_alg».proof.Proof.LibScatterRows2
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefValue

open scoped BigOperators
open Cert.ReferenceIdeal Cert.ReferenceIdeal.Gen Idealize.ShloMosaic Idealize.ShloMosaic.ValueIdx Idealize.ShloMosaic.StableHlo

/-! ## The arrays' types -/

/-- Node features, one row of 64 per node. -/
abbrev TNode : Type := (⟨S50000x64, .f32⟩ : BufTy).Contents (Elt Ideal)
/-- The edge list: a row of sources and a row of destinations. -/
abbrev TEdge : Type := (⟨S2x1250000, .i32⟩ : BufTy).Contents (Elt Ideal)
/-- One graph id per node. -/
abbrev TIds : Type := (⟨S50000, .i32⟩ : BufTy).Contents (Elt Ideal)
/-- A 64 × 64 weight, one row per output feature. -/
abbrev TW : Type := (⟨S64x64, .f32⟩ : BufTy).Contents (Elt Ideal)
/-- A bias row of 64. -/
abbrev TB : Type := (⟨S64, .f32⟩ : BufTy).Contents (Elt Ideal)
/-- One row of 64 per graph. -/
abbrev TPool : Type := (⟨S128x64, .f32⟩ : BufTy).Contents (Elt Ideal)

/-! ## The specification's terms -/

/-- the neighbour aggregate of features h along the edge list, as the reference computes it -/
abbrev aggR (h : TNode) (ei : TEdge) : TNode := Read.val_main_v13 (F := Ideal) h ei

/-- the per-graph node counts, as the reference computes them -/
abbrev countsR (ids : TIds) : (⟨S128, .f32⟩ : BufTy).Contents (Elt Ideal) := Read.val_main_v66 (F := Ideal) ids

/-- The hidden features after the first step. -/
def hidden1 (x0 : TNode) (x1 : TEdge) (x3 : TW) (x4 : TB) (x5 : TW) : TNode :=
  Cert.GraphSpec.relu (n := 50000) (Cert.GraphSpec.layer (n := 50000) (aggR x0 x1) x0 x3 x5 x4)

/-- The hidden features after the second step. -/
def hidden2 (x0 : TNode) (x1 : TEdge) (x3 : TW) (x4 : TB) (x5 x6 : TW) (x7 : TB) (x8 : TW) : TNode :=
  Cert.GraphSpec.relu (n := 50000)
    (Cert.GraphSpec.layer (n := 50000) (aggR (hidden1 x0 x1 x3 x4 x5) x1) (hidden1 x0 x1 x3 x4 x5) x6 x8 x7)

/-- The mean pool of the third step's result. -/
def pooledR (x0 : TNode) (x1 : TEdge) (x2 : TIds) (x3 : TW) (x4 : TB) (x5 x6 : TW) (x7 : TB) (x8 x9 : TW) (x10 : TB)
    (x11 : TW) : TPool :=
  Cert.GraphSpec.meanPool
    (Cert.GraphSpec.segSum x2
      (Cert.GraphSpec.layer (n := 50000) (aggR (hidden2 x0 x1 x3 x4 x5 x6 x7 x8) x1) (hidden2 x0 x1 x3 x4 x5 x6 x7 x8)
        x9 x11 x10))
    (countsR x2)

/-! ## One step: two products with a transposed weight, and a bias row -/

/-- Row p of the left factor, at the contraction position k. -/
theorem lidx_node (p : Fin 50000) (q k : Fin 64) : Read.lidx_main_v20 (ix2 p q) k = ix2 p k :=
  funext fun a => Fin.ext (by match a with | ⟨0, _⟩ => rfl | ⟨1, _⟩ => rfl)

/-- The transposed weight at (k, q) is the weight at (q, k). -/
theorem ridx_weight (p : Fin 50000) (q k : Fin 64) :
    Read.idx_main_v19 (Read.ridx_main_v20 (ix2 p q) k) = ix2 q k :=
  funext fun a => Fin.ext (by match a with | ⟨0, _⟩ => rfl | ⟨1, _⟩ => rfl)

/-- The bias row broadcast over the nodes reads the bias at the column. -/
theorem idx_bias (p : Fin 50000) (q : Fin 64) : Read.idx_main_v16 (Read.idx_main_v17 (ix2 p q)) = ix1 q :=
  funext fun a => Fin.ext (by match a with | ⟨0, _⟩ => rfl)

/-- The product of node features with a transposed weight, at (p, q): the inner product of row p of the features and
    row q of the weight. -/
theorem dotT_at (A : TNode) (W : TW) (p : Fin 50000) (q : Fin 64) :
    Read.val_main_v20 (F := Ideal) A W (ix2 p q) = Cert.GraphSpec.mulT (n := 50000) (k := 64) (d := 64) A W p q := by
  rw [Read.val_main_v20_apply]
  unfold Cert.GraphSpec.mulT
  refine Finset.sum_congr rfl fun k _ => ?_
  rw [Read.val_main_v19_apply, lidx_node, ridx_weight]

/-- The broadcast bias at (p, q) is the bias at q. -/
theorem bias_at (b : TB) (p : Fin 50000) (q : Fin 64) : Read.val_main_v17 (F := Ideal) b (ix2 p q) = b (ix1 q) := by
  rw [Read.val_main_v17_apply, Read.val_main_v16_apply, idx_bias]

/-- One step as the reference groups it, (A·Wᵀ + b) + H·W_rootᵀ, is the specification's step (A·Wᵀ + H·W_rootᵀ) + b:
    addition of extended reals is commutative and associative everywhere. -/
theorem layer_eq (A H : TNode) (W : TW) (b : TB) (Wr : TW) :
    (addf (F := Ideal) (s := S50000x64) (φ := .f32)
        (addf (F := Ideal) (s := S50000x64) (φ := .f32) (Read.val_main_v20 (F := Ideal) A W)
          (Read.val_main_v17 (F := Ideal) b))
        (Read.val_main_v20 (F := Ideal) H Wr) : TNode)
      = Cert.GraphSpec.layer (n := 50000) A H W Wr b := by
  funext i
  obtain ⟨p, q, rfl⟩ : ∃ (p : Fin 50000) (q : Fin 64), i = ix2 p q := ⟨i 0, i 1, eq_ix2 i⟩
  rw [addf_apply, addf_apply, dotT_at, dotT_at, bias_at]
  show _ = Cert.GraphSpec.mulT (n := 50000) (k := 64) (d := 64) A W p q
    + Cert.GraphSpec.mulT (n := 50000) (k := 64) (d := 64) H Wr p q + b (ix1 q)
  exact add_right_comm _ _ _

/-- max(·, 0) entry by entry, with the zero both sides carry as the same literal. -/
theorem relu_eq (y : TNode) :
    (maximumf (F := Ideal) (s := S50000x64) (φ := .f32) y (Read.val_main_call0_v0 (F := Ideal)) : TNode)
      = Cert.GraphSpec.relu (n := 50000) y := by
  funext i
  rw [maximumf_apply, Read.val_main_call0_v0_apply, Read.val_main_call0_cst_apply]
  rfl

/-! ## The three steps of the reference -/

/-- The first step before its activation. -/
theorem v21_eq (x0 : TNode) (x1 : TEdge) (x3 : TW) (x4 : TB) (x5 : TW) :
    Read.val_main_v21 (F := Ideal) x0 x1 x3 x4 x5 = Cert.GraphSpec.layer (n := 50000) (aggR x0 x1) x0 x3 x5 x4 :=
  layer_eq (Read.val_main_v13 (F := Ideal) x0 x1) x0 x3 x4 x5

/-- The hidden features after the first step. -/
theorem v22_eq (x0 : TNode) (x1 : TEdge) (x3 : TW) (x4 : TB) (x5 : TW) :
    Read.val_main_v22 (F := Ideal) x0 x1 x3 x4 x5 = hidden1 x0 x1 x3 x4 x5 := by
  unfold Read.val_main_v22 hidden1
  rw [v21_eq]
  exact relu_eq _

/-- The second step's aggregate is the aggregate function at the hidden features: the same operations on another
    operand. -/
theorem v32_eq (x0 : TNode) (x1 : TEdge) (x3 : TW) (x4 : TB) (x5 : TW) :
    Read.val_main_v32 (F := Ideal) x0 x1 x3 x4 x5 = aggR (Read.val_main_v22 (F := Ideal) x0 x1 x3 x4 x5) x1 := rfl

/-- The second step before its activation. -/
theorem v40_eq (x0 : TNode) (x1 : TEdge) (x3 : TW) (x4 : TB) (x5 x6 : TW) (x7 : TB) (x8 : TW) :
    Read.val_main_v40 (F := Ideal) x0 x1 x3 x4 x5 x6 x7 x8
      = Cert.GraphSpec.layer (n := 50000) (aggR (hidden1 x0 x1 x3 x4 x5) x1) (hidden1 x0 x1 x3 x4 x5) x6 x8 x7 := by
  have h : Read.val_main_v40 (F := Ideal) x0 x1 x3 x4 x5 x6 x7 x8
      = Cert.GraphSpec.layer (n := 50000) (Read.val_main_v32 (F := Ideal) x0 x1 x3 x4 x5)
          (Read.val_main_v22 (F := Ideal) x0 x1 x3 x4 x5) x6 x8 x7 :=
    layer_eq (Read.val_main_v32 (F := Ideal) x0 x1 x3 x4 x5) (Read.val_main_v22 (F := Ideal) x0 x1 x3 x4 x5) x6 x7 x8
  rw [h, v32_eq, v22_eq]

/-- The hidden features after the second step. -/
theorem v41_eq (x0 : TNode) (x1 : TEdge) (x3 : TW) (x4 : TB) (x5 x6 : TW) (x7 : TB) (x8 : TW) :
    Read.val_main_v41 (F := Ideal) x0 x1 x3 x4 x5 x6 x7 x8 = hidden2 x0 x1 x3 x4 x5 x6 x7 x8 := by
  unfold Read.val_main_v41 hidden2
  rw [v40_eq]
  exact relu_eq _

/-- The third step's aggregate, likewise. -/
theorem v51_eq (x0 : TNode) (x1 : TEdge) (x3 : TW) (x4 : TB) (x5 x6 : TW) (x7 : TB) (x8 : TW) :
    Read.val_main_v51 (F := Ideal) x0 x1 x3 x4 x5 x6 x7 x8
      = aggR (Read.val_main_v41 (F := Ideal) x0 x1 x3 x4 x5 x6 x7 x8) x1 := rfl

/-- The third step, which has no activation. -/
theorem v59_eq (x0 : TNode) (x1 : TEdge) (x3 : TW) (x4 : TB) (x5 x6 : TW) (x7 : TB) (x8 x9 : TW) (x10 : TB) (x11 : TW) :
    Read.val_main_v59 (F := Ideal) x0 x1 x3 x4 x5 x6 x7 x8 x9 x10 x11
      = Cert.GraphSpec.layer (n := 50000) (aggR (hidden2 x0 x1 x3 x4 x5 x6 x7 x8) x1) (hidden2 x0 x1 x3 x4 x5 x6 x7 x8)
          x9 x11 x10 := by
  have h : Read.val_main_v59 (F := Ideal) x0 x1 x3 x4 x5 x6 x7 x8 x9 x10 x11
      = Cert.GraphSpec.layer (n := 50000) (Read.val_main_v51 (F := Ideal) x0 x1 x3 x4 x5 x6 x7 x8)
          (Read.val_main_v41 (F := Ideal) x0 x1 x3 x4 x5 x6 x7 x8) x9 x11 x10 :=
    layer_eq (Read.val_main_v51 (F := Ideal) x0 x1 x3 x4 x5 x6 x7 x8)
      (Read.val_main_v41 (F := Ideal) x0 x1 x3 x4 x5 x6 x7 x8) x9 x10 x11
  rw [h, v51_eq, v41_eq]

/-! ## The pool -/

/-- The column of graph ids at row e is node e's id. -/
theorem ids_at (x2 : TIds) (e : Fin 50000) :
    Read.val_main_v61 (F := Ideal) x2 (ix2 e (0 : Fin 1)) = x2 (ix1 e) := by
  rw [Read.val_main_v61_apply]
  exact congrArg x2 (funext fun a => Fin.ext (by match a with | ⟨0, _⟩ => rfl))

/-- The array the rows are accumulated into is zero everywhere. -/
theorem zeros_at (i : S128x64.Idx) : Read.val_main_v60 (F := Ideal) i = (0 : EReal) := by
  rw [Read.val_main_v60_apply, Read.val_main_cst_7_apply, Ideal.ofBits_def, Ideal.ofBits_zero_f32]

/-- Accumulating the rows of y into zeros at the row each node's graph id names: entry (g, f) is the sum of column f
    of y over the nodes whose id, read signed, is g. -/
theorem poolsum_at (x2 : TIds) (y : TNode) (g : Fin 128) (f : Fin 64) :
    Host.scatterAdd (F := Ideal) (φ := .f32) scatter_S128x64_S50000x1_S50000x64_1_0_0_1
        (Read.val_main_v60 (F := Ideal)) (Read.val_main_v61 (F := Ideal) x2) y (ix2 g f)
      = Cert.GraphSpec.segSumAt x2 y g f := by
  unfold Host.scatterAdd
  rw [Ideal.hostScatterAdd_def]
  refine (Cert.LibScatterRows.hostScatterAdd_rows2 (N := 128) (C := 64) (n := 50000)
    scatter_S128x64_S50000x1_S50000x64_1_0_0_1 rfl rfl rfl rfl _ _ _ g f).trans ?_
  rw [zeros_at, zero_add]
  unfold Cert.GraphSpec.segSumAt
  refine Finset.sum_congr rfl fun e _ => ?_
  rw [ids_at]

/-- The count column broadcast over the features reads graph g's count. -/
theorem idx_count (g : Fin 128) (f : Fin 64) : Read.idx_main_v69 (Read.idx_main_v70 (ix2 g f)) = ix1 g :=
  funext fun a => Fin.ext (by match a with | ⟨0, _⟩ => rfl)

/-- The divisor at (g, f): the larger of graph g's count and one. -/
theorem denom_at (x2 : TIds) (g : Fin 128) (f : Fin 64) :
    Read.val_main_v70 (F := Ideal) x2 (ix2 g f)
      = max (countsR x2 (ix1 g)) (Ideal.ofBits .f32 0x3F800000#32) := by
  rw [Read.val_main_v70_apply, Read.val_main_v69_apply, Read.val_main_v68_apply, Read.val_main_v67_apply,
    Read.val_main_cst_10_apply, Ideal.maximumf_def, Ideal.ofBits_def, idx_count]

/-- The reference's first result is the mean pool of the third step. -/
theorem pooled_eq (x0 : TNode) (x1 : TEdge) (x2 : TIds) (x3 : TW) (x4 : TB) (x5 x6 : TW) (x7 : TB) (x8 x9 : TW)
    (x10 : TB) (x11 : TW) :
    Read.val_main_v71 (F := Ideal) x0 x1 x2 x3 x4 x5 x6 x7 x8 x9 x10 x11
      = pooledR x0 x1 x2 x3 x4 x5 x6 x7 x8 x9 x10 x11 := by
  funext i
  obtain ⟨g, f, rfl⟩ : ∃ (g : Fin 128) (f : Fin 64), i = ix2 g f := ⟨i 0, i 1, eq_ix2 i⟩
  rw [Read.val_main_v71_apply, denom_at, Ideal.hostDivf_def]
  unfold Read.val_main_v62
  rw [poolsum_at, v59_eq]
  rfl

/-! ## The readout -/

/-- Row g of the pooled features, at the contraction position k. -/
theorem lidx_pool (g : Fin 128) (c : Fin 10) (k : Fin 64) : Read.lidx_main_v73 (ix2 g c) k = ix2 g k :=
  funext fun a => Fin.ext (by match a with | ⟨0, _⟩ => rfl | ⟨1, _⟩ => rfl)

/-- The transposed readout weight at (k, c) is the weight at (c, k). -/
theorem ridx_lin (g : Fin 128) (c : Fin 10) (k : Fin 64) :
    Read.idx_main_v72 (Read.ridx_main_v73 (ix2 g c) k) = ix2 c k :=
  funext fun a => Fin.ext (by match a with | ⟨0, _⟩ => rfl | ⟨1, _⟩ => rfl)

/-- The readout bias broadcast over the graphs reads the bias at the class. -/
theorem idx_blin (g : Fin 128) (c : Fin 10) : Read.idx_main_v74 (Read.idx_main_v75 (ix2 g c)) = ix1 c :=
  funext fun a => Fin.ext (by match a with | ⟨0, _⟩ => rfl)

/-- The reference's second result is the readout of the pooled features. -/
theorem logits_eq (x0 : TNode) (x1 : TEdge) (x2 : TIds) (x3 : TW) (x4 : TB) (x5 x6 : TW) (x7 : TB) (x8 x9 : TW)
    (x10 : TB) (x11 : TW) (x12 : (⟨S10x64, .f32⟩ : BufTy).Contents (Elt Ideal))
    (x13 : (⟨S10, .f32⟩ : BufTy).Contents (Elt Ideal)) :
    Read.val_main_v76 (F := Ideal) x0 x1 x2 x3 x4 x5 x6 x7 x8 x9 x10 x11 x12 x13
      = Cert.GraphSpec.readout (pooledR x0 x1 x2 x3 x4 x5 x6 x7 x8 x9 x10 x11) x12 x13 := by
  funext i
  obtain ⟨g, c, rfl⟩ : ∃ (g : Fin 128) (c : Fin 10), i = ix2 g c := ⟨i 0, i 1, eq_ix2 i⟩
  rw [Read.val_main_v76_apply, Read.val_main_v73_apply, Read.val_main_v75_apply, Read.val_main_v74_apply, idx_blin,
    pooled_eq, Ideal.addf_def]
  show _ = Cert.GraphSpec.mulT (n := 128) (k := 10) (d := 64) (pooledR x0 x1 x2 x3 x4 x5 x6 x7 x8 x9 x10 x11) x12 g c
    + x13 (ix1 c)
  refine congrArg (fun t : EReal => t + x13 (ix1 c)) ?_
  unfold Cert.GraphSpec.mulT
  refine Finset.sum_congr rfl fun k _ => ?_
  rw [Read.val_main_v72_apply, lidx_pool, ridx_lin]

end Cert.ReferenceIdeal.RefValue

end
-- ==== Proof.Bridge.lean ====
/-
  The two idealized programs compute the same results.

  The kernel program's last boundary holds, at its two result arrays, what the pooling call writes back: the mean pool of
  the third layer's value and its readout, as functions of the buffers the call is entered with.  Walking back through the
  boundaries: the third layer's inputs are the second call's output and its neighbour aggregate, the second call's inputs the
  first call's output and its aggregate, the first call's inputs the node features and their aggregate; every weight, bias,
  the ids and the edge list are the arguments as launched.  The reference program's run reads back as the same composition
  of the same functions — the aggregate and the counts being, by unfolding alone, the reference's own stages.  So from
  memories agreeing on the arguments both runs end with the same two arrays.
-/
import proofs.«410375_j5841155523230_3_alg».proof.Defs
import proofs.«410375_j5841155523230_3_alg».proof.Proof.Launch
import proofs.«410375_j5841155523230_3_alg».proof.Proof.HostGlue
import proofs.«410375_j5841155523230_3_alg».proof.Proof.ConvValue0
import proofs.«410375_j5841155523230_3_alg».proof.Proof.ConvValue1
import proofs.«410375_j5841155523230_3_alg».proof.Proof.PoolValue
import proofs.«410375_j5841155523230_3_alg».proof.Proof.RefValue

noncomputable section

namespace Cert.KernelIdeal.Bridge

open Cert.KernelIdeal Cert.KernelIdeal.Gen Cert.KernelIdeal.Run
open Idealize.ShloMosaic Idealize.ShloMosaic.TcCoe Idealize.ShloMosaic.ValueIdx Idealize.SL.Sem
open Cert.GraphSpec Cert.ReferenceIdeal.RefValue

variable (m : (ℓ : Loc nD τ sig) → Buf (Elt Ideal) ℓ) (c : Dev nD)

/-! ## A buffer no item before a boundary writes holds its launch contents there -/

theorem atE1 (r : Ref sig .tc) (h0 : r ∉ hostOps0_W) : E1 m c r = m ((c.tc : Thread nD τ).loc r) :=
  (B1_keeps m c r h0).trans rfl
theorem atE3 (r : Ref sig .tc) (h0 : r ∉ hostOps0_W) (ha : r ≠ main_v14) (h1 : r ∉ hostOps1_W) :
    E3 m c r = m ((c.tc : Thread nD τ).loc r) :=
  (B3_keeps m c r h1).trans ((B2_keeps m c r ha).trans (atE1 m c r h0))
theorem atE5 (r : Ref sig .tc) (h0 : r ∉ hostOps0_W) (ha : r ≠ main_v14) (h1 : r ∉ hostOps1_W) (hb : r ≠ main_v25)
    (h2 : r ∉ hostOps2_W) : E5 m c r = m ((c.tc : Thread nD τ).loc r) :=
  (B5_keeps m c r h2).trans ((B4_keeps m c r hb).trans (atE3 m c r h0 ha h1))

/-! ## The edge list's two rows, split once by the first stretch, are there at every later boundary -/

theorem src1 : B1 m c (Proc.devRef .tc main_v1) = Glue.srcOf (m ((c.tc : Thread nD τ).loc main_arg1)) := Glue.first_src (B0 m c)
theorem dst1 : B1 m c (Proc.devRef .tc main_v3) = Glue.dstOf (m ((c.tc : Thread nD τ).loc main_arg1)) := Glue.first_dst (B0 m c)
theorem src2 : B2 m c (Proc.devRef .tc main_v1) = Glue.srcOf (m ((c.tc : Thread nD τ).loc main_arg1)) := (B2_keeps m c main_v1 (by decide)).trans (src1 m c)
theorem dst2 : B2 m c (Proc.devRef .tc main_v3) = Glue.dstOf (m ((c.tc : Thread nD τ).loc main_arg1)) := (B2_keeps m c main_v3 (by decide)).trans (dst1 m c)
theorem src4 : B4 m c (Proc.devRef .tc main_v1) = Glue.srcOf (m ((c.tc : Thread nD τ).loc main_arg1)) :=
  (B4_keeps m c main_v1 (by decide)).trans ((B3_keeps m c main_v1 (by decide)).trans (src2 m c))
theorem dst4 : B4 m c (Proc.devRef .tc main_v3) = Glue.dstOf (m ((c.tc : Thread nD τ).loc main_arg1)) :=
  (B4_keeps m c main_v3 (by decide)).trans ((B3_keeps m c main_v3 (by decide)).trans (dst2 m c))

/-! ## The hidden features, layer by layer -/

/-- The first call's output is the first hidden layer. -/
theorem out1 : E2 m c main_v14 = hidden1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have hv : E2 m c main_v14 = (Conv0.dat (E1 m) c).arrAt 5 cfg0.N := (conv0_arrays m c 5).symm
  rw [hv, Conv0Value.result (E1 m) c,
    show E1 m c main_v13 = aggR (m ((c.tc : Thread nD τ).loc main_arg0)) (m ((c.tc : Thread nD τ).loc main_arg1)) from (Glue.first_agg (B0 m c)).trans (Glue.aggFrom_eq _ _),
    atE1 m c main_arg0 (by decide), atE1 m c main_arg3 (by decide), atE1 m c main_arg5 (by decide), atE1 m c main_arg4 (by decide)]
  rfl

/-- The second call's output is the second hidden layer. -/
theorem out2 : E4 m c main_v25 = hidden2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hv : E4 m c main_v25 = (Conv1.dat (E3 m) c).arrAt 5 cfg1.N := (conv1_arrays m c 5).symm
  have hagg : E3 m c main_v24 = aggR (E2 m c main_v14) (m ((c.tc : Thread nD τ).loc main_arg1)) := by
    refine (Glue.second_agg (B2 m c)).trans ?_
    rw [src2 m c, dst2 m c]; exact Glue.aggFrom_eq _ _
  have hx : E3 m c main_v14 = E2 m c main_v14 := B3_keeps m c main_v14 (by decide)
  rw [hv, Conv1Value.result (E3 m) c, hagg, hx, out1 m c,
    atE3 m c main_arg6 (by decide) (by decide) (by decide), atE3 m c main_arg8 (by decide) (by decide) (by decide),
    atE3 m c main_arg7 (by decide) (by decide) (by decide)]
  rfl

theorem atB4 (r : Ref sig .tc) (h0 : r ∉ hostOps0_W) (ha : r ≠ main_v14) (h1 : r ∉ hostOps1_W) (hb : r ≠ main_v25) :
    B4 m c r = m ((c.tc : Thread nD τ).loc r) :=
  (B4_keeps m c r hb).trans (atE3 m c r h0 ha h1)

/-! ## What the pooling call reads -/

/-- The graph ids it reads are the argument's: the third stretch only reshapes them to a column. -/
theorem ids5 : PoolValue.poolIds (E5 m) c = (m ((c.tc : Thread nD τ).loc main_arg2)) := by
  funext i
  show E5 m c main_v36 (ix2 (i 0) (0 : Fin 1)) = _
  have h36 : E5 m c main_v36 = shapeCast _ (B4 m c (Proc.devRef .tc main_arg2)) shapeCasts_S50000_S50000x1 := Glue.third_ids (B4 m c)
  rw [h36, shapeCast_apply _ shapeCasts_S50000_S50000x1 (ix2 (i 0) (0 : Fin 1)) i
    (by rewrite [Shape.rowMajor_val_one, Shape.rowMajor_val_two]; show (i 0).val = (i 0).val * 1 + 0; omega)]
  exact congrFun (atB4 m c main_arg2 (by decide) (by decide) (by decide) (by decide)) i

/-- The counts it reads are the reference's count stage of the argument ids, reshaped to a column. -/
theorem counts5 : PoolValue.poolCounts (E5 m) c = countsR (m ((c.tc : Thread nD τ).loc main_arg2)) := by
  funext i
  show E5 m c main_v41 (ix2 (i 0) (0 : Fin 1)) = _
  have h41 : E5 m c main_v41 = shapeCast _ (Glue.countsFrom (B4 m c (Proc.devRef .tc main_arg2))) shapeCasts_S128_S128x1 :=
    Glue.third_counts (B4 m c)
  rw [h41, shapeCast_apply _ shapeCasts_S128_S128x1 (ix2 (i 0) (0 : Fin 1)) i
    (by rewrite [Shape.rowMajor_val_one, Shape.rowMajor_val_two]; show (i 0).val = (i 0).val * 1 + 0; omega),
    Glue.countsFrom_eq, atB4 m c main_arg2 (by decide) (by decide) (by decide) (by decide)]

/-- The third step's value on what the call reads is the third step on the second hidden layer. -/
theorem layer5 : PoolValue.lastLayer (E5 m) c
    = layer (n := 50000) (aggR (hidden2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1))) (hidden2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg11)) (m ((c.tc : Thread nD τ).loc main_arg10)) := by
  have hagg : E5 m c main_v35 = aggR (E4 m c main_v25) (m ((c.tc : Thread nD τ).loc main_arg1)) := by
    refine (Glue.third_agg (B4 m c)).trans ?_
    rw [src4 m c, dst4 m c]; exact Glue.aggFrom_eq _ _
  have hx : E5 m c main_v25 = E4 m c main_v25 := B5_keeps m c main_v25 (by decide)
  unfold PoolValue.lastLayer
  rw [hagg, hx, out2 m c,
    atE5 m c main_arg9 (by decide) (by decide) (by decide) (by decide) (by decide),
    atE5 m c main_arg11 (by decide) (by decide) (by decide) (by decide) (by decide),
    atE5 m c main_arg10 (by decide) (by decide) (by decide) (by decide) (by decide)]

/-- The kernel program's pooled result, as the reference's function of the arguments. -/
theorem pooled_is : (Pool.dat (F := Ideal) (E5 m) c).arrAt 9 cfg2.N = pooledR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [PoolValue.pooled_result (E5 m) c]
  unfold PoolValue.pooled
  rw [ids5 m c, counts5 m c, layer5 m c]
  rfl

/-- Its logits, likewise. -/
theorem logits_is : (Pool.dat (F := Ideal) (E5 m) c).arrAt 10 cfg2.N
    = readout (pooledR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg12)) (m ((c.tc : Thread nD τ).loc main_arg13)) := by
  rw [PoolValue.logits_result (E5 m) c]
  unfold PoolValue.pooled
  rw [ids5 m c, counts5 m c, layer5 m c,
    atE5 m c main_arg12 (by decide) (by decide) (by decide) (by decide) (by decide),
    atE5 m c main_arg13 (by decide) (by decide) (by decide) (by decide) (by decide)]
  rfl

/-! ## The reference's two functions respect equal arguments -/

theorem pooledR_congr {x0 y0 : TNode} {x1 y1 : TEdge} {x2 y2 : TIds} {x3 y3 : TW} {x4 y4 : TB} {x5 y5 : TW} {x6 y6 : TW} {x7 y7 : TB} {x8 y8 : TW} {x9 y9 : TW} {x10 y10 : TB} {x11 y11 : TW}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    pooledR x0 x1 x2 x3 x4 x5 x6 x7 x8 x9 x10 x11 = pooledR y0 y1 y2 y3 y4 y5 y6 y7 y8 y9 y10 y11 := by
  subst h0; subst h1; subst h2; subst h3; subst h4; subst h5; subst h6; subst h7; subst h8; subst h9; subst h10; subst h11; rfl

theorem logits_congr {x0 y0 : TNode} {x1 y1 : TEdge} {x2 y2 : TIds} {x3 y3 : TW} {x4 y4 : TB} {x5 y5 : TW} {x6 y6 : TW} {x7 y7 : TB} {x8 y8 : TW} {x9 y9 : TW} {x10 y10 : TB} {x11 y11 : TW}
    {x12 y12 : (⟨Cert.ReferenceIdeal.S10x64, .f32⟩ : BufTy).Contents (Elt Ideal)} {x13 y13 : (⟨Cert.ReferenceIdeal.S10, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    readout (pooledR x0 x1 x2 x3 x4 x5 x6 x7 x8 x9 x10 x11) x12 x13 = readout (pooledR y0 y1 y2 y3 y4 y5 y6 y7 y8 y9 y10 y11) y12 y13 := by
  subst h0; subst h1; subst h2; subst h3; subst h4; subst h5; subst h6; subst h7; subst h8; subst h9; subst h10; subst h11; subst h12; subst h13; rfl

/-! ## The claim -/

/-- From memories agreeing on the arguments both idealized programs run to the end, with the same pooled features and
    the same logits, the arguments unchanged. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => pooledR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)), fun c => readout (pooledR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg12)) (m ((c.tc : Thread nD τ).loc main_arg13)), ?_, ?_⟩
  · exact (θ_run Cert.KernelIdeal.defs _ _).mono
      (fun r h c => ⟨(h c).1.trans (pooled_is m c), (h c).2.1.trans (logits_is m c), (h c).2.2⟩)
      (Cert.KernelIdeal.Run.results (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13⟩ := hagree c
    refine ⟨(h c).1.trans ?_, (h c).2.1.trans ?_, (h c).2.2⟩
    · rw [Cert.ReferenceIdeal.Read.val_main_v71_eq, pooled_eq]
      exact pooledR_congr e0 e1 e2 e3 e4 e5 e6 e7 e8 e9 e10 e11
    · rw [Cert.ReferenceIdeal.Read.val_main_v76_eq, logits_eq]
      exact logits_congr e0 e1 e2 e3 e4 e5 e6 e7 e8 e9 e10 e11 e12 e13

end Cert.KernelIdeal.Bridge

end
-- ==== Proof.lean ====
/-
  The certificate of the fused graph-network kernel against its reference.

  Both the word-level kernel program and its idealization run as six items — host stretch, convolution call, host stretch,
  convolution call, host stretch, pooling call — and each argument array reads back through the six items as launched: the
  two kernel frames.  The reference is a straight line of host operations: its frame is its run with the results dropped.
  The ideal pass rewrote nothing, so the kernel's idealization is its own text read over the extended reals, and there is
  nothing to preserve.  Over the extended reals the two programs end with the same pooled features and the same logits:
  both are the mean pool (over each graph's nodes, an id that is no graph's belonging to no sum) of the third
  graph-convolution step on the second hidden layer, and its readout.
-/
import proofs.«410375_j5841155523230_3_alg».proof.Defs
import proofs.«410375_j5841155523230_3_alg».proof.Proof.Gen.Kernel
import proofs.«410375_j5841155523230_3_alg».proof.Proof.Gen.KernelIdeal
import proofs.«410375_j5841155523230_3_alg».proof.Proof.Gen.ReferenceIdeal
import proofs.«410375_j5841155523230_3_alg».proof.Proof.Gen.Pre_finite_inputs
import proofs.«410375_j5841155523230_3_alg».proof.Proof.Gen.ReferenceIdeal.Run
import proofs.«410375_j5841155523230_3_alg».proof.Proof.Launch
import proofs.«410375_j5841155523230_3_alg».proof.Proof.BitsLaunch
import proofs.«410375_j5841155523230_3_alg».proof.Proof.Bridge

noncomputable section

namespace Cert.Proof

open Idealize.ShloMosaic Idealize.SL.Sem

/-- The word-level kernel program runs to the end and leaves its arguments as launched. -/
theorem frame_kernel : Cert.frame_Kernel :=
  fun m ρ _ => Cert.Kernel.Run.frame m ρ

/-- So does its idealization. -/
theorem frame_kernelIdeal : Cert.frame_KernelIdeal :=
  fun m ρ _ => Cert.KernelIdeal.Run.frame m ρ

/-- The reference's frame is its run with the two results dropped. -/
theorem frame_reference : Cert.frame_ReferenceIdeal :=
  fun m ρ _ => (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.KernelIdeal.Bridge.algebraic⟩

end Cert.Proof

end
